-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x768 : Shape := ⟨3, ![4, 1024, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S3072x768 : Shape := ⟨2, ![3072, 768]⟩
abbrev S3072 : Shape := ⟨1, ![3072]⟩
abbrev S768x3072 : Shape := ⟨2, ![768, 3072]⟩
abbrev S_ : Shape := ⟨0, ![]⟩

class Facts : Prop where
  bcast_S_S4x1024x768 : S_.BroadcastsInDim S4x1024x768 (![] : Fin 0 → Fin S4x1024x768.rank)
  reducesTo_S4x1024x768_S_d0_1_2 : S4x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S3072x768 : S_.BroadcastsInDim S3072x768 (![] : Fin 0 → Fin S3072x768.rank)
  reducesTo_S3072x768_S_d0_1 : S3072x768.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_

variable [Facts]

def fn_part2 {F : FTy → Type} [FloatOps F] (main_arg7 : FVec F S768x3072 .f32) (main_arg8 : FVec F S768 .f32) (main_v33 : IVec S_ 1) : IVec S_ 1 :=
  let main_v34 : FVec F S768x3072 .f32 := Host.absf main_arg7
  let main_cst_12 : FVec F S_ .f32 := constant S_ .f32 0x7F800000#32
  let main_v35 : FVec F S768x3072 .f32 := broadcastInDim S768x3072 ![] bcast_S_S768x3072 main_cst_12
  let main_v36 : IVec S768x3072 1 := cmpf .olt main_v34 main_v35
  let main_c_13 : IVec S_ 1 := constantI S_ 1 1#1
  let main_v37 : IVec S_ 1 := (fun x v => Host.reduce IntOp.andi x v reducesTo_S768x3072_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S768 .f32) (main_arg5 : FVec F S3072x768 .f32) (main_arg6 : FVec F S3072 .f32) (main_arg7 : FVec F S768x3072 .f32) (main_arg8 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S3072x768 .f32 := Host.absf main_arg5
  let main_cst_8 : FVec F S_ .f32 := constant S_ .f32 0x7F800000#32
  let main_v25 : FVec F S3072x768 .f32 := broadcastInDim S3072x768 ![] bcast_S_S3072x768 main_cst_8
  let main_v26 : IVec S3072x768 1 := cmpf .olt main_v24 main_v25
  let main_c_9 : IVec S_ 1 := constantI S_ 1 1#1
  let main_v27 : IVec S_ 1 := (fun x v => Host.reduce IntOp.andi x v reducesTo_S3072x768_S_d0_1 h_S_) main_v26 main_c_9
  let main_v28 : IVec S_ 1 := andi main_v23 main_v27
  let main_v29 : FVec F S3072 .f32 := Host.absf main_arg6
  let main_cst_10 : FVec F S_ .f32 := constant S_ .f32 0x7F800000#32
  let main_v30 : FVec F S3072 .f32 := broadcastInDim S3072 ![] bcast_S_S3072 main_cst_10
  let main_v31 : IVec S3072 1 := cmpf .olt main_v29 main_v30
  let main_c_11 : IVec S_ 1 := constantI S_ 1 1#1
  let main_v32 : IVec S_ 1 := (fun x v => Host.reduce IntOp.andi x v reducesTo_S3072_S_d0 h_S_) main_v31 main_c_11
  let main_v33 : IVec S_ 1 := andi main_v28 main_v32
  fn_part2 (F := F) main_arg7 main_arg8 main_v33

def fn {F : FTy → Type} [FloatOps F] (main_arg0 : FVec F S4x1024x768 .f32) (main_arg1 : FVec F S2304x768 .f32) (main_arg2 : FVec F S2304 .f32) (main_arg3 : FVec F S768x768 .f32) (main_arg4 : FVec F S768 .f32) (main_arg5 : FVec F S3072x768 .f32) (main_arg6 : FVec F S3072 .f32) (main_arg7 : FVec F S768x3072 .f32) (main_arg8 : FVec F S768 .f32) : IVec S_ 1 :=
  let main_v0 : FVec F S4x1024x768 .f32 := Host.absf main_arg0
  let main_cst : FVec F S_ .f32 := constant S_ .f32 0x7F800000#32
  let main_v1 : FVec F S4x1024x768 .f32 := broadcastInDim S4x1024x768 ![] bcast_S_S4x1024x768 main_cst
  let main_v2 : IVec S4x1024x768 1 := cmpf .olt main_v0 main_v1
  let main_c : IVec S_ 1 := constantI S_ 1 1#1
  let main_v3 : IVec S_ 1 := (fun x v => Host.reduce IntOp.andi x v reducesTo_S4x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_v13 main_v16
-- ==== Kernel.lean ====
abbrev S4x1024x768 : Shape := ⟨3, ![4, 1024, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S3072x768 : Shape := ⟨2, ![3072, 768]⟩
abbrev S3072 : Shape := ⟨1, ![3072]⟩
abbrev S768x3072 : Shape := ⟨2, ![768, 3072]⟩
abbrev S1x2304 : Shape := ⟨2, ![1, 2304]⟩
abbrev S1x1024x768 : Shape := ⟨3, ![1, 1024, 768]⟩
abbrev S1024x1024 : Shape := ⟨2, ![1024, 1024]⟩
abbrev S1024x768 : Shape := ⟨2, ![1024, 768]⟩
abbrev S192x768 : Shape := ⟨2, ![192, 768]⟩
abbrev S1x192 : Shape := ⟨2, ![1, 192]⟩
abbrev S192 : Shape := ⟨1, ![192]⟩
abbrev S1024x192 : Shape := ⟨2, ![1024, 192]⟩
abbrev S1024x64 : Shape := ⟨2, ![1024, 64]⟩
abbrev S1x1024x64 : Shape := ⟨3, ![1, 1024, 64]⟩
abbrev S4096x768 : Shape := ⟨2, ![4096, 768]⟩
abbrev S1x768 : Shape := ⟨2, ![1, 768]⟩
abbrev S1x3072 : Shape := ⟨2, ![1, 3072]⟩
abbrev S512x768 : Shape := ⟨2, ![512, 768]⟩
abbrev S512x3072 : Shape := ⟨2, ![512, 3072]⟩

abbrev nBuf : Space → Nat
  | .hbm => 19
  | .vmem => 24
  | .smem => 0
  | _ => 0

abbrev bufTy : (tb : Table) → Fin (tcTables nBuf tb) → BufTy
  | .hbm, ⟨0, _⟩ => ⟨S4x1024x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S3072x768, .f32⟩
  | .hbm, ⟨6, _⟩ => ⟨S3072, .f32⟩
  | .hbm, ⟨7, _⟩ => ⟨S768x3072, .f32⟩
  | .hbm, ⟨8, _⟩ => ⟨S768, .f32⟩
  | .hbm, ⟨9, _⟩ => ⟨S1x2304, .f32⟩
  | .hbm, ⟨10, _⟩ => ⟨S4x1024x768, .f32⟩
  | .hbm, ⟨11, _⟩ => ⟨S4096x768, .f32⟩
  | .hbm, ⟨12, _⟩ => ⟨S4096x768, .f32⟩
  | .hbm, ⟨13, _⟩ => ⟨S1x768, .f32⟩
  | .hbm, ⟨14, _⟩ => ⟨S4096x768, .f32⟩
  | .hbm, ⟨15, _⟩ => ⟨S1x3072, .f32⟩
  | .hbm, ⟨16, _⟩ => ⟨S1x768, .f32⟩
  | .hbm, ⟨17, _⟩ => ⟨S4096x768, .f32⟩
  | .hbm, ⟨18, _⟩ => ⟨S4x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S2304x768, .f32⟩
  | .local _ .vmem, ⟨3, _⟩ => ⟨S1x2304, .f32⟩
  | .local _ .vmem, ⟨4, _⟩ => ⟨S1x1024x768, .f32⟩
  | .local _ .vmem, ⟨5, _⟩ => ⟨S1x1024x768, .f32⟩
  | .local _ .vmem, ⟨6, _⟩ => ⟨S1024x1024, .f32⟩
  | .local _ .vmem, ⟨7, _⟩ => ⟨S1024x768, .f32⟩
  | .local _ .vmem, ⟨8, _⟩ => ⟨S1024x768, .f32⟩
  | .local _ .vmem, ⟨9, _⟩ => ⟨S1024x768, .f32⟩
  | .local _ .vmem, ⟨10, _⟩ => ⟨S1024x768, .f32⟩
  | .local _ .vmem, ⟨11, _⟩ => ⟨S768x768, .f32⟩
  | .local _ .vmem, ⟨12, _⟩ => ⟨S1x768, .f32⟩
  | .local _ .vmem, ⟨13, _⟩ => ⟨S1024x768, .f32⟩
  | .local _ .vmem, ⟨14, _⟩ => ⟨S1024x768, .f32⟩
  | .local _ .vmem, ⟨15, _⟩ => ⟨S512x768, .f32⟩
  | .local _ .vmem, ⟨16, _⟩ => ⟨S512x768, .f32⟩
  | .local _ .vmem, ⟨17, _⟩ => ⟨S3072x768, .f32⟩
  | .local _ .vmem, ⟨18, _⟩ => ⟨S1x3072, .f32⟩
  | .local _ .vmem, ⟨19, _⟩ => ⟨S768x3072, .f32⟩
  | .local _ .vmem, ⟨20, _⟩ => ⟨S1x768, .f32⟩
  | .local _ .vmem, ⟨21, _⟩ => ⟨S512x768, .f32⟩
  | .local _ .vmem, ⟨22, _⟩ => ⟨S512x768, .f32⟩
  | .local _ .vmem, ⟨23, _⟩ => ⟨S512x3072, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S768x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3072x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x3072 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S768x3072 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S2304_S1x2304 : S2304.ShapeCasts S1x2304
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S2304x768_S192x768_0_0 : ∀ a, (![0, 0] : Fin 2 → Nat) a + S192x768.size a ≤ S2304x768.size a
  h_S192x768 : 0 < S192x768.numel
  inb_S1x2304_S1x192_0_0 : ∀ a, (![0, 0] : Fin 2 → Nat) a + S1x192.size a ≤ S1x2304.size a
  h_S1x192 : 0 < S1x192.numel
  shapeCasts_S1x192_S192 : S1x192.ShapeCasts S192
  shapeCasts_S192_S1x192 : S192.ShapeCasts S1x192
  broadcasts_S1x192_S1024x192 : S1x192.Broadcasts S1024x192
  slices_S1024x192_o0_0_S1024x64 : S1024x192.Slices ![0, 0] S1024x64
  slices_S1024x192_o0_64_S1024x64 : S1024x192.Slices ![0, 64] S1024x64
  slices_S1024x192_o0_128_S1024x64 : S1024x192.Slices ![0, 128] S1024x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x768_S1x1024x64_0_0_0 : ∀ a, (![0, 0, 0] : Fin 3 → Nat) a + S1x1024x64.size a ≤ S1x1024x768.size a
  h_S1x1024x64 : 0 < S1x1024x64.numel
  shapeCasts_S1x1024x64_S1024x64 : S1x1024x64.ShapeCasts S1024x64
  shapeCasts_S1024x64_S1x1024x64 : S1024x64.ShapeCasts S1x1024x64
  inb_S2304x768_S192x768_192_0 : ∀ a, (![192, 0] : Fin 2 → Nat) a + S192x768.size a ≤ S2304x768.size a
  inb_S1x2304_S1x192_0_192 : ∀ a, (![0, 192] : Fin 2 → Nat) a + S1x192.size a ≤ S1x2304.size a
  inb_S1x1024x768_S1x1024x64_0_0_64 : ∀ a, (![0, 0, 64] : Fin 3 → Nat) a + S1x1024x64.size a ≤ S1x1024x768.size a
  inb_S2304x768_S192x768_384_0 : ∀ a, (![384, 0] : Fin 2 → Nat) a + S192x768.size a ≤ S2304x768.size a
  inb_S1x2304_S1x192_0_384 : ∀ a, (![0, 384] : Fin 2 → Nat) a + S1x192.size a ≤ S1x2304.size a
  inb_S1x1024x768_S1x1024x64_0_0_128 : ∀ a, (![0, 0, 128] : Fin 3 → Nat) a + S1x1024x64.size a ≤ S1x1024x768.size a
  inb_S2304x768_S192x768_576_0 : ∀ a, (![576, 0] : Fin 2 → Nat) a + S192x768.size a ≤ S2304x768.size a
  inb_S1x2304_S1x192_0_576 : ∀ a, (![0, 576] : Fin 2 → Nat) a + S1x192.size a ≤ S1x2304.size a
  inb_S1x1024x768_S1x1024x64_0_0_192 : ∀ a, (![0, 0, 192] : Fin 3 → Nat) a + S1x1024x64.size a ≤ S1x1024x768.size a
  inb_S2304x768_S192x768_768_0 : ∀ a, (![768, 0] : Fin 2 → Nat) a + S192x768.size a ≤ S2304x768.size a
  inb_S1x2304_S1x192_0_768 : ∀ a, (![0, 768] : Fin 2 → Nat) a + S1x192.size a ≤ S1x2304.size a
  inb_S1x1024x768_S1x1024x64_0_0_256 : ∀ a, (![0, 0, 256] : Fin 3 → Nat) a + S1x1024x64.size a ≤ S1x1024x768.size a
  inb_S2304x768_S192x768_960_0 : ∀ a, (![960, 0] : Fin 2 → Nat) a + S192x768.size a ≤ S2304x768.size a
  inb_S1x2304_S1x192_0_960 : ∀ a, (![0, 960] : Fin 2 → Nat) a + S1x192.size a ≤ S1x2304.size a
  inb_S1x1024x768_S1x1024x64_0_0_320 : ∀ a, (![0, 0, 320] : Fin 3 → Nat) a + S1x1024x64.size a ≤ S1x1024x768.size a
  inb_S2304x768_S192x768_1152_0 : ∀ a, (![1152, 0] : Fin 2 → Nat) a + S192x768.size a ≤ S2304x768.size a
  inb_S1x2304_S1x192_0_1152 : ∀ a, (![0, 1152] : Fin 2 → Nat) a + S1x192.size a ≤ S1x2304.size a
  inb_S1x1024x768_S1x1024x64_0_0_384 : ∀ a, (![0, 0, 384] : Fin 3 → Nat) a + S1x1024x64.size a ≤ S1x1024x768.size a
  inb_S2304x768_S192x768_1344_0 : ∀ a, (![1344, 0] : Fin 2 → Nat) a + S192x768.size a ≤ S2304x768.size a
  inb_S1x2304_S1x192_0_1344 : ∀ a, (![0, 1344] : Fin 2 → Nat) a + S1x192.size a ≤ S1x2304.size a
  inb_S1x1024x768_S1x1024x64_0_0_448 : ∀ a, (![0, 0, 448] : Fin 3 → Nat) a + S1x1024x64.size a ≤ S1x1024x768.size a
  inb_S2304x768_S192x768_1536_0 : ∀ a, (![1536, 0] : Fin 2 → Nat) a + S192x768.size a ≤ S2304x768.size a
  inb_S1x2304_S1x192_0_1536 : ∀ a, (![0, 1536] : Fin 2 → Nat) a + S1x192.size a ≤ S1x2304.size a
  inb_S1x1024x768_S1x1024x64_0_0_512 : ∀ a, (![0, 0, 512] : Fin 3 → Nat) a + S1x1024x64.size a ≤ S1x1024x768.size a
  inb_S2304x768_S192x768_1728_0 : ∀ a, (![1728, 0] : Fin 2 → Nat) a + S192x768.size a ≤ S2304x768.size a
  inb_S1x2304_S1x192_0_1728 : ∀ a, (![0, 1728] : Fin 2 → Nat) a + S1x192.size a ≤ S1x2304.size a
  inb_S1x1024x768_S1x1024x64_0_0_576 : ∀ a, (![0, 0, 576] : Fin 3 → Nat) a + S1x1024x64.size a ≤ S1x1024x768.size a
  inb_S2304x768_S192x768_1920_0 : ∀ a, (![1920, 0] : Fin 2 → Nat) a + S192x768.size a ≤ S2304x768.size a
  inb_S1x2304_S1x192_0_1920 : ∀ a, (![0, 1920] : Fin 2 → Nat) a + S1x192.size a ≤ S1x2304.size a
  inb_S1x1024x768_S1x1024x64_0_0_640 : ∀ a, (![0, 0, 640] : Fin 3 → Nat) a + S1x1024x64.size a ≤ S1x1024x768.size a
  inb_S2304x768_S192x768_2112_0 : ∀ a, (![2112, 0] : Fin 2 → Nat) a + S192x768.size a ≤ S2304x768.size a
  inb_S1x2304_S1x192_0_2112 : ∀ a, (![0, 2112] : Fin 2 → Nat) a + S1x192.size a ≤ S1x2304.size a
  inb_S1x1024x768_S1x1024x64_0_0_704 : ∀ a, (![0, 0, 704] : Fin 3 → Nat) a + S1x1024x64.size a ≤ S1x1024x768.size a
  shapeCasts_S4x1024x768_S4096x768 : S4x1024x768.ShapeCasts S4096x768
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S768 : S1x768.ShapeCasts S768
  broadcasts_S1x768_S1024x768 : S1x768.Broadcasts S1024x768
  shapeCasts_S3072_S1x3072 : S3072.ShapeCasts S1x3072
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S3072x768_S3072x768_0_0 : ∀ a, (![0, 0] : Fin 2 → Nat) a + S3072x768.size a ≤ S3072x768.size a
  h_S3072x768 : 0 < S3072x768.numel
  inb_S1x3072_S1x3072_0_0 : ∀ a, (![0, 0] : Fin 2 → Nat) a + S1x3072.size a ≤ S1x3072.size a
  h_S1x3072 : 0 < S1x3072.numel
  shapeCasts_S1x3072_S3072 : S1x3072.ShapeCasts S3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S768x3072_S768x3072_0_0 : ∀ a, (![0, 0] : Fin 2 → Nat) a + S768x3072.size a ≤ S768x3072.size a
  h_S768x3072 : 0 < S768x3072.numel
  broadcasts_S1x768_S512x768 : S1x768.Broadcasts S512x768
  shapeCasts_S4096x768_S4x1024x768 : S4096x768.ShapeCasts S4x1024x768
  dot_S1024x768_S192x768_S1024x192_1_1_0_0_n_n_wf : DotDims.WF S1024x768 S192x768 S1024x192 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x768_S768x768_S1024x768_1_1_0_0_n_n_wf : DotDims.WF S1024x768 S768x768 S1024x768 [1] [1] [0] [0] [] []
  dot_S512x768_S3072x768_S512x3072_1_1_0_0_n_n_wf : DotDims.WF S512x768 S3072x768 S512x3072 [1] [1] [0] [0] [] []
  dot_S512x3072_S768x3072_S512x768_1_1_0_0_n_n_wf : DotDims.WF S512x3072 S768x3072 S512x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S4x1024x768.size a
  hwx0_0 : ∀ i : grid0.Coords, EltTy.bits .f32 = 32 ∨ (Rect.block (s := S4x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .f32 = 32 ∨ (Rect.block (s := S2304x768) S2304x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x768.size a ≤ S4x1024x768.size a
  hwx0_3 : ∀ i : grid0.Coords, EltTy.bits .f32 = 32 ∨ (Rect.block (s := S4x1024x768) S1x1024x768.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S4096x768.size a
  hwx1_0 : ∀ i : grid1.Coords, EltTy.bits .f32 = 32 ∨ (Rect.block (s := S4096x768) S1024x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x768.size a ≤ S4096x768.size a
  hwx1_1 : ∀ i : grid1.Coords, EltTy.bits .f32 = 32 ∨ (Rect.block (s := S4096x768) S1024x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768x768.size a ≤ S768x768.size a
  hwx1_2 : ∀ i : grid1.Coords, EltTy.bits .f32 = 32 ∨ (Rect.block (s := S768x768) S768x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x768.size a ≤ S1x768.size a
  hwx1_3 : ∀ i : grid1.Coords, EltTy.bits .f32 = 32 ∨ (Rect.block (s := S1x768) S1x768.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x768.size a ≤ S4096x768.size a
  hwx1_4 : ∀ i : grid1.Coords, EltTy.bits .f32 = 32 ∨ (Rect.block (s := S4096x768) S1024x768.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S4096x768.size a
  hwx2_0 : ∀ i : grid2.Coords, EltTy.bits .f32 = 32 ∨ (Rect.block (s := S4096x768) S512x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3072x768.size a ≤ S3072x768.size a
  hwx2_1 : ∀ i : grid2.Coords, EltTy.bits .f32 = 32 ∨ (Rect.block (s := S3072x768) S3072x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x3072.size a ≤ S1x3072.size a
  hwx2_2 : ∀ i : grid2.Coords, EltTy.bits .f32 = 32 ∨ (Rect.block (s := S1x3072) S1x3072.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S768x3072.size a ≤ S768x3072.size a
  hwx2_3 : ∀ i : grid2.Coords, EltTy.bits .f32 = 32 ∨ (Rect.block (s := S768x3072) S768x3072.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x768.size a ≤ S1x768.size a
  hwx2_4 : ∀ i : grid2.Coords, EltTy.bits .f32 = 32 ∨ (Rect.block (s := S1x768) S1x768.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x768.size a ≤ S4096x768.size a
  hwx2_5 : ∀ i : grid2.Coords, EltTy.bits .f32 = 32 ∨ (Rect.block (s := S4096x768) S512x768.size (cc2_transform_5 i) (hinb2_5 i)).WholeWords (EltTy.packing .f32)

variable [Facts₀]

def dot_S1024x768_S192x768_S1024x192_1_1_0_0_n_n : DotDims S1024x768 S192x768 S1024x192 where
  lhsContracting := [1]
  rhsContracting := [1]
  lhsNonContracting := [0]
  rhsNonContracting := [0]
  lhsBatch := []
  rhsBatch := []
  wf := dot_S1024x768_S192x768_S1024x192_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x768_S768x768_S1024x768_1_1_0_0_n_n : DotDims S1024x768 S768x768 S1024x768 where
  lhsContracting := [1]
  rhsContracting := [1]
  lhsNonContracting := [0]
  rhsNonContracting := [0]
  lhsBatch := []
  rhsBatch := []
  wf := dot_S1024x768_S768x768_S1024x768_1_1_0_0_n_n_wf
def dot_S512x768_S3072x768_S512x3072_1_1_0_0_n_n : DotDims S512x768 S3072x768 S512x3072 where
  lhsContracting := [1]
  rhsContracting := [1]
  lhsNonContracting := [0]
  rhsNonContracting := [0]
  lhsBatch := []
  rhsBatch := []
  wf := dot_S512x768_S3072x768_S512x3072_1_1_0_0_n_n_wf
def dot_S512x3072_S768x3072_S512x768_1_1_0_0_n_n : DotDims S512x3072 S768x3072 S512x768 where
  lhsContracting := [1]
  rhsContracting := [1]
  lhsNonContracting := [0]
  rhsNonContracting := [0]
  lhsBatch := []
  rhsBatch := []
  wf := dot_S512x3072_S768x3072_S512x768_1_1_0_0_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S768x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1024x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v5) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S3072x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x3072.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S768x3072.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x768.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S512x768.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4x1024x768 : Shape := ⟨3, ![4, 1024, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S3072x768 : Shape := ⟨2, ![3072, 768]⟩
abbrev S3072 : Shape := ⟨1, ![3072]⟩
abbrev S768x3072 : Shape := ⟨2, ![768, 3072]⟩
abbrev S12x192x768 : Shape := ⟨3, ![12, 192, 768]⟩
abbrev S12x192 : Shape := ⟨2, ![12, 192]⟩
abbrev S12x64x768 : Shape := ⟨3, ![12, 64, 768]⟩
abbrev S12x64 : Shape := ⟨2, ![12, 64]⟩
abbrev S12x64x4x1024 : Shape := ⟨4, ![12, 64, 4, 1024]⟩
abbrev S4x12x1024x64 : Shape := ⟨4, ![4, 12, 1024, 64]⟩
abbrev S1x12x1x64 : Shape := ⟨4, ![1, 12, 1, 64]⟩
abbrev S_ : Shape := ⟨0, ![]⟩
abbrev S4x12x1024x1024 : Shape := ⟨4, ![4, 12, 1024, 1024]⟩
abbrev S4x1024x12x64 : Shape := ⟨4, ![4, 1024, 12, 64]⟩
abbrev S1x1x768 : Shape := ⟨3, ![1, 1, 768]⟩
abbrev S4x1024x3072 : Shape := ⟨3, ![4, 1024, 3072]⟩
abbrev S1x1x3072 : Shape := ⟨3, ![1, 1, 3072]⟩

abbrev nBuf : Space → Nat
  | .hbm => 208
  | .vmem => 0
  | .smem => 0
  | _ => 0

abbrev hbmTy0_0 (i : Nat) : BufTy := match i % 128 with
  | 0 => ⟨S4x1024x768, .f32⟩
  | 1 => ⟨S2304x768, .f32⟩
  | 2 => ⟨S2304, .f32⟩
  | 3 => ⟨S768x768, .f32⟩
  | 4 => ⟨S768, .f32⟩
  | 5 => ⟨S3072x768, .f32⟩
  | 6 => ⟨S3072, .f32⟩
  | 7 => ⟨S768x3072, .f32⟩
  | 8 => ⟨S768, .f32⟩
  | 9 => ⟨S12x192x768, .f32⟩
  | 10 => ⟨S12x192, .f32⟩
  | 11 => ⟨S12x64x768, .f32⟩
  | 12 => ⟨S12x64x768, .f32⟩
  | 13 => ⟨S12x64x768, .f32⟩
  | 14 => ⟨S12x64, .f32⟩
  | 15 => ⟨S12x64, .f32⟩
  | 16 => ⟨S12x64, .f32⟩
  | 17 => ⟨S12x64x4x1024, .f32⟩
  | 18 => ⟨S4x12x1024x64, .f32⟩
  | 19 => ⟨S1x12x1x64, .f32⟩
  | 20 => ⟨S_, .f32⟩
  | 21 => ⟨S1x12x1x64, .f32⟩
  | 22 => ⟨S1x12x1x64, .f32⟩
  | 23 => ⟨S4x12x1024x64, .f32⟩
  | 24 => ⟨S4x12x1024x64, .f32⟩
  | 25 => ⟨S_, .f32⟩
  | 26 => ⟨S4x12x1024x64, .f32⟩
  | 27 => ⟨S4x12x1024x64, .f32⟩
  | 28 => ⟨S4x12x1024x64, .f32⟩
  | 29 => ⟨S4x12x1024x64, .f32⟩
  | 30 => ⟨S4x12x1024x64, .f32⟩
  | 31 => ⟨S_, .f32⟩
  | 32 => ⟨S_, .f32⟩
  | 33 => ⟨S_, .f32⟩
  | 34 => ⟨S4x12x1024x64, .f32⟩
  | 35 => ⟨S4x12x1024x64, .f32⟩
  | 36 => ⟨S_, .f32⟩
  | 37 => ⟨S4x12x1024x64, .f32⟩
  | 38 => ⟨S4x12x1024x64, .f32⟩
  | 39 => ⟨S12x64x4x1024, .f32⟩
  | 40 => ⟨S4x12x1024x64, .f32⟩
  | 41 => ⟨S1x12x1x64, .f32⟩
  | 42 => ⟨S_, .f32⟩
  | 43 => ⟨S1x12x1x64, .f32⟩
  | 44 => ⟨S1x12x1x64, .f32⟩
  | 45 => ⟨S4x12x1024x64, .f32⟩
  | 46 => ⟨S4x12x1024x64, .f32⟩
  | 47 => ⟨S_, .f32⟩
  | 48 => ⟨S4x12x1024x64, .f32⟩
  | 49 => ⟨S4x12x1024x64, .f32⟩
  | 50 => ⟨S4x12x1024x64, .f32⟩
  | 51 => ⟨S4x12x1024x64, .f32⟩
  | 52 => ⟨S4x12x1024x64, .f32⟩
  | 53 => ⟨S_, .f32⟩
  | 54 => ⟨S_, .f32⟩
  | 55 => ⟨S_, .f32⟩
  | 56 => ⟨S4x12x1024x64, .f32⟩
  | 57 => ⟨S4x12x1024x64, .f32⟩
  | 58 => ⟨S_, .f32⟩
  | 59 => ⟨S4x12x1024x64, .f32⟩
  | 60 => ⟨S4x12x1024x64, .f32⟩
  | 61 => ⟨S12x64x4x1024, .f32⟩
  | 62 => ⟨S4x12x1024x64, .f32⟩
  | 63 => ⟨S1x12x1x64, .f32⟩
  | 64 => ⟨S_, .f32⟩
  | 65 => ⟨S1x12x1x64, .f32⟩
  | 66 => ⟨S1x12x1x64, .f32⟩
  | 67 => ⟨S4x12x1024x64, .f32⟩
  | 68 => ⟨S4x12x1024x64, .f32⟩
  | 69 => ⟨S_, .f32⟩
  | 70 => ⟨S4x12x1024x64, .f32⟩
  | 71 => ⟨S4x12x1024x64, .f32⟩
  | 72 => ⟨S4x12x1024x64, .f32⟩
  | 73 => ⟨S4x12x1024x64, .f32⟩
  | 74 => ⟨S4x12x1024x64, .f32⟩
  | 75 => ⟨S_, .f32⟩
  | 76 => ⟨S_, .f32⟩
  | 77 => ⟨S_, .f32⟩
  | 78 => ⟨S4x12x1024x64, .f32⟩
  | 79 => ⟨S4x12x1024x64, .f32⟩
  | 80 => ⟨S_, .f32⟩
  | 81 => ⟨S4x12x1024x64, .f32⟩
  | 82 => ⟨S4x12x1024x64, .f32⟩
  | 83 => ⟨S4x12x1024x1024, .f32⟩
  | 84 => ⟨S_, .f32⟩
  | 85 => ⟨S4x12x1024x1024, .f32⟩
  | 86 => ⟨S4x12x1024x1024, .f32⟩
  | 87 => ⟨S4x12x1024x1024, .f32⟩
  | 88 => ⟨S4x12x1024x1024, .f32⟩
  | 89 => ⟨S4x12x1024x1024, .f32⟩
  | 90 => ⟨S_, .f32⟩
  | 91 => ⟨S_, .f32⟩
  | 92 => ⟨S_, .f32⟩
  | 93 => ⟨S4x12x1024x1024, .f32⟩
  | 94 => ⟨S4x12x1024x1024, .f32⟩
  | 95 => ⟨S_, .f32⟩
  | 96 => ⟨S4x12x1024x1024, .f32⟩
  | 97 => ⟨S4x12x1024x1024, .f32⟩
  | 98 => ⟨S4x12x1024x64, .f32⟩
  | 99 => ⟨S_, .f32⟩
  | 100 => ⟨S4x12x1024x64, .f32⟩
  | 101 => ⟨S4x12x1024x64, .f32⟩
  | 102 => ⟨S4x12x1024x64, .f32⟩
  | 103 => ⟨S4x12x1024x64, .f32⟩
  | 104 => ⟨S4x12x1024x64, .f32⟩
  | 105 => ⟨S_, .f32⟩
  | 106 => ⟨S_, .f32⟩
  | 107 => ⟨S_, .f32⟩
  | 108 => ⟨S4x12x1024x64, .f32⟩
  | 109 => ⟨S4x12x1024x64, .f32⟩
  | 110 => ⟨S_, .f32⟩
  | 111 => ⟨S4x12x1024x64, .f32⟩
  | 112 => ⟨S4x12x1024x64, .f32⟩
  | 113 => ⟨S4x1024x12x64, .f32⟩
  | 114 => ⟨S4x1024x768, .f32⟩
  | 115 => ⟨S4x1024x768, .f32⟩
  | 116 => ⟨S_, .f32⟩
  | 117 => ⟨S768, .f32⟩
  | 118 => ⟨S768, .f32⟩
  | 119 => ⟨S1x1x768, .f32⟩
  | 120 => ⟨S4x1024x768, .f32⟩
  | 121 => ⟨S4x1024x768, .f32⟩
  | 122 => ⟨S_, .f32⟩
  | 123 => ⟨S4x1024x768, .f32⟩
  | 124 => ⟨S4x1024x768, .f32⟩
  | 125 => ⟨S4x1024x768, .f32⟩
  | 126 => ⟨S4x1024x768, .f32⟩
  | 127 => ⟨S4x1024x768, .f32⟩
  | _ => ⟨S4x1024x768, .f32⟩

abbrev hbmTy0_1 (i : Nat) : BufTy := match i % 128 with
  | 0 => ⟨S_, .f32⟩
  | 1 => ⟨S_, .f32⟩
  | 2 => ⟨S_, .f32⟩
  | 3 => ⟨S4x1024x768, .f32⟩
  | 4 => ⟨S4x1024x768, .f32⟩
  | 5 => ⟨S_, .f32⟩
  | 6 => ⟨S4x1024x768, .f32⟩
  | 7 => ⟨S4x1024x768, .f32⟩
  | 8 => ⟨S_, .f32⟩
  | 9 => ⟨S4x1024x768, .f32⟩
  | 10 => ⟨S4x1024x768, .f32⟩
  | 11 => ⟨S4x1024x768, .f32⟩
  | 12 => ⟨S4x1024x768, .f32⟩
  | 13 => ⟨S4x1024x768, .f32⟩
  | 14 => ⟨S_, .f32⟩
  | 15 => ⟨S_, .f32⟩
  | 16 => ⟨S_, .f32⟩
  | 17 => ⟨S4x1024x768, .f32⟩
  | 18 => ⟨S4x1024x768, .f32⟩
  | 19 => ⟨S_, .f32⟩
  | 20 => ⟨S4x1024x768, .f32⟩
  | 21 => ⟨S4x1024x768, .f32⟩
  | 22 => ⟨S4x1024x768, .f32⟩
  | 23 => ⟨S4x1024x3072, .f32⟩
  | 24 => ⟨S_, .f32⟩
  | 25 => ⟨S3072, .f32⟩
  | 26 => ⟨S3072, .f32⟩
  | 27 => ⟨S1x1x3072, .f32⟩
  | 28 => ⟨S4x1024x3072, .f32⟩
  | 29 => ⟨S4x1024x3072, .f32⟩
  | 30 => ⟨S_, .f32⟩
  | 31 => ⟨S4x1024x3072, .f32⟩
  | 32 => ⟨S4x1024x3072, .f32⟩
  | 33 => ⟨S4x1024x3072, .f32⟩
  | 34 => ⟨S4x1024x3072, .f32⟩
  | 35 => ⟨S4x1024x3072, .f32⟩
  | 36 => ⟨S_, .f32⟩
  | 37 => ⟨S_, .f32⟩
  | 38 => ⟨S_, .f32⟩
  | 39 => ⟨S4x1024x3072, .f32⟩
  | 40 => ⟨S4x1024x3072, .f32⟩
  | 41 => ⟨S_, .f32⟩
  | 42 => ⟨S4x1024x3072, .f32⟩
  | 43 => ⟨S4x1024x3072, .f32⟩
  | 44 => ⟨S4x1024x768, .f32⟩
  | 45 => ⟨S_, .f32⟩
  | 46 => ⟨S768, .f32⟩
  | 47 => ⟨S768, .f32⟩
  | 48 => ⟨S1x1x768, .f32⟩
  | 49 => ⟨S4x1024x768, .f32⟩
  | 50 => ⟨S4x1024x768, .f32⟩
  | 51 => ⟨S_, .f32⟩
  | 52 => ⟨S4x1024x768, .f32⟩
  | 53 => ⟨S4x1024x768, .f32⟩
  | 54 => ⟨S4x1024x768, .f32⟩
  | 55 => ⟨S4x1024x768, .f32⟩
  | 56 => ⟨S4x1024x768, .f32⟩
  | 57 => ⟨S_, .f32⟩
  | 58 => ⟨S_, .f32⟩
  | 59 => ⟨S_, .f32⟩
  | 60 => ⟨S4x1024x768, .f32⟩
  | 61 => ⟨S4x1024x768, .f32⟩
  | 62 => ⟨S_, .f32⟩
  | 63 => ⟨S4x1024x768, .f32⟩
  | 64 => ⟨S4x1024x768, .f32⟩
  | 65 => ⟨S_, .f32⟩
  | 66 => ⟨S4x1024x768, .f32⟩
  | 67 => ⟨S4x1024x768, .f32⟩
  | 68 => ⟨S4x1024x768, .f32⟩
  | 69 => ⟨S4x1024x768, .f32⟩
  | 70 => ⟨S4x1024x768, .f32⟩
  | 71 => ⟨S_, .f32⟩
  | 72 => ⟨S_, .f32⟩
  | 73 => ⟨S_, .f32⟩
  | 74 => ⟨S4x1024x768, .f32⟩
  | 75 => ⟨S4x1024x768, .f32⟩
  | 76 => ⟨S_, .f32⟩
  | 77 => ⟨S4x1024x768, .f32⟩
  | 78 => ⟨S4x1024x768, .f32⟩
  | 79 => ⟨S4x1024x768, .f32⟩
  | _ => ⟨S4x1024x768, .f32⟩

abbrev hbmTy (i : Nat) : BufTy := match i / 128 with
  | 0 => hbmTy0_0 i
  | 1 => hbmTy0_1 i
  | _ => ⟨S4x1024x768, .f32⟩

abbrev bufTy : (tb : Table) → Fin (tcTables nBuf tb) → BufTy
  | .hbm, ⟨i, _⟩ => hbmTy i
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_cst_6 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_cst_10 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v46 : Ref sig .tc := ⟨.hbm, 82, rfl⟩
abbrev main_v47 : Ref sig .tc := ⟨.hbm, 83, rfl⟩
abbrev main_cst_11 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_12 : Ref sig .tc := ⟨.hbm, 90, rfl⟩
abbrev main_cst_13 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_v53 : Ref sig .tc := ⟨.hbm, 97, rfl⟩
abbrev main_v54 : Ref sig .tc := ⟨.hbm, 98, rfl⟩
abbrev main_cst_14 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_15 : Ref sig .tc := ⟨.hbm, 105, rfl⟩
abbrev main_cst_16 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_17 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst_18 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_19 : Ref sig .tc := ⟨.hbm, 128, rfl⟩
abbrev main_cst_20 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_call5_v3 : Ref sig .tc := ⟨.hbm, 133, rfl⟩
abbrev main_call5_v4 : Ref sig .tc := ⟨.hbm, 134, rfl⟩
abbrev main_v74 : Ref sig .tc := ⟨.hbm, 135, rfl⟩
abbrev main_cst_21 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_22 : Ref sig .tc := ⟨.hbm, 142, rfl⟩
abbrev main_cst_23 : Ref sig .tc := ⟨.hbm, 143, rfl⟩
abbrev main_call6_v0 : Ref sig .tc := ⟨.hbm, 144, rfl⟩
abbrev main_call6_v1 : Ref sig .tc := ⟨.hbm, 145, rfl⟩
abbrev main_call6_v2 : Ref sig .tc := ⟨.hbm, 146, rfl⟩
abbrev main_call6_v3 : Ref sig .tc := ⟨.hbm, 147, rfl⟩
abbrev main_call6_v4 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_cst_24 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_cst_25 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_cst_26 : Ref sig .tc := ⟨.hbm, 164, rfl⟩
abbrev main_cst_27 : Ref sig .tc := ⟨.hbm, 165, rfl⟩
abbrev main_call7_v0 : Ref sig .tc := ⟨.hbm, 166, rfl⟩
abbrev main_call7_v1 : Ref sig .tc := ⟨.hbm, 167, rfl⟩
abbrev main_call7_v2 : Ref sig .tc := ⟨.hbm, 168, rfl⟩
abbrev main_call7_v3 : Ref sig .tc := ⟨.hbm, 169, rfl⟩
abbrev main_call7_v4 : Ref sig .tc := ⟨.hbm, 170, rfl⟩
abbrev main_v93 : Ref sig .tc := ⟨.hbm, 171, rfl⟩
abbrev main_v94 : Ref sig .tc := ⟨.hbm, 172, rfl⟩
abbrev main_cst_28 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_cst_29 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_cst_30 : Ref sig .tc := ⟨.hbm, 185, rfl⟩
abbrev main_cst_31 : Ref sig .tc := ⟨.hbm, 186, rfl⟩
abbrev main_call8_v0 : Ref sig .tc := ⟨.hbm, 187, rfl⟩
abbrev main_call8_v1 : Ref sig .tc := ⟨.hbm, 188, rfl⟩
abbrev main_call8_v2 : Ref sig .tc := ⟨.hbm, 189, rfl⟩
abbrev main_call8_v3 : Ref sig .tc := ⟨.hbm, 190, rfl⟩
abbrev main_call8_v4 : Ref sig .tc := ⟨.hbm, 191, rfl⟩
abbrev main_v105 : Ref sig .tc := ⟨.hbm, 192, rfl⟩
abbrev main_cst_32 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_cst_33 : Ref sig .tc := ⟨.hbm, 199, rfl⟩
abbrev main_cst_34 : Ref sig .tc := ⟨.hbm, 200, rfl⟩
abbrev main_call9_v0 : Ref sig .tc := ⟨.hbm, 201, rfl⟩
abbrev main_call9_v1 : Ref sig .tc := ⟨.hbm, 202, rfl⟩
abbrev main_call9_v2 : Ref sig .tc := ⟨.hbm, 203, rfl⟩
abbrev main_call9_v3 : Ref sig .tc := ⟨.hbm, 204, rfl⟩
abbrev main_call9_v4 : Ref sig .tc := ⟨.hbm, 205, rfl⟩
abbrev main_v111 : Ref sig .tc := ⟨.hbm, 206, rfl⟩
abbrev main_v112 : Ref sig .tc := ⟨.hbm, 207, rfl⟩

abbrev nD : Nat := 1
abbrev τ : Topo := Topo.v7x

variable {F : FTy → Type} [FloatOps F]

class Facts₀ : Prop where
  shapeCasts_S2304x768_S12x192x768 : S2304x768.ShapeCasts S12x192x768
  shapeCasts_S2304_S12x192 : S2304.ShapeCasts S12x192
  slices_S12x192x768_S12x64x768_0_0_0 : S12x192x768.Slices ![0, 0, 0] S12x64x768
  slices_S12x192x768_S12x64x768_0_64_0 : S12x192x768.Slices ![0, 64, 0] S12x64x768
  slices_S12x192x768_S12x64x768_0_128_0 : S12x192x768.Slices ![0, 128, 0] S12x64x768
  slices_S12x192_S12x64_0_0 : S12x192.Slices ![0, 0] S12x64
  slices_S12x192_S12x64_0_64 : S12x192.Slices ![0, 64] S12x64
  slices_S12x192_S12x64_0_128 : S12x192.Slices ![0, 128] S12x64
  transposes_S12x64x4x1024_S4x12x1024x64_2_0_3_1 : S12x64x4x1024.Transposes [2, 0, 3, 1] S4x12x1024x64
  bcast_S12x64_S1x12x1x64_1_3 : S12x64.BroadcastsInDim S1x12x1x64 (![1, 3] : Fin 2 → Fin S1x12x1x64.rank)
  bcast_S_S1x12x1x64 : S_.BroadcastsInDim S1x12x1x64 (![] : Fin 0 → Fin S1x12x1x64.rank)
  bcast_S1x12x1x64_S4x12x1024x64_0_1_2_3 : S1x12x1x64.BroadcastsInDim S4x12x1024x64 (![0, 1, 2, 3] : Fin 4 → Fin S4x12x1024x64.rank)
  bcast_S_S4x12x1024x64 : S_.BroadcastsInDim S4x12x1024x64 (![] : Fin 0 → Fin S4x12x1024x64.rank)
  bcast_S_S4x12x1024x1024 : S_.BroadcastsInDim S4x12x1024x1024 (![] : Fin 0 → Fin S4x12x1024x1024.rank)
  transposes_S4x12x1024x64_S4x1024x12x64_0_2_1_3 : S4x12x1024x64.Transposes [0, 2, 1, 3] S4x1024x12x64
  shapeCasts_S4x1024x12x64_S4x1024x768 : S4x1024x12x64.ShapeCasts S4x1024x768
  bcast_S_S768 : S_.BroadcastsInDim S768 (![] : Fin 0 → Fin S768.rank)
  bcast_S768_S1x1x768_2 : S768.BroadcastsInDim S1x1x768 (![2] : Fin 1 → Fin S1x1x768.rank)
  bcast_S1x1x768_S4x1024x768_0_1_2 : S1x1x768.BroadcastsInDim S4x1024x768 (![0, 1, 2] : Fin 3 → Fin S4x1024x768.rank)
  bcast_S_S4x1024x768 : S_.BroadcastsInDim S4x1024x768 (![] : Fin 0 → Fin S4x1024x768.rank)
  bcast_S_S3072 : S_.BroadcastsInDim S3072 (![] : Fin 0 → Fin S3072.rank)
  bcast_S3072_S1x1x3072_2 : S3072.BroadcastsInDim S1x1x3072 (![2] : Fin 1 → Fin S1x1x3072.rank)
  bcast_S1x1x3072_S4x1024x3072_0_1_2 : S1x1x3072.BroadcastsInDim S4x1024x3072 (![0, 1, 2] : Fin 3 → Fin S4x1024x3072.rank)
  bcast_S_S4x1024x3072 : S_.BroadcastsInDim S4x1024x3072 (![] : Fin 0 → Fin S4x1024x3072.rank)
  dot_S12x64x768_S4x1024x768_S12x64x4x1024_2_2_01_01_n_n_wf : DotDims.WF S12x64x768 S4x1024x768 S12x64x4x1024 [2] [2] [0, 1] [0, 1] [] []
  dot_S4x12x1024x64_S4x12x1024x64_S4x12x1024x1024_3_3_2_2_01_01_wf : DotDims.WF S4x12x1024x64 S4x12x1024x64 S4x12x1024x1024 [3] [3] [2] [2] [0, 1] [0, 1]
  dot_S4x12x1024x1024_S4x12x1024x64_S4x12x1024x64_3_2_2_3_01_01_wf : DotDims.WF S4x12x1024x1024 S4x12x1024x64 S4x12x1024x64 [3] [2] [2] [3] [0, 1] [0, 1]
  dot_S4x1024x768_S768x768_S4x1024x768_2_1_01_0_n_n_wf : DotDims.WF S4x1024x768 S768x768 S4x1024x768 [2] [1] [0, 1] [0] [] []
  dot_S4x1024x768_S3072x768_S4x1024x3072_2_1_01_0_n_n_wf : DotDims.WF S4x1024x768 S3072x768 S4x1024x3072 [2] [1] [0, 1] [0] [] []
  dot_S4x1024x3072_S768x3072_S4x1024x768_2_1_01_0_n_n_wf : DotDims.WF S4x1024x3072 S768x3072 S4x1024x768 [2] [1] [0, 1] [0] [] []

variable [Facts₀]

def dot_S12x64x768_S4x1024x768_S12x64x4x1024_2_2_01_01_n_n : DotDims S12x64x768 S4x1024x768 S12x64x4x1024 where
  lhsContracting := [2]
  rhsContracting := [2]
  lhsNonContracting := [0, 1]
  rhsNonContracting := [0, 1]
  lhsBatch := []
  rhsBatch := []
  wf := dot_S12x64x768_S4x1024x768_S12x64x4x1024_2_2_01_01_n_n_wf
def dot_S4x12x1024x64_S4x12x1024x64_S4x12x1024x1024_3_3_2_2_01_01 : DotDims S4x12x1024x64 S4x12x1024x64 S4x12x1024x1024 where
  lhsContracting := [3]
  rhsContracting := [3]
  lhsNonContracting := [2]
  rhsNonContracting := [2]
  lhsBatch := [0, 1]
  rhsBatch := [0, 1]
  wf := dot_S4x12x1024x64_S4x12x1024x64_S4x12x1024x1024_3_3_2_2_01_01_wf
def dot_S4x12x1024x1024_S4x12x1024x64_S4x12x1024x64_3_2_2_3_01_01 : DotDims S4x12x1024x1024 S4x12x1024x64 S4x12x1024x64 where
  lhsContracting := [3]
  rhsContracting := [2]
  lhsNonContracting := [2]
  rhsNonContracting := [3]
  lhsBatch := [0, 1]
  rhsBatch := [0, 1]
  wf := dot_S4x12x1024x1024_S4x12x1024x64_S4x12x1024x64_3_2_2_3_01_01_wf
def dot_S4x1024x768_S768x768_S4x1024x768_2_1_01_0_n_n : DotDims S4x1024x768 S768x768 S4x1024x768 where
  lhsContracting := [2]
  rhsContracting := [1]
  lhsNonContracting := [0, 1]
  rhsNonContracting := [0]
  lhsBatch := []
  rhsBatch := []
  wf := dot_S4x1024x768_S768x768_S4x1024x768_2_1_01_0_n_n_wf
def dot_S4x1024x768_S3072x768_S4x1024x3072_2_1_01_0_n_n : DotDims S4x1024x768 S3072x768 S4x1024x3072 where
  lhsContracting := [2]
  rhsContracting := [1]
  lhsNonContracting := [0, 1]
  rhsNonContracting := [0]
  lhsBatch := []
  rhsBatch := []
  wf := dot_S4x1024x768_S3072x768_S4x1024x3072_2_1_01_0_n_n_wf
def dot_S4x1024x3072_S768x3072_S4x1024x768_2_1_01_0_n_n : DotDims S4x1024x3072 S768x3072 S4x1024x768 where
  lhsContracting := [2]
  rhsContracting := [1]
  lhsNonContracting := [0, 1]
  rhsNonContracting := [0]
  lhsBatch := []
  rhsBatch := []
  wf := dot_S4x1024x3072_S768x3072_S4x1024x768_2_1_01_0_n_n_wf

class Facts : Prop extends Facts₀ where

variable [Facts]
-- ==== Proof.Spec.lean ====
/-
  The quantized transformer block as plain functions of its argument arrays over the extended reals.

  Every re-quantization in the block is one map: divide by a power of two, round down, clamp to a signed range.
  The kernel computes it as `min hi (max lo ⌊v / d⌋)`; the reference writes the rounding as the straight-through
  form `q + (⌊q⌋ - q)` with `q = v / d`, which is `⌊q⌋` exactly when `q` is a real number (at an infinity the
  difference `⌊q⌋ - q` is `∞ - ∞`). So the two agree on real `q`, and a clamp between two real bounds is real
  whatever it is applied to: finiteness of the inputs is carried from stage to stage by the clamps.

  The stages: per batch `b`, token `s` and row `r` of the fused weight the quantized projection `qkv`; per head
  the quantized scores `q·k` and the quantized `scores·v`; the heads side by side (`attn`); the output
  projection plus the re-quantized input (`res1`); the hidden layer (`hid`); the second layer plus the
  re-quantized `res1` (`out`).
-/
import Idealize.ShloMosaic.PureOps.Ideal
import Idealize.ShloMosaic.Lib.ValueIdx

noncomputable section

namespace QBlock

open Idealize.ShloMosaic

/-! ## Real entries of the extended reals -/

/-- An extended real that is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The quotient of a real by a nonzero real is real. -/
theorem IsReal.div {v : EReal} (hv : IsReal v) {d : ℝ} (hd : d ≠ 0) : IsReal (Ideal.div v (d : EReal)) := by
  obtain ⟨a, rfl⟩ := hv
  rw [Ideal.div_coe hd]
  exact (IsReal.coe a).mul (IsReal.coe _)

theorem IsReal.min {x y : EReal} (hx : IsReal x) (hy : IsReal y) : IsReal (min x y) := by
  rcases min_choice x y with h | h <;> rw [h] <;> assumption

theorem IsReal.max {x y : EReal} (hx : IsReal x) (hy : IsReal y) : IsReal (max x y) := by
  rcases max_choice x y with h | h <;> rw [h] <;> assumption

/-- A clamp between two real bounds is real, whatever is clamped. -/
theorem isReal_clamp {lo hi : EReal} (hlo : IsReal lo) (hhi : IsReal hi) (v : EReal) : IsReal (min hi (max lo v)) := by
  obtain ⟨a, rfl⟩ := hlo; obtain ⟨b, rfl⟩ := hhi
  have h1 : ((a : ℝ) : EReal) ≤ max (a : EReal) v := le_max_left _ _
  rcases le_total ((b : ℝ) : EReal) (max (a : EReal) v) with h | h
  · rw [min_eq_left h]; exact ⟨b, rfl⟩
  · rw [min_eq_right h]
    have hne_top : max (a : EReal) v ≠ ⊤ := ne_top_of_le_ne_top (EReal.coe_ne_top b) h
    have hne_bot : max (a : EReal) v ≠ ⊥ := ne_bot_of_le_ne_bot (EReal.coe_ne_bot a) h1
    exact ⟨(max (a : EReal) v).toReal, (EReal.coe_toReal hne_top hne_bot).symm⟩

/-! ## The re-quantization, in the kernel's form and in the reference's -/

/-- Divide, round down, clamp: the kernel's form. -/
def rq (lo hi d v : EReal) : EReal := min hi (max lo (Ideal.liftRound Int.floor (Ideal.div v d)))

/-- The same with the rounding written straight-through, `q + (⌊q⌋ - q)`: the reference's form. -/
def rqS (lo hi d v : EReal) : EReal :=
  min hi (max lo (Ideal.div v d + (Ideal.liftRound Int.floor (Ideal.div v d) - Ideal.div v d)))

/-- On a real `q` the straight-through rounding is the rounding. -/
theorem ste_floor_real {q : EReal} (hq : IsReal q) : q + (Ideal.liftRound Int.floor q - q) = Ideal.liftRound Int.floor q := by
  obtain ⟨r, rfl⟩ := hq
  rw [Ideal.liftRound_coe, ← EReal.coe_sub, ← EReal.coe_add]
  congr 1; ring

/-- The two forms agree wherever the quotient is real. -/
theorem rqS_eq_rq (lo hi d v : EReal) (hq : IsReal (Ideal.div v d)) : rqS lo hi d v = rq lo hi d v := by
  unfold rqS rq; rw [ste_floor_real hq]

theorem isReal_rq {lo hi : EReal} (hlo : IsReal lo) (hhi : IsReal hi) (d v : EReal) : IsReal (rq lo hi d v) :=
  isReal_clamp hlo hhi _

/-! ## The literals the two programs spell, as the reals they denote -/

abbrev w0 : EReal := Ideal.ofBits .f32 0x00000000#32
abbrev w1 : EReal := Ideal.ofBits .f32 0x3F800000#32
abbrev w2 : EReal := Ideal.ofBits .f32 0x40000000#32
abbrev w4 : EReal := Ideal.ofBits .f32 0x40800000#32
abbrev w128 : EReal := Ideal.ofBits .f32 0x43000000#32
abbrev w512 : EReal := Ideal.ofBits .f32 0x44000000#32
abbrev lo16 : EReal := Ideal.ofBits .f32 0xC7000000#32
abbrev hi16 : EReal := Ideal.ofBits .f32 0x46FFFE00#32
abbrev lo32 : EReal := Ideal.ofBits .f32 0xCF000000#32
abbrev hi32 : EReal := Ideal.ofBits .f32 0x4F000000#32
abbrev lo31 : EReal := Ideal.ofBits .f32 0xCE800000#32
abbrev hi31 : EReal := Ideal.ofBits .f32 0x4E800000#32

theorem w0_eq : w0 = 0 := by simp [w0, Ideal.ofBits, Ideal.ieee]
theorem w1_eq : w1 = ((1 : ℝ) : EReal) := by simp [w1, Ideal.ofBits, Ideal.ieee, -EReal.coe_mul]; norm_num
theorem w2_eq : w2 = ((2 : ℝ) : EReal) := by simp [w2, Ideal.ofBits, Ideal.ieee, -EReal.coe_mul]; norm_num
theorem w4_eq : w4 = ((4 : ℝ) : EReal) := by simp [w4, Ideal.ofBits, Ideal.ieee, -EReal.coe_mul]; norm_num
theorem w128_eq : w128 = ((128 : ℝ) : EReal) := by simp [w128, Ideal.ofBits, Ideal.ieee, -EReal.coe_mul]; norm_num
theorem w512_eq : w512 = ((512 : ℝ) : EReal) := by simp [w512, Ideal.ofBits, Ideal.ieee, -EReal.coe_mul]; norm_num
theorem lo16_eq : lo16 = ((-32768 : ℝ) : EReal) := by simp [lo16, Ideal.ofBits, Ideal.ieee, -EReal.coe_mul]; norm_num
theorem hi16_eq : hi16 = ((32767 : ℝ) : EReal) := by simp [hi16, Ideal.ofBits, Ideal.ieee, -EReal.coe_mul]; norm_num
theorem lo32_eq : lo32 = ((-2147483648 : ℝ) : EReal) := by simp [lo32, Ideal.ofBits, Ideal.ieee, -EReal.coe_mul]; norm_num
theorem hi32_eq : hi32 = ((2147483648 : ℝ) : EReal) := by simp [hi32, Ideal.ofBits, Ideal.ieee, -EReal.coe_mul]; norm_num
theorem lo31_eq : lo31 = ((-1073741824 : ℝ) : EReal) := by simp [lo31, Ideal.ofBits, Ideal.ieee, -EReal.coe_mul]; norm_num
theorem hi31_eq : hi31 = ((1073741824 : ℝ) : EReal) := by simp [hi31, Ideal.ofBits, Ideal.ieee, -EReal.coe_mul]; norm_num

theorem isReal_w2 : IsReal w2 := ⟨2, w2_eq⟩
theorem isReal_w4 : IsReal w4 := ⟨4, w4_eq⟩
theorem isReal_lo16 : IsReal lo16 := ⟨_, lo16_eq⟩
theorem isReal_hi16 : IsReal hi16 := ⟨_, hi16_eq⟩
theorem isReal_lo32 : IsReal lo32 := ⟨_, lo32_eq⟩
theorem isReal_hi32 : IsReal hi32 := ⟨_, hi32_eq⟩
theorem isReal_lo31 : IsReal lo31 := ⟨_, lo31_eq⟩
theorem isReal_hi31 : IsReal hi31 := ⟨_, hi31_eq⟩

/-- Division of a real by each of the divisors the block uses is real. -/
theorem isReal_div_w1 {v : EReal} (hv : IsReal v) : IsReal (Ideal.div v w1) := by rw [w1_eq]; exact hv.div (by norm_num)
theorem isReal_div_w2 {v : EReal} (hv : IsReal v) : IsReal (Ideal.div v w2) := by rw [w2_eq]; exact hv.div (by norm_num)
theorem isReal_div_w128 {v : EReal} (hv : IsReal v) : IsReal (Ideal.div v w128) := by rw [w128_eq]; exact hv.div (by norm_num)
theorem isReal_div_w512 {v : EReal} (hv : IsReal v) : IsReal (Ideal.div v w512) := by rw [w512_eq]; exact hv.div (by norm_num)

/-! ## Arrays as functions of their coordinates -/

abbrev c1 {n : Nat} (x : (⟨1, ![n]⟩ : Shape).Idx → EReal) : Fin n → EReal := fun a => x (ValueIdx.ix1 a)
abbrev c2 {n0 n1 : Nat} (x : (⟨2, ![n0, n1]⟩ : Shape).Idx → EReal) : Fin n0 → Fin n1 → EReal :=
  fun a b => x (ValueIdx.ix2 a b)
abbrev c3 {n0 n1 n2 : Nat} (x : (⟨3, ![n0, n1, n2]⟩ : Shape).Idx → EReal) : Fin n0 → Fin n1 → Fin n2 → EReal :=
  fun a b c => x (ValueIdx.ix3 a b c)

/-! ## The block, stage by stage -/

/-- Row `h·192 + p·64 + e` of the fused weight: head `h`, part `p` (0 query, 1 key, 2 value), feature `e`. -/
def row (h : Fin 12) (p : Fin 3) (e : Fin 64) : Fin 2304 :=
  ⟨h.val * 192 + p.val * 64 + e.val, by have := h.isLt; have := p.isLt; have := e.isLt; omega⟩

/-- Token `s` of batch `b` in the flattened token axis. -/
def tok (b : Fin 4) (s : Fin 1024) : Fin 4096 := ⟨b.val * 1024 + s.val, by have := b.isLt; have := s.isLt; omega⟩

/-- A `[4, 1024, n]` array with its two leading axes flattened. -/
def flat {n : Nat} (A : Fin 4 → Fin 1024 → Fin n → EReal) : Fin 4096 → Fin n → EReal :=
  fun t o => A ⟨t.val / 1024, by have := t.isLt; omega⟩ ⟨t.val % 1024, Nat.mod_lt _ (by norm_num)⟩ o

theorem flat_tok {n : Nat} (A : Fin 4 → Fin 1024 → Fin n → EReal) (b : Fin 4) (s : Fin 1024) (o : Fin n) :
    flat A (tok b s) o = A b s o := by
  have hs := s.isLt
  have h1 : (b.val * 1024 + s.val) / 1024 = b.val := by omega
  have h2 : (b.val * 1024 + s.val) % 1024 = s.val := by omega
  unfold flat tok
  congr 1
  · exact Fin.ext h1
  · exact Fin.ext h2

/-! ### Attention, one batch element at a time (the tokens `Xb` of one batch element) -/

section Attention

variable (Xb : Fin 1024 → Fin 768 → EReal) (Wqkv : Fin 2304 → Fin 768 → EReal) (Bqkv : Fin 2304 → EReal)

/-- The quantized projection of token `s` onto row `r` of the fused weight. -/
def qkv1 (s : Fin 1024) (r : Fin 2304) : EReal :=
  rq lo16 hi16 w2 ((∑ d : Fin 768, Xb s d * Wqkv r d) + Bqkv r * w2)

/-- The quantized score of query token `s` against key token `t` in head `h`. -/
def score1 (h : Fin 12) (s t : Fin 1024) : EReal :=
  rq lo16 hi16 w2 (∑ e : Fin 64, qkv1 Xb Wqkv Bqkv s (row h 0 e) * qkv1 Xb Wqkv Bqkv t (row h 1 e))

/-- Head `h`'s quantized mix of the values, feature `e`. -/
def headOut1 (h : Fin 12) (s : Fin 1024) (e : Fin 64) : EReal :=
  rq lo16 hi16 w2 (∑ t : Fin 1024, score1 Xb Wqkv Bqkv h s t * qkv1 Xb Wqkv Bqkv t (row h 2 e))

/-- The heads side by side: column `o` is feature `o % 64` of head `o / 64`. -/
def attn1 (s : Fin 1024) (o : Fin 768) : EReal :=
  headOut1 Xb Wqkv Bqkv ⟨o.val / 64, by have := o.isLt; omega⟩ s ⟨o.val % 64, Nat.mod_lt _ (by norm_num)⟩

theorem isReal_qkv1 (s r) : IsReal (qkv1 Xb Wqkv Bqkv s r) := isReal_rq isReal_lo16 isReal_hi16 _ _
theorem isReal_score1 (h s t) : IsReal (score1 Xb Wqkv Bqkv h s t) := isReal_rq isReal_lo16 isReal_hi16 _ _
theorem isReal_headOut1 (h s e) : IsReal (headOut1 Xb Wqkv Bqkv h s e) := isReal_rq isReal_lo16 isReal_hi16 _ _
theorem isReal_attn1 (s o) : IsReal (attn1 Xb Wqkv Bqkv s o) := isReal_headOut1 Xb Wqkv Bqkv _ _ _

end Attention

/-! ### The two token-wise stages, over any number of token rows: each row of the result depends on the same row of the inputs only -/

section Rows

variable {N : Nat}

/-- The output projection of the rows `Z`, re-quantized, plus the re-quantized rows `X`. -/
def projRow (Z X : Fin N → Fin 768 → EReal) (Wp : Fin 768 → Fin 768 → EReal) (Bp : Fin 768 → EReal)
    (n : Fin N) (o : Fin 768) : EReal :=
  rq lo16 hi16 w2 ((∑ d : Fin 768, Z n d * Wp o d) + Bp o * w2) + rq lo16 hi16 w1 (X n o)

/-- The hidden layer of the rows `Y`. -/
def hidRow (Y : Fin N → Fin 768 → EReal) (W1 : Fin 3072 → Fin 768 → EReal) (B1 : Fin 3072 → EReal)
    (n : Fin N) (j : Fin 3072) : EReal :=
  rq lo32 hi32 w128 ((∑ d : Fin 768, Y n d * W1 j d) + B1 j * w2)

/-- The second layer over the hidden rows, re-quantized, plus the re-quantized rows `Y`. -/
def mlpRow (Y : Fin N → Fin 768 → EReal) (W1 : Fin 3072 → Fin 768 → EReal) (B1 : Fin 3072 → EReal)
    (W2 : Fin 768 → Fin 3072 → EReal) (B2 : Fin 768 → EReal) (n : Fin N) (o : Fin 768) : EReal :=
  rq lo31 hi31 w512 ((∑ j : Fin 3072, hidRow Y W1 B1 n j * W2 o j) + B2 o * w4) + rq lo31 hi31 w1 (Y n o)

theorem isReal_projRow (Z X : Fin N → Fin 768 → EReal) (Wp Bp n o) : IsReal (projRow Z X Wp Bp n o) :=
  (isReal_rq isReal_lo16 isReal_hi16 _ _).add (isReal_rq isReal_lo16 isReal_hi16 _ _)
theorem isReal_hidRow (Y : Fin N → Fin 768 → EReal) (W1 B1 n j) : IsReal (hidRow Y W1 B1 n j) :=
  isReal_rq isReal_lo32 isReal_hi32 _ _

/-- Rows `k·M .. k·M + M - 1` of an array of `N` rows, as an array of `M` rows. -/
def rowsAt {n : Nat} (M : Nat) (A : Fin N → Fin n → EReal) (k : Nat) (hk : ∀ r : Fin M, k * M + r.val < N) :
    Fin M → Fin n → EReal := fun r o => A ⟨k * M + r.val, hk r⟩ o

/-- The projection stage of a block of rows is that block of the projection stage. -/
theorem projRow_rowsAt (M : Nat) (Z X : Fin N → Fin 768 → EReal) (Wp Bp) (k : Nat) (hk : ∀ r : Fin M, k * M + r.val < N)
    (r : Fin M) (o : Fin 768) :
    projRow (rowsAt M Z k hk) (rowsAt M X k hk) Wp Bp r o = projRow Z X Wp Bp ⟨k * M + r.val, hk r⟩ o := rfl

/-- The MLP stage of a block of rows is that block of the MLP stage. -/
theorem mlpRow_rowsAt (M : Nat) (Y : Fin N → Fin 768 → EReal) (W1 B1 W2 B2) (k : Nat) (hk : ∀ r : Fin M, k * M + r.val < N)
    (r : Fin M) (o : Fin 768) :
    mlpRow (rowsAt M Y k hk) W1 B1 W2 B2 r o = mlpRow Y W1 B1 W2 B2 ⟨k * M + r.val, hk r⟩ o := rfl

end Rows

/-! ### The whole block over `[4, 1024, ·]` arrays -/

section Block

variable (X : Fin 4 → Fin 1024 → Fin 768 → EReal) (Wqkv : Fin 2304 → Fin 768 → EReal) (Bqkv : Fin 2304 → EReal)
  (Wp : Fin 768 → Fin 768 → EReal) (Bp : Fin 768 → EReal)
  (W1 : Fin 3072 → Fin 768 → EReal) (B1 : Fin 3072 → EReal)
  (W2 : Fin 768 → Fin 3072 → EReal) (B2 : Fin 768 → EReal)

/-- Attention of every batch element. -/
def attn (b : Fin 4) (s : Fin 1024) (o : Fin 768) : EReal := attn1 (X b) Wqkv Bqkv s o

/-- The projection stage over the flattened tokens, read back at `(b, s)`. -/
def res1 (b : Fin 4) (s : Fin 1024) (o : Fin 768) : EReal :=
  projRow (flat (attn X Wqkv Bqkv)) (flat X) Wp Bp (tok b s) o

/-- The hidden layer at `(b, s)`. -/
def hid (b : Fin 4) (s : Fin 1024) (j : Fin 3072) : EReal :=
  hidRow (flat (res1 X Wqkv Bqkv Wp Bp)) W1 B1 (tok b s) j

/-- The block's result at `(b, s)`. -/
def out (b : Fin 4) (s : Fin 1024) (o : Fin 768) : EReal :=
  mlpRow (flat (res1 X Wqkv Bqkv Wp Bp)) W1 B1 W2 B2 (tok b s) o

/-- The projection stage at `(b, s)` written over the unflattened arrays. -/
theorem res1_eq (b : Fin 4) (s : Fin 1024) (o : Fin 768) :
    res1 X Wqkv Bqkv Wp Bp b s o
      = rq lo16 hi16 w2 ((∑ d : Fin 768, attn X Wqkv Bqkv b s d * Wp o d) + Bp o * w2) + rq lo16 hi16 w1 (X b s o) := by
  unfold res1 projRow; simp only [flat_tok]

/-- The hidden layer at `(b, s)` written over the unflattened arrays. -/
theorem hid_eq (b : Fin 4) (s : Fin 1024) (j : Fin 3072) :
    hid X Wqkv Bqkv Wp Bp W1 B1 b s j
      = rq lo32 hi32 w128 ((∑ d : Fin 768, res1 X Wqkv Bqkv Wp Bp b s d * W1 j d) + B1 j * w2) := by
  unfold hid hidRow; simp only [flat_tok]

/-- The result at `(b, s)` written over the unflattened arrays. -/
theorem out_eq (b : Fin 4) (s : Fin 1024) (o : Fin 768) :
    out X Wqkv Bqkv Wp Bp W1 B1 W2 B2 b s o
      = rq lo31 hi31 w512 ((∑ j : Fin 3072, hid X Wqkv Bqkv Wp Bp W1 B1 b s j * W2 o j) + B2 o * w4)
        + rq lo31 hi31 w1 (res1 X Wqkv Bqkv Wp Bp b s o) := by
  unfold out mlpRow hid; simp only [flat_tok]

theorem isReal_attn (b s o) : IsReal (attn X Wqkv Bqkv b s o) := isReal_attn1 _ _ _ _ _
theorem isReal_res1 (b s o) : IsReal (res1 X Wqkv Bqkv Wp Bp b s o) := isReal_projRow _ _ _ _ _ _
theorem isReal_hid (b s j) : IsReal (hid X Wqkv Bqkv Wp Bp W1 B1 b s j) := isReal_hidRow _ _ _ _ _

end Block

end QBlock

end
-- ==== Proof.KDefs.lean ====
/-
  What each of the kernel program's three regions leaves in its result array, as a function of the buffer contents the
  region is entered with: the attention stage over the `[4, 1024, 768]` input, the fused weight and the bias row; the
  projection stage and the MLP stage over the flattened `[4096, 768]` tokens. Each is the block's specification
  (Proof/Spec.lean) read at the region's own arrays; the bias arrives as a `[1, n]` array, whose one row is read.
-/
import proofs.«126809_j86406152061476_1_alg».proof.Proof.Gen.KernelIdeal.Frame
import proofs.«126809_j86406152061476_1_alg».proof.Proof.Spec

noncomputable section

namespace Cert.KernelIdeal.KVal

open Cert.KernelIdeal Cert.KernelIdeal.Gen
open Idealize.ShloMosaic Idealize.ShloMosaic.TcCoe Idealize.SL.Sem
open QBlock (c1 c2 c3)

/-- The one row of a `[1, n]` array. -/
abbrev row0 {n : Nat} (x : (⟨2, ![1, n]⟩ : Shape).Idx → EReal) : Fin n → EReal := fun o => x (ValueIdx.ix2 0 o)

/-- Batch element 0 of a `[1, 1024, 768]` block, as token rows. -/
abbrev blk0 (x : (⟨3, ![1, 1024, 768]⟩ : Shape).Idx → EReal) : Fin 1024 → Fin 768 → EReal :=
  fun s d => x (ValueIdx.ix3 0 s d)

variable (V : (c : Dev nD) → (b : Ref sig .tc) → Buf (Elt Ideal) ((c : Thread nD τ).loc b))

/-- Region 0's result: attention of every batch element, from the input, the fused weight and the bias row. -/
def attnArr (c : Dev nD) : Vec Ideal S4x1024x768 .f32 := fun i =>
  QBlock.attn (c3 (V c main_arg0)) (c2 (V c main_arg1)) (row0 (V c main_v0)) (i 0) (i 1) (i 2)

/-- Region 1's result: the projection stage of the flattened attention rows and input rows. -/
def projArr (c : Dev nD) : Vec Ideal S4096x768 .f32 := fun i =>
  QBlock.projRow (c2 (V c main_v2)) (c2 (V c main_v3)) (c2 (V c main_arg3)) (row0 (V c main_v4)) (i 0) (i 1)

/-- Region 2's result: the MLP stage of the rows region 1 left. -/
def mlpArr (c : Dev nD) : Vec Ideal S4096x768 .f32 := fun i =>
  QBlock.mlpRow (c2 (V c main_v5)) (c2 (V c main_arg5)) (row0 (V c main_v6)) (c2 (V c main_arg7)) (row0 (V c main_v7)) (i 0) (i 1)

end Cert.KernelIdeal.KVal

end
-- ==== Proof.K0Point.lean ====
/-
  Region 0 at one grid point: what the attention kernel's body leaves in its output block, entry by entry, is the
  attention stage of the block's tokens (twelve heads, each stored into its own 64 columns).

  The road: each matrix product of the body, accumulated into zeros, is a plain sum at an index; so one head's chain
  of operations (projection with bias, re-quantization, query / key / value columns, quantized scores, quantized
  mix of the values) read at an index is the specification's head over the head's 192 rows of the fused weight; the
  twelve heads are that one chain over rows h * 192 .. h * 192 + 191; the scores pass through the scratch array
  unchanged (stored whole, loaded whole); and the twelve stored pieces tile the output block by 64 columns each.
-/
import proofs.«126809_j86406152061476_1_alg».proof.Proof.KDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open QBlock (c1 c2 c3 IsReal)

namespace Cert.KernelIdeal.KVal

open Cert.KernelIdeal Cert.KernelIdeal.Gen

namespace K0P

/-! ## The three products of a head, read at an index

Each matrix product of the body accumulates into the zero array, so at an output index it is the plain sum of products
over its one contracted axis: tokens against weight rows over the 768 model features; queries against keys over the
64 head features; scores against values over the 1024 tokens. -/

open ValueIdx

section Products

/-! ### tokens by weight rows: [1024, 768] against [192, 768], contracted over the features -/

theorem mmP_lhs_0 (i : S1024x192.Idx) (q : dot_S1024x768_S192x768_S1024x192_1_1_0_0_n_n.contr.Idx) :
    (dot_S1024x768_S192x768_S1024x192_1_1_0_0_n_n.lhsIdx i q 0).val = (i 0).val := by
  unfold DotDims.lhsIdx
  rw [dif_neg (show ¬(0 : Fin S1024x768.rank) ∈ dot_S1024x768_S192x768_S1024x192_1_1_0_0_n_n.lhsBatch by decide), dif_pos (show (0 : Fin S1024x768.rank) ∈ dot_S1024x768_S192x768_S1024x192_1_1_0_0_n_n.lhsNonContracting by decide)]
  rfl
theorem mmP_lhs_1 (i : S1024x192.Idx) (q : dot_S1024x768_S192x768_S1024x192_1_1_0_0_n_n.contr.Idx) :
    (dot_S1024x768_S192x768_S1024x192_1_1_0_0_n_n.lhsIdx i q 1).val = (q ⟨0, by decide⟩).val :=
  dot_S1024x768_S192x768_S1024x192_1_1_0_0_n_n.lhsIdx_val_of_single rfl i q
theorem mmP_rhs_0 (i : S1024x192.Idx) (q : dot_S1024x768_S192x768_S1024x192_1_1_0_0_n_n.contr.Idx) :
    (dot_S1024x768_S192x768_S1024x192_1_1_0_0_n_n.rhsIdx i q 0).val = (i 1).val := by
  unfold DotDims.rhsIdx
  rw [dif_neg (show ¬(0 : Fin S192x768.rank) ∈ dot_S1024x768_S192x768_S1024x192_1_1_0_0_n_n.rhsBatch by decide), dif_pos (show (0 : Fin S192x768.rank) ∈ dot_S1024x768_S192x768_S1024x192_1_1_0_0_n_n.rhsNonContracting by decide)]
  rfl
theorem mmP_rhs_1 (i : S1024x192.Idx) (q : dot_S1024x768_S192x768_S1024x192_1_1_0_0_n_n.contr.Idx) :
    (dot_S1024x768_S192x768_S1024x192_1_1_0_0_n_n.rhsIdx i q 1).val = (q ⟨0, by decide⟩).val :=
  dot_S1024x768_S192x768_S1024x192_1_1_0_0_n_n.rhsIdx_val_of_single rfl i q

/-- Token s against weight row r: the sum over the 768 model features. -/
theorem mmP_apply (X : FVec Ideal S1024x768 .f32) (W : FVec Ideal S192x768 .f32) (s : Fin 1024) (r : Fin 192) :
    matmul dot_S1024x768_S192x768_S1024x192_1_1_0_0_n_n none X W (constant S1024x192 .f32 0x00000000#32) (ix2 s r)
      = ∑ d : Fin 768, X (ix2 s d) * W (ix2 r d) := by
  refine (Ideal.matmul_constant_zero_apply dot_S1024x768_S192x768_S1024x192_1_1_0_0_n_n none _ _ (ix2 s r)).trans ?_
  rw [← Equiv.sum_comp (ValueIdx.contrEquiv1 dot_S1024x768_S192x768_S1024x192_1_1_0_0_n_n 768 rfl rfl).symm]
  refine Finset.sum_congr rfl fun k _ => ?_
  have hk := ValueIdx.contrEquiv1_symm_val dot_S1024x768_S192x768_S1024x192_1_1_0_0_n_n 768 rfl rfl k
  have el : dot_S1024x768_S192x768_S1024x192_1_1_0_0_n_n.lhsIdx (ix2 s r) ((ValueIdx.contrEquiv1 dot_S1024x768_S192x768_S1024x192_1_1_0_0_n_n 768 rfl rfl).symm k) = ix2 s k := funext fun a => Fin.ext (by
    match a with
    | ⟨0, _⟩ => exact mmP_lhs_0 _ _
    | ⟨1, _⟩ => exact (mmP_lhs_1 _ _).trans hk)
  have er : dot_S1024x768_S192x768_S1024x192_1_1_0_0_n_n.rhsIdx (ix2 s r) ((ValueIdx.contrEquiv1 dot_S1024x768_S192x768_S1024x192_1_1_0_0_n_n 768 rfl rfl).symm k) = ix2 r k := funext fun a => Fin.ext (by
    match a with
    | ⟨0, _⟩ => exact mmP_rhs_0 _ _
    | ⟨1, _⟩ => exact (mmP_rhs_1 _ _).trans hk)
  rw [el, er]

/-! ### queries by keys: [1024, 64] against [1024, 64], contracted over the head features -/

theorem mmS_lhs_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem mmS_lhs_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem mmS_rhs_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem mmS_rhs_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- Query token s against key token t: the sum over the 64 head features. -/
theorem mmS_apply (Q K : FVec Ideal S1024x64 .f32) (s t : Fin 1024) :
    matmul dot_S1024x64_S1024x64_S1024x1024_1_1_0_0_n_n none Q K (constant S1024x1024 .f32 0x00000000#32) (ix2 s t)
      = ∑ e : Fin 64, Q (ix2 s e) * K (ix2 t e) := by
  refine (Ideal.matmul_constant_zero_apply dot_S1024x64_S1024x64_S1024x1024_1_1_0_0_n_n none _ _ (ix2 s t)).trans ?_
  rw [← Equiv.sum_comp (ValueIdx.contrEquiv1 dot_S1024x64_S1024x64_S1024x1024_1_1_0_0_n_n 64 rfl rfl).symm]
  refine Finset.sum_congr rfl fun k _ => ?_
  have hk := ValueIdx.contrEquiv1_symm_val dot_S1024x64_S1024x64_S1024x1024_1_1_0_0_n_n 64 rfl rfl k
  have el : dot_S1024x64_S1024x64_S1024x1024_1_1_0_0_n_n.lhsIdx (ix2 s t) ((ValueIdx.contrEquiv1 dot_S1024x64_S1024x64_S1024x1024_1_1_0_0_n_n 64 rfl rfl).symm k) = ix2 s k := funext fun a => Fin.ext (by
    match a with
    | ⟨0, _⟩ => exact mmS_lhs_0 _ _
    | ⟨1, _⟩ => exact (mmS_lhs_1 _ _).trans hk)
  have er : dot_S1024x64_S1024x64_S1024x1024_1_1_0_0_n_n.rhsIdx (ix2 s t) ((ValueIdx.contrEquiv1 dot_S1024x64_S1024x64_S1024x1024_1_1_0_0_n_n 64 rfl rfl).symm k) = ix2 t k := funext fun a => Fin.ext (by
    match a with
    | ⟨0, _⟩ => exact mmS_rhs_0 _ _
    | ⟨1, _⟩ => exact (mmS_rhs_1 _ _).trans hk)
  rw [el, er]

/-! ### scores by values: [1024, 1024] against [1024, 64], contracted over the tokens -/

theorem mmZ_lhs_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem mmZ_lhs_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem mmZ_rhs_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem mmZ_rhs_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- Score row s against value column e: the sum over the 1024 tokens. -/
theorem mmZ_apply (P : FVec Ideal S1024x1024 .f32) (V : FVec Ideal S1024x64 .f32) (s : Fin 1024) (e : Fin 64) :
    matmul dot_S1024x1024_S1024x64_S1024x64_1_0_0_1_n_n none P V (constant S1024x64 .f32 0x00000000#32) (ix2 s e)
      = ∑ t : Fin 1024, P (ix2 s t) * V (ix2 t e) := by
  refine (Ideal.matmul_constant_zero_apply dot_S1024x1024_S1024x64_S1024x64_1_0_0_1_n_n none _ _ (ix2 s e)).trans ?_
  rw [← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 s e) ((ValueIdx.contrEquiv1 dot_S1024x1024_S1024x64_S1024x64_1_0_0_1_n_n 1024 rfl rfl).symm k) = ix2 s k := funext fun a => Fin.ext (by
    match a with
    | ⟨0, _⟩ => exact mmZ_lhs_0 _ _
    | ⟨1, _⟩ => exact (mmZ_lhs_1 _ _).trans hk)
  have er : dot_S1024x1024_S1024x64_S1024x64_1_0_0_1_n_n.rhsIdx (ix2 s e) ((ValueIdx.contrEquiv1 dot_S1024x1024_S1024x64_S1024x64_1_0_0_1_n_n 1024 rfl rfl).symm k) = ix2 k e := funext fun a => Fin.ext (by
    match a with
    | ⟨0, _⟩ => exact (mmZ_rhs_0 _ _).trans hk
    | ⟨1, _⟩ => exact mmZ_rhs_1 _ _)
  rw [el, er]

end Products

/-! ## One head's arithmetic at an index

Over any token array X (1024 by 768), any 192 rows W of the fused weight and their 192 bias entries B: the
projection of a token onto a row is the re-quantized sum over the model features plus twice the bias; the head's
queries, keys and values are its columns 0..63, 64..127 and 128..191; a score is the re-quantized sum over the head
features of query times key; the head's output is the re-quantized sum over the tokens of score times value. -/

section Head

open QBlock (rq lo16 hi16 w2)

variable (X : FVec Ideal S1024x768 .f32) (W : Vec Ideal S192x768 .f32) (B : Vec Ideal S1x192 .f32)

/-- Column e of part p (0 query, 1 key, 2 value) among the head's 192 projection columns. -/
def colH (p : Fin 3) (e : Fin 64) : Fin 192 := ⟨p.val * 64 + e.val, by have := p.isLt; have := e.isLt; omega⟩

/-- The quantized projection of token s onto the head's row r. -/
def qkvH (s : Fin 1024) (r : Fin 192) : EReal :=
  rq lo16 hi16 w2 ((∑ d : Fin 768, X (ix2 s d) * W (ix2 r d)) + B (ix2 0 r) * w2)

/-- The bias row, doubled and repeated down the 1024 token rows, at (s, r). -/
theorem bias_apply (s : Fin 1024) (r : Fin 192) :
    broadcastTo S1024x192 (mulf (shapeCast S1x192 (shapeCast S192 B shapeCasts_S1x192_S192) shapeCasts_S192_S1x192)
      (broadcast S1x192 (Scalar.ofBits (F := Ideal) .f32 0x40000000#32))) broadcasts_S1x192_S1024x192 (ix2 s r)
      = B (ix2 0 r) * w2 := by
  rw [broadcastTo_1b_ab_apply, shapeCast_shapeCast]
  rfl

theorem pay8_apply (s : Fin 1024) (r : Fin 192) : k0_pay8 (F := Ideal) X W B (ix2 s r) = qkvH X W B s r := by
  unfold k0_pay8 qkvH
  show rq lo16 hi16 w2 (matmul dot_S1024x768_S192x768_S1024x192_1_1_0_0_n_n none X W (constant S1024x192 .f32 0x00000000#32) (ix2 s r)
    + broadcastTo S1024x192 (mulf (shapeCast S1x192 (shapeCast S192 B shapeCasts_S1x192_S192) shapeCasts_S192_S1x192)
      (broadcast S1x192 (Scalar.ofBits (F := Ideal) .f32 0x40000000#32))) broadcasts_S1x192_S1024x192 (ix2 s r)) = _
  rw [mmP_apply, bias_apply]

/-- The head's values: columns 128..191 of its projection. -/
theorem pay9_apply (t : Fin 1024) (e : Fin 64) :
    k0_pay9 (F := Ideal) X W B (ix2 t e) = k0_pay8 (F := Ideal) X W B (ix2 t (colH 2 e)) := by
  unfold k0_pay9
  exact slice2_axis1_eq 128 _ _ t e

/-- The head's quantized scores. -/
theorem pay10_apply (s t : Fin 1024) :
    k0_pay10 (F := Ideal) X W B (ix2 s t)
      = rq lo16 hi16 w2 (∑ e : Fin 64, k0_pay8 (F := Ideal) X W B (ix2 s (colH 0 e)) * k0_pay8 (F := Ideal) X W B (ix2 t (colH 1 e))) := by
  unfold k0_pay10
  rw [shapeCast_self]
  show rq lo16 hi16 w2 (matmul dot_S1024x64_S1024x64_S1024x1024_1_1_0_0_n_n none
      (extractStridedSlice S1024x64 ![0, 0] (k0_pay8 (F := Ideal) X W B) slices_S1024x192_o0_0_S1024x64)
      (extractStridedSlice S1024x64 ![0, 64] (k0_pay8 (F := Ideal) X W B) slices_S1024x192_o0_64_S1024x64)
      (constant S1024x1024 .f32 0x00000000#32) (ix2 s t)) = _
  rw [mmS_apply]
  refine congrArg (rq lo16 hi16 w2) (Finset.sum_congr rfl fun e _ => ?_)
  rw [slice2_axis1_eq, slice2_axis1_eq]
  rfl

/-- The head's output from its values V and its scores P. -/
theorem pay11_apply (V : FVec Ideal S1024x64 .f32) (P : Vec Ideal S1024x1024 .f32) (s : Fin 1024) (e : Fin 64) :
    k0_pay11 (F := Ideal) V P (ix3 0 s e) = rq lo16 hi16 w2 (∑ t : Fin 1024, P (ix2 s t) * V (ix2 t e)) := by
  unfold k0_pay11
  rw [shapeCast_ab_1ab_apply]
  show rq lo16 hi16 w2 (matmul dot_S1024x1024_S1024x64_S1024x64_1_0_0_1_n_n none P V (constant S1024x64 .f32 0x00000000#32) (ix2 s e)) = _
  rw [mmZ_apply]

end Head

/-! ## The head's arithmetic is the specification's head

Read with the tokens of the block, the head's 192 rows of the fused weight and its 192 bias entries, the head's
output is the specification's: row r of head h is row h * 192 + r of the fused weight. -/

section Link

open QBlock (rq lo16 hi16 w2)

variable (x0 : Vec Ideal S1x1024x768 .f32) (x1 : Vec Ideal S2304x768 .f32) (x2 : Vec Ideal S1x2304 .f32)

theorem head_apply (h : Fin 12) (r0 : Nat) (hr0 : r0 = h.val * 192)
    (X : FVec Ideal S1024x768 .f32) (W : Vec Ideal S192x768 .f32) (B : Vec Ideal S1x192 .f32)
    (hX : ∀ (s : Fin 1024) (d : Fin 768), X (ix2 s d) = x0 (ix3 0 s d))
    (hW : ∀ (r : Fin 192) (d : Fin 768) (R : Fin 2304), R.val = r0 + r.val → W (ix2 r d) = x1 (ix2 R d))
    (hB : ∀ (r : Fin 192) (R : Fin 2304), R.val = r0 + r.val → B (ix2 0 r) = x2 (ix2 0 R))
    (s : Fin 1024) (e : Fin 64) :
    k0_pay11 (F := Ideal) (k0_pay9 (F := Ideal) X W B) (k0_pay10 (F := Ideal) X W B) (ix3 0 s e)
      = QBlock.headOut1 (blk0 x0) (c2 x1) (row0 x2) h s e := by
  have hq : ∀ (t : Fin 1024) (p : Fin 3) (e' : Fin 64),
      k0_pay8 (F := Ideal) X W B (ix2 t (colH p e')) = QBlock.qkv1 (blk0 x0) (c2 x1) (row0 x2) t (QBlock.row h p e') := by
    intro t p e'
    have hr : (QBlock.row h p e').val = r0 + (colH p e').val := by
      subst hr0; show h.val * 192 + p.val * 64 + e'.val = h.val * 192 + (p.val * 64 + e'.val); omega
    have hW' : ∀ d : Fin 768, W (ix2 (colH p e') d) = x1 (ix2 (QBlock.row h p e') d) := fun d => hW _ d _ hr
    rw [pay8_apply]
    unfold qkvH QBlock.qkv1
    simp only [hX, hW', hB _ _ hr]
  rw [pay11_apply]
  unfold QBlock.headOut1
  refine congrArg (rq lo16 hi16 w2) (Finset.sum_congr rfl fun t _ => ?_)
  rw [pay10_apply, pay9_apply, hq]
  unfold QBlock.score1
  refine congrArg (fun v => rq lo16 hi16 w2 v * _) (Finset.sum_congr rfl fun e' _ => ?_)
  rw [hq, hq]

/-- Column o = h * 64 + e of the attention stage is feature e of head h. -/
theorem attn1_head (Xb : Fin 1024 → Fin 768 → EReal) (Wq : Fin 2304 → Fin 768 → EReal) (Bq : Fin 2304 → EReal)
    (s : Fin 1024) (o : Fin 768) (h : Fin 12) (e : Fin 64) (ho : o.val = h.val * 64 + e.val) :
    QBlock.attn1 Xb Wq Bq s o = QBlock.headOut1 Xb Wq Bq h s e := by
  have e1 : o.val / 64 = h.val := by have := e.isLt; omega
  have e2 : o.val % 64 = e.val := by have := e.isLt; omega
  unfold QBlock.attn1
  exact congrArg₂ (fun a b => QBlock.headOut1 Xb Wq Bq a s b) (Fin.ext e1) (Fin.ext e2)

end Link

/-! ## The loads of the body

The body loads the whole token block (and drops its unit axis), and per head the 192 weight rows and the 192 bias
entries from row and column offset h * 192. -/

section Loads

theorem hz3 : (![0, 0, 0] : Fin 3 → Nat) = fun _ => 0 := funext fun a => by fin_cases a <;> rfl

theorem tokens_apply (arg1 : Memref sig .tc .vmem S1x1024x768 .f32) (harg1 : arg1.IsWhole) (x0 : Vec Ideal S1x1024x768 .f32)
    (s : Fin 1024) (d : Fin 768) :
    k0_pay3 (F := Ideal) (View.readAt (Elt Ideal) arg1.view
        (Rect.unit (s := S1x1024x768) ![0, 0, 0] ![1, 1024, 768] inb_S1x1024x768_S1x1024x768_0_0_0).toLoadRect (harg1.unread x0)) (ix2 s d)
      = x0 (ix3 0 s d) := by
  unfold k0_pay3
  rw [shapeCast_1ab_ab_apply, View.readAt_eq_ld, harg1.read_unread, View.ld_unit_zero (S := S1x1024x768) hz3]

theorem rows_apply (arg2 : Memref sig .tc .vmem S2304x768 .f32) (harg2 : arg2.IsWhole) (x1 : Vec Ideal S2304x768 .f32)
    (r0 : Nat) (inb : ∀ a, (![r0, 0] : Fin 2 → Nat) a + (![192, 768] : Fin 2 → Nat) a ≤ S2304x768.size a)
    (r : Fin 192) (d : Fin 768) (R : Fin 2304) (hR : R.val = r0 + r.val) :
    View.readAt (Elt Ideal) arg2.view (Rect.unit (s := S2304x768) ![r0, 0] ![192, 768] inb).toLoadRect (harg2.unread x1) (ix2 r d)
      = x1 (ix2 R d) := by
  rw [View.readAt_eq_ld, harg2.read_unread]
  show x1 ((Rect.unit (s := S2304x768) ![r0, 0] ![192, 768] inb).idx (ix2 r d)) = _
  refine congrArg x1 (funext fun a => Fin.ext ?_)
  match a with
  | ⟨0, _⟩ => show r0 + 1 * r.val = R.val; omega
  | ⟨1, _⟩ => show 0 + 1 * d.val = d.val; omega

theorem bias_row_apply (arg3 : Memref sig .tc .vmem S1x2304 .f32) (harg3 : arg3.IsWhole) (x2 : Vec Ideal S1x2304 .f32)
    (r0 : Nat) (inb : ∀ a, (![0, r0] : Fin 2 → Nat) a + (![1, 192] : Fin 2 → Nat) a ≤ S1x2304.size a)
    (r : Fin 192) (R : Fin 2304) (hR : R.val = r0 + r.val) :
    View.readAt (Elt Ideal) arg3.view (Rect.unit (s := S1x2304) ![0, r0] ![1, 192] inb).toLoadRect (harg3.unread x2) (ix2 0 r)
      = x2 (ix2 0 R) := by
  rw [View.readAt_eq_ld, harg3.read_unread]
  show x2 ((Rect.unit (s := S1x2304) ![0, r0] ![1, 192] inb).idx (ix2 0 r)) = _
  refine congrArg x2 (funext fun a => Fin.ext ?_)
  match a with
  | ⟨0, _⟩ => rfl
  | ⟨1, _⟩ => show r0 + 1 * r.val = R.val; omega

end Loads

/-! ## A store into the head's 64 columns

A piece stored at column offset c0 whose entry (0, s, e) is the function G at (0, s, c0 + e) is G under its
rectangle. -/

theorem piece_eq (G : S1x1024x768.Idx → EReal) (c0 : Nat)
    (inb : ∀ a, (![0, 0, c0] : Fin 3 → Nat) a + (![1, 1024, 64] : Fin 3 → Nat) a ≤ S1x1024x768.size a)
    (P : S1x1024x64.Idx → EReal)
    (hP : ∀ (s : Fin 1024) (e : Fin 64) (o : Fin 768), o.val = c0 + e.val → P (ix3 0 s e) = G (ix3 0 s o)) :
    ∀ x : (Rect.unit (s := S1x1024x768) ![0, 0, c0] ![1, 1024, 64] inb).shape.Idx,
      P x = G ((Rect.unit (s := S1x1024x768) ![0, 0, c0] ![1, 1024, 64] inb).emb x) := by
  intro x
  have hc : c0 + 64 ≤ 768 := inb 2
  obtain ⟨u, s, e, rfl⟩ : ∃ (u : Fin 1) (s : Fin 1024) (e : Fin 64), x = ix3 u s e := ⟨x 0, x 1, x 2, eq_ix3 x⟩
  obtain rfl : u = 0 := Subsingleton.elim _ _
  refine (hP s e ⟨c0 + e.val, by have := e.isLt; omega⟩ rfl).trans (congrArg G (funext fun a => Fin.ext ?_))
  match a with
  | ⟨0, _⟩ => rfl
  | ⟨1, _⟩ => show s.val = 0 + 1 * s.val; omega
  | ⟨2, _⟩ => show c0 + e.val = c0 + 1 * e.val; omega

/-! ## The twelve heads are one computation

The body repeats the same chain of operations for every head; the named intermediate values of the body cut that chain at
different places from head to head. Each head's stored piece is, operation for operation, the chain of head 1: projection, slices,
scores, output. -/

section Cuts

variable (X0 : Vec Ideal S1x1024x768 .f32) (X : FVec Ideal S1024x768 .f32) (W : Vec Ideal S192x768 .f32) (B : Vec Ideal S1x192 .f32)

theorem cut0 : k0_pay7 (F := Ideal) (k0_pay6 (F := Ideal) X0 W B (k0_pay5 (F := Ideal) X0 W B))
    = k0_pay11 (F := Ideal) (k0_pay9 (F := Ideal) (k0_pay3 (F := Ideal) X0) W B) (k0_pay10 (F := Ideal) (k0_pay3 (F := Ideal) X0) W B) := by
  unfold k0_pay7 k0_pay6 k0_pay5 k0_pay4 k0_pay11 k0_pay10 k0_pay9 k0_pay8
  rfl

theorem cut2 : k0_pay16 (F := Ideal) (k0_pay13 (F := Ideal) X W B) (k0_pay15 (F := Ideal) (FloatOps.ofBits (F := Ideal) .f32 1191181824#32) (k0_pay14 (F := Ideal) X W B))
    = k0_pay11 (F := Ideal) (k0_pay9 (F := Ideal) X W B) (k0_pay10 (F := Ideal) X W B) := by
  unfold k0_pay16 k0_pay13 k0_pay15 k0_pay14 k0_pay12 k0_pay11 k0_pay10 k0_pay9 k0_pay8
  rfl

theorem cut3 : k0_pay21 (F := Ideal) (k0_pay18 (F := Ideal) X W B) (k0_pay20 (F := Ideal) (k0_pay19 (F := Ideal) X W B))
    = k0_pay11 (F := Ideal) (k0_pay9 (F := Ideal) X W B) (k0_pay10 (F := Ideal) X W B) := by
  unfold k0_pay21 k0_pay18 k0_pay20 k0_pay19 k0_pay17 k0_pay11 k0_pay10 k0_pay9 k0_pay8
  rfl

theorem cut4 : k0_pay26 (F := Ideal) (k0_pay22 (F := Ideal) X W B) (FloatOps.ofBits (F := Ideal) .f32 1191181824#32) (k0_pay23 (F := Ideal)) (k0_pay25 (F := Ideal) (k0_pay22 (F := Ideal) X W B) (FloatOps.ofBits (F := Ideal) .f32 1191181824#32) (k0_pay23 (F := Ideal)))
    = k0_pay11 (F := Ideal) (k0_pay9 (F := Ideal) X W B) (k0_pay10 (F := Ideal) X W B) := by
  unfold k0_pay26 k0_pay25 k0_pay24 k0_pay23 k0_pay22 k0_pay11 k0_pay10 k0_pay9 k0_pay8
  rfl

theorem cut5 : k0_pay31 (F := Ideal) (k0_pay27 (F := Ideal) X W) (k0_pay28 (F := Ideal) B) (k0_pay30 (F := Ideal) (k0_pay27 (F := Ideal) X W) (k0_pay28 (F := Ideal) B))
    = k0_pay11 (F := Ideal) (k0_pay9 (F := Ideal) X W B) (k0_pay10 (F := Ideal) X W B) := by
  unfold k0_pay31 k0_pay30 k0_pay29 k0_pay28 k0_pay27 k0_pay11 k0_pay10 k0_pay9 k0_pay8
  rfl

theorem cut6 : k0_pay35 (F := Ideal) (k0_pay34 (F := Ideal) X W B (k0_pay33 (F := Ideal) X W B))
    = k0_pay11 (F := Ideal) (k0_pay9 (F := Ideal) X W B) (k0_pay10 (F := Ideal) X W B) := by
  unfold k0_pay35 k0_pay34 k0_pay33 k0_pay32 k0_pay11 k0_pay10 k0_pay9 k0_pay8
  rfl

theorem cut7 : k0_pay40 (F := Ideal) (k0_pay38 (F := Ideal) X W B (k0_pay37 (F := Ideal) X W B)) (FloatOps.ofBits (F := Ideal) .f32 1191181824#32) (k0_pay39 (F := Ideal))
    = k0_pay11 (F := Ideal) (k0_pay9 (F := Ideal) X W B) (k0_pay10 (F := Ideal) X W B) := by
  unfold k0_pay40 k0_pay39 k0_pay38 k0_pay37 k0_pay36 k0_pay11 k0_pay10 k0_pay9 k0_pay8
  rfl

theorem cut8 : k0_pay44 (F := Ideal) (k0_pay42 (F := Ideal) X W B) (k0_pay43 (F := Ideal) X W B) (constant S1024x64 .f32 0#32)
    = k0_pay11 (F := Ideal) (k0_pay9 (F := Ideal) X W B) (k0_pay10 (F := Ideal) X W B) := by
  unfold k0_pay44 k0_pay43 k0_pay42 k0_pay41 k0_pay11 k0_pay10 k0_pay9 k0_pay8
  rfl

theorem cut9 : k0_pay49 (F := Ideal) (k0_pay46 (F := Ideal) X W B) (k0_pay48 (F := Ideal) (k0_pay47 (F := Ideal) X W B))
    = k0_pay11 (F := Ideal) (k0_pay9 (F := Ideal) X W B) (k0_pay10 (F := Ideal) X W B) := by
  unfold k0_pay49 k0_pay48 k0_pay47 k0_pay46 k0_pay45 k0_pay11 k0_pay10 k0_pay9 k0_pay8
  rfl

theorem cut10 : k0_pay54 (F := Ideal) (k0_pay51 (F := Ideal) X W B) (k0_pay53 (F := Ideal) (k0_pay52 (F := Ideal) X W B))
    = k0_pay11 (F := Ideal) (k0_pay9 (F := Ideal) X W B) (k0_pay10 (F := Ideal) X W B) := by
  unfold k0_pay54 k0_pay53 k0_pay52 k0_pay51 k0_pay50 k0_pay11 k0_pay10 k0_pay9 k0_pay8
  rfl

theorem cut11 : k0_pay2 (F := Ideal) (k0_pay55 (F := Ideal) X W B) (k0_pay1 (F := Ideal) (k0_pay55 (F := Ideal) X W B) (k0_pay56 (F := Ideal) X W B))
    = k0_pay11 (F := Ideal) (k0_pay9 (F := Ideal) X W B) (k0_pay10 (F := Ideal) X W B) := by
  unfold k0_pay2 k0_pay1 k0_pay56 k0_pay55 k0_pay11 k0_pay10 k0_pay9 k0_pay8
  rfl

end Cuts

end K0P

open K0P ValueIdx

/-! ## The output block

The body's twelve stores tile the output block by heads; each stored piece is the attention stage under its
rectangle, so the block read back is the attention stage at every entry. Within a head the scores are stored whole
to the scratch array and loaded back through the same rectangle, which reads what was stored. -/

theorem out0_point (c : Dev nD) (i : grid0.Coords) (arg1 : Memref sig .tc .vmem S1x1024x768 .f32) (harg1 : arg1.IsWhole) (arg2 : Memref sig .tc .vmem S2304x768 .f32) (harg2 : arg2.IsWhole) (arg3 : Memref sig .tc .vmem S1x2304 .f32) (harg3 : arg3.IsWhole) (arg4 : Memref sig .tc .vmem S1x1024x768 .f32) (harg4 : arg4.IsWhole) (arg5 : Memref sig .tc .vmem S1024x1024 .f32) (harg5 : arg5.IsWhole)
    (x0 : Vec Ideal S1x1024x768 .f32) (x1 : Vec Ideal S2304x768 .f32) (x2 : Vec Ideal S1x2304 .f32) (s : Fin 1024) (o : Fin 768) :
    out0_A_3 (F := Ideal) c i arg1 harg1 arg2 harg2 arg3 harg3 arg4 harg4 arg5 harg5 x0 x1 x2 (ValueIdx.ix3 0 s o)
      = QBlock.attn1 (blk0 x0) (c2 x1) (row0 x2) s o := by
  unfold Gen.out0_A_3
  rw [View.read_writes_eq_canon _ _ _ (Gen.cover0_A_3 c i arg1 harg1 arg2 harg2 arg3 harg3 arg4 harg4 arg5 harg5 x0 x1 x2)]
  refine View.canon_apply_of_pieces (fun j => QBlock.attn1 (blk0 x0) (c2 x1) (row0 x2) (j 1) (j 2)) _ ?_ (ValueIdx.ix3 0 s o)
    (Gen.cover0_A_3 c i arg1 harg1 arg2 harg2 arg3 harg3 arg4 harg4 arg5 harg5 x0 x1 x2 (ValueIdx.ix3 0 s o))
  unfold Gen.kernelRun0_A
  dsimp only
  sl_unfold_words
  simp only [View.readCov_cons_toLoadRect]
  intro p hp
  simp only [List.mem_cons, List.not_mem_nil, or_false] at hp
  rcases hp with rfl | rfl | rfl | rfl | rfl | rfl | rfl | rfl | rfl | rfl | rfl | rfl
  · -- head 11: columns 704 to 767, weight rows and bias entries from 2112
    refine piece_eq (fun j => QBlock.attn1 (blk0 x0) (c2 x1) (row0 x2) (j 1) (j 2)) 704 inb_S1x1024x768_S1x1024x64_0_0_704 _ fun s e o ho => ?_
    refine (congrFun (cut11 (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![2112, 0] ![192, 768] inb_S2304x768_S192x768_2112_0).toLoadRect (harg2.unread x1))
      (View.readAt (Elt Ideal) arg3.view (Rect.unit (s := S1x2304) ![0, 2112] ![1, 192] inb_S1x2304_S1x192_0_2112).toLoadRect (harg3.unread x2))) (ix3 0 s e)).trans ?_
    refine (head_apply x0 x1 x2 11 2112 rfl (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![2112, 0] ![192, 768] inb_S2304x768_S192x768_2112_0).toLoadRect (harg2.unread x1))
      (View.readAt (Elt Ideal) arg3.view (Rect.unit (s := S1x2304) ![0, 2112] ![1, 192] inb_S1x2304_S1x192_0_2112).toLoadRect (harg3.unread x2))
      (tokens_apply arg1 harg1 x0)
      (fun r d R hR => rows_apply arg2 harg2 x1 2112 inb_S2304x768_S192x768_2112_0 r d R hR)
      (fun r R hR => bias_row_apply arg3 harg3 x2 2112 inb_S1x2304_S1x192_0_2112 r R hR) s e).trans ?_
    exact (attn1_head _ _ _ s o 11 e ho).symm
  · -- head 10: columns 640 to 703, weight rows and bias entries from 1920
    refine piece_eq (fun j => QBlock.attn1 (blk0 x0) (c2 x1) (row0 x2) (j 1) (j 2)) 640 inb_S1x1024x768_S1x1024x64_0_0_640 _ fun s e o ho => ?_
    refine (congrFun (cut10 (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![1920, 0] ![192, 768] inb_S2304x768_S192x768_1920_0).toLoadRect (harg2.unread x1))
      (View.readAt (Elt Ideal) arg3.view (Rect.unit (s := S1x2304) ![0, 1920] ![1, 192] inb_S1x2304_S1x192_0_1920).toLoadRect (harg3.unread x2))) (ix3 0 s e)).trans ?_
    refine (head_apply x0 x1 x2 10 1920 rfl (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![1920, 0] ![192, 768] inb_S2304x768_S192x768_1920_0).toLoadRect (harg2.unread x1))
      (View.readAt (Elt Ideal) arg3.view (Rect.unit (s := S1x2304) ![0, 1920] ![1, 192] inb_S1x2304_S1x192_0_1920).toLoadRect (harg3.unread x2))
      (tokens_apply arg1 harg1 x0)
      (fun r d R hR => rows_apply arg2 harg2 x1 1920 inb_S2304x768_S192x768_1920_0 r d R hR)
      (fun r R hR => bias_row_apply arg3 harg3 x2 1920 inb_S1x2304_S1x192_0_1920 r R hR) s e).trans ?_
    exact (attn1_head _ _ _ s o 10 e ho).symm
  · -- head 9: columns 576 to 639, weight rows and bias entries from 1728
    refine piece_eq (fun j => QBlock.attn1 (blk0 x0) (c2 x1) (row0 x2) (j 1) (j 2)) 576 inb_S1x1024x768_S1x1024x64_0_0_576 _ fun s e o ho => ?_
    refine (congrFun (cut9 (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![1728, 0] ![192, 768] inb_S2304x768_S192x768_1728_0).toLoadRect (harg2.unread x1))
      (View.readAt (Elt Ideal) arg3.view (Rect.unit (s := S1x2304) ![0, 1728] ![1, 192] inb_S1x2304_S1x192_0_1728).toLoadRect (harg3.unread x2))) (ix3 0 s e)).trans ?_
    refine (head_apply x0 x1 x2 9 1728 rfl (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![1728, 0] ![192, 768] inb_S2304x768_S192x768_1728_0).toLoadRect (harg2.unread x1))
      (View.readAt (Elt Ideal) arg3.view (Rect.unit (s := S1x2304) ![0, 1728] ![1, 192] inb_S1x2304_S1x192_0_1728).toLoadRect (harg3.unread x2))
      (tokens_apply arg1 harg1 x0)
      (fun r d R hR => rows_apply arg2 harg2 x1 1728 inb_S2304x768_S192x768_1728_0 r d R hR)
      (fun r R hR => bias_row_apply arg3 harg3 x2 1728 inb_S1x2304_S1x192_0_1728 r R hR) s e).trans ?_
    exact (attn1_head _ _ _ s o 9 e ho).symm
  · -- head 8: columns 512 to 575, weight rows and bias entries from 1536
    refine piece_eq (fun j => QBlock.attn1 (blk0 x0) (c2 x1) (row0 x2) (j 1) (j 2)) 512 inb_S1x1024x768_S1x1024x64_0_0_512 _ fun s e o ho => ?_
    refine (congrFun (cut8 (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![1536, 0] ![192, 768] inb_S2304x768_S192x768_1536_0).toLoadRect (harg2.unread x1))
      (View.readAt (Elt Ideal) arg3.view (Rect.unit (s := S1x2304) ![0, 1536] ![1, 192] inb_S1x2304_S1x192_0_1536).toLoadRect (harg3.unread x2))) (ix3 0 s e)).trans ?_
    refine (head_apply x0 x1 x2 8 1536 rfl (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![1536, 0] ![192, 768] inb_S2304x768_S192x768_1536_0).toLoadRect (harg2.unread x1))
      (View.readAt (Elt Ideal) arg3.view (Rect.unit (s := S1x2304) ![0, 1536] ![1, 192] inb_S1x2304_S1x192_0_1536).toLoadRect (harg3.unread x2))
      (tokens_apply arg1 harg1 x0)
      (fun r d R hR => rows_apply arg2 harg2 x1 1536 inb_S2304x768_S192x768_1536_0 r d R hR)
      (fun r R hR => bias_row_apply arg3 harg3 x2 1536 inb_S1x2304_S1x192_0_1536 r R hR) s e).trans ?_
    exact (attn1_head _ _ _ s o 8 e ho).symm
  · -- head 7: columns 448 to 511, weight rows and bias entries from 1344
    refine piece_eq (fun j => QBlock.attn1 (blk0 x0) (c2 x1) (row0 x2) (j 1) (j 2)) 448 inb_S1x1024x768_S1x1024x64_0_0_448 _ fun s e o ho => ?_
    refine (congrFun (cut7 (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![1344, 0] ![192, 768] inb_S2304x768_S192x768_1344_0).toLoadRect (harg2.unread x1))
      (View.readAt (Elt Ideal) arg3.view (Rect.unit (s := S1x2304) ![0, 1344] ![1, 192] inb_S1x2304_S1x192_0_1344).toLoadRect (harg3.unread x2))) (ix3 0 s e)).trans ?_
    refine (head_apply x0 x1 x2 7 1344 rfl (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![1344, 0] ![192, 768] inb_S2304x768_S192x768_1344_0).toLoadRect (harg2.unread x1))
      (View.readAt (Elt Ideal) arg3.view (Rect.unit (s := S1x2304) ![0, 1344] ![1, 192] inb_S1x2304_S1x192_0_1344).toLoadRect (harg3.unread x2))
      (tokens_apply arg1 harg1 x0)
      (fun r d R hR => rows_apply arg2 harg2 x1 1344 inb_S2304x768_S192x768_1344_0 r d R hR)
      (fun r R hR => bias_row_apply arg3 harg3 x2 1344 inb_S1x2304_S1x192_0_1344 r R hR) s e).trans ?_
    exact (attn1_head _ _ _ s o 7 e ho).symm
  · -- head 6: columns 384 to 447, weight rows and bias entries from 1152
    refine piece_eq (fun j => QBlock.attn1 (blk0 x0) (c2 x1) (row0 x2) (j 1) (j 2)) 384 inb_S1x1024x768_S1x1024x64_0_0_384 _ fun s e o ho => ?_
    refine (congrFun (cut6 (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![1152, 0] ![192, 768] inb_S2304x768_S192x768_1152_0).toLoadRect (harg2.unread x1))
      (View.readAt (Elt Ideal) arg3.view (Rect.unit (s := S1x2304) ![0, 1152] ![1, 192] inb_S1x2304_S1x192_0_1152).toLoadRect (harg3.unread x2))) (ix3 0 s e)).trans ?_
    refine (head_apply x0 x1 x2 6 1152 rfl (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![1152, 0] ![192, 768] inb_S2304x768_S192x768_1152_0).toLoadRect (harg2.unread x1))
      (View.readAt (Elt Ideal) arg3.view (Rect.unit (s := S1x2304) ![0, 1152] ![1, 192] inb_S1x2304_S1x192_0_1152).toLoadRect (harg3.unread x2))
      (tokens_apply arg1 harg1 x0)
      (fun r d R hR => rows_apply arg2 harg2 x1 1152 inb_S2304x768_S192x768_1152_0 r d R hR)
      (fun r R hR => bias_row_apply arg3 harg3 x2 1152 inb_S1x2304_S1x192_0_1152 r R hR) s e).trans ?_
    exact (attn1_head _ _ _ s o 6 e ho).symm
  · -- head 5: columns 320 to 383, weight rows and bias entries from 960
    refine piece_eq (fun j => QBlock.attn1 (blk0 x0) (c2 x1) (row0 x2) (j 1) (j 2)) 320 inb_S1x1024x768_S1x1024x64_0_0_320 _ fun s e o ho => ?_
    refine (congrFun (cut5 (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![960, 0] ![192, 768] inb_S2304x768_S192x768_960_0).toLoadRect (harg2.unread x1))
      (View.readAt (Elt Ideal) arg3.view (Rect.unit (s := S1x2304) ![0, 960] ![1, 192] inb_S1x2304_S1x192_0_960).toLoadRect (harg3.unread x2))) (ix3 0 s e)).trans ?_
    refine (head_apply x0 x1 x2 5 960 rfl (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![960, 0] ![192, 768] inb_S2304x768_S192x768_960_0).toLoadRect (harg2.unread x1))
      (View.readAt (Elt Ideal) arg3.view (Rect.unit (s := S1x2304) ![0, 960] ![1, 192] inb_S1x2304_S1x192_0_960).toLoadRect (harg3.unread x2))
      (tokens_apply arg1 harg1 x0)
      (fun r d R hR => rows_apply arg2 harg2 x1 960 inb_S2304x768_S192x768_960_0 r d R hR)
      (fun r R hR => bias_row_apply arg3 harg3 x2 960 inb_S1x2304_S1x192_0_960 r R hR) s e).trans ?_
    exact (attn1_head _ _ _ s o 5 e ho).symm
  · -- head 4: columns 256 to 319, weight rows and bias entries from 768
    refine piece_eq (fun j => QBlock.attn1 (blk0 x0) (c2 x1) (row0 x2) (j 1) (j 2)) 256 inb_S1x1024x768_S1x1024x64_0_0_256 _ fun s e o ho => ?_
    refine (congrFun (cut4 (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![768, 0] ![192, 768] inb_S2304x768_S192x768_768_0).toLoadRect (harg2.unread x1))
      (View.readAt (Elt Ideal) arg3.view (Rect.unit (s := S1x2304) ![0, 768] ![1, 192] inb_S1x2304_S1x192_0_768).toLoadRect (harg3.unread x2))) (ix3 0 s e)).trans ?_
    refine (head_apply x0 x1 x2 4 768 rfl (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![768, 0] ![192, 768] inb_S2304x768_S192x768_768_0).toLoadRect (harg2.unread x1))
      (View.readAt (Elt Ideal) arg3.view (Rect.unit (s := S1x2304) ![0, 768] ![1, 192] inb_S1x2304_S1x192_0_768).toLoadRect (harg3.unread x2))
      (tokens_apply arg1 harg1 x0)
      (fun r d R hR => rows_apply arg2 harg2 x1 768 inb_S2304x768_S192x768_768_0 r d R hR)
      (fun r R hR => bias_row_apply arg3 harg3 x2 768 inb_S1x2304_S1x192_0_768 r R hR) s e).trans ?_
    exact (attn1_head _ _ _ s o 4 e ho).symm
  · -- head 3: columns 192 to 255, weight rows and bias entries from 576
    refine piece_eq (fun j => QBlock.attn1 (blk0 x0) (c2 x1) (row0 x2) (j 1) (j 2)) 192 inb_S1x1024x768_S1x1024x64_0_0_192 _ fun s e o ho => ?_
    refine (congrFun (cut3 (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![576, 0] ![192, 768] inb_S2304x768_S192x768_576_0).toLoadRect (harg2.unread x1))
      (View.readAt (Elt Ideal) arg3.view (Rect.unit (s := S1x2304) ![0, 576] ![1, 192] inb_S1x2304_S1x192_0_576).toLoadRect (harg3.unread x2))) (ix3 0 s e)).trans ?_
    refine (head_apply x0 x1 x2 3 576 rfl (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![576, 0] ![192, 768] inb_S2304x768_S192x768_576_0).toLoadRect (harg2.unread x1))
      (View.readAt (Elt Ideal) arg3.view (Rect.unit (s := S1x2304) ![0, 576] ![1, 192] inb_S1x2304_S1x192_0_576).toLoadRect (harg3.unread x2))
      (tokens_apply arg1 harg1 x0)
      (fun r d R hR => rows_apply arg2 harg2 x1 576 inb_S2304x768_S192x768_576_0 r d R hR)
      (fun r R hR => bias_row_apply arg3 harg3 x2 576 inb_S1x2304_S1x192_0_576 r R hR) s e).trans ?_
    exact (attn1_head _ _ _ s o 3 e ho).symm
  · -- head 2: columns 128 to 191, weight rows and bias entries from 384
    refine piece_eq (fun j => QBlock.attn1 (blk0 x0) (c2 x1) (row0 x2) (j 1) (j 2)) 128 inb_S1x1024x768_S1x1024x64_0_0_128 _ fun s e o ho => ?_
    refine (congrFun (cut2 (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![384, 0] ![192, 768] inb_S2304x768_S192x768_384_0).toLoadRect (harg2.unread x1))
      (View.readAt (Elt Ideal) arg3.view (Rect.unit (s := S1x2304) ![0, 384] ![1, 192] inb_S1x2304_S1x192_0_384).toLoadRect (harg3.unread x2))) (ix3 0 s e)).trans ?_
    refine (head_apply x0 x1 x2 2 384 rfl (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![384, 0] ![192, 768] inb_S2304x768_S192x768_384_0).toLoadRect (harg2.unread x1))
      (View.readAt (Elt Ideal) arg3.view (Rect.unit (s := S1x2304) ![0, 384] ![1, 192] inb_S1x2304_S1x192_0_384).toLoadRect (harg3.unread x2))
      (tokens_apply arg1 harg1 x0)
      (fun r d R hR => rows_apply arg2 harg2 x1 384 inb_S2304x768_S192x768_384_0 r d R hR)
      (fun r R hR => bias_row_apply arg3 harg3 x2 384 inb_S1x2304_S1x192_0_384 r R hR) s e).trans ?_
    exact (attn1_head _ _ _ s o 2 e ho).symm
  · -- head 1: columns 64 to 127, weight rows and bias entries from 192
    refine piece_eq (fun j => QBlock.attn1 (blk0 x0) (c2 x1) (row0 x2) (j 1) (j 2)) 64 inb_S1x1024x768_S1x1024x64_0_0_64 _ fun s e o ho => ?_
    refine (head_apply x0 x1 x2 1 192 rfl (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![192, 0] ![192, 768] inb_S2304x768_S192x768_192_0).toLoadRect (harg2.unread x1))
      (View.readAt (Elt Ideal) arg3.view (Rect.unit (s := S1x2304) ![0, 192] ![1, 192] inb_S1x2304_S1x192_0_192).toLoadRect (harg3.unread x2))
      (tokens_apply arg1 harg1 x0)
      (fun r d R hR => rows_apply arg2 harg2 x1 192 inb_S2304x768_S192x768_192_0 r d R hR)
      (fun r R hR => bias_row_apply arg3 harg3 x2 192 inb_S1x2304_S1x192_0_192 r R hR) s e).trans ?_
    exact (attn1_head _ _ _ s o 1 e ho).symm
  · -- head 0: columns 0 to 63, weight rows and bias entries from 0
    refine piece_eq (fun j => QBlock.attn1 (blk0 x0) (c2 x1) (row0 x2) (j 1) (j 2)) 0 inb_S1x1024x768_S1x1024x64_0_0_0 _ fun s e o ho => ?_
    refine (congrFun (cut0 (View.readAt (Elt Ideal) arg1.view (Rect.unit (s := S1x1024x768) ![0, 0, 0] ![1, 1024, 768] inb_S1x1024x768_S1x1024x768_0_0_0).toLoadRect (harg1.unread x0))
      (View.readAt (Elt Ideal) arg2.view (Rect.unit (s := S2304x768) ![0, 0] ![192, 768] inb_S2304x768_S192x768_0_0).toLoadRect (harg2.unread x1))
      (View.readAt (Elt Ideal) arg3.view (Rect.unit (s := S1x2304) ![0, 0] ![1, 192] inb_S1x2304_S1x192_0_0).toLoadRect (harg3.unread x2))) (ix3 0 s e)).trans ?_
    refine (head_apply x0 x1 x2 0 0 rfl (k0_pay3 (F := Ideal) (View.readAt (Elt Ideal) arg1.view (Rect.unit (s := S1x1024x768) ![0, 0, 0] ![1, 1024, 768] inb_S1x1024x768_S1x1024x768_0_0_0).toLoadRect (harg1.unread x0)))
      (View.readAt (Elt Ideal) arg2.view (Rect.unit (s := S2304x768) ![0, 0] ![192, 768] inb_S2304x768_S192x768_0_0).toLoadRect (harg2.unread x1))
      (View.readAt (Elt Ideal) arg3.view (Rect.unit (s := S1x2304) ![0, 0] ![1, 192] inb_S1x2304_S1x192_0_0).toLoadRect (harg3.unread x2))
      (tokens_apply arg1 harg1 x0)
      (fun r d R hR => rows_apply arg2 harg2 x1 0 inb_S2304x768_S192x768_0_0 r d R hR)
      (fun r R hR => bias_row_apply arg3 harg3 x2 0 inb_S1x2304_S1x192_0_0 r R hR) s e).trans ?_
    exact (attn1_head _ _ _ s o 0 e ho).symm

end Cert.KernelIdeal.KVal

end
-- ==== Proof.K0Array.lean ====
/-
  Region 0's result array: the four batch blocks the grid points write back cover it, so it is the attention stage
  of the whole input.
-/
import proofs.«126809_j86406152061476_1_alg».proof.Proof.K0Point
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open QBlock (c1 c2 c3 IsReal)

namespace Cert.KernelIdeal.KVal

open Cert.KernelIdeal Cert.KernelIdeal.Gen

variable (V : (c : Dev nD) → (b : Ref sig .tc) → Buf (Elt Ideal) ((c : Thread nD τ).loc b))

/-- The index maps over the four grid points: the input window and the output window sit at batch block `t`,
    the weight and the bias windows at block zero. -/
theorem r0_idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The grid has four points. -/
theorem r0_N_eq : cfg0.N = 4 := by decide +kernel

/-- The attention of one batch element depends on its tokens, the query token and the column only through their values. -/
theorem r0_attn1_congr {X X' : Fin 1024 → Fin 768 → EReal} (W : Fin 2304 → Fin 768 → EReal) (B : Fin 2304 → EReal)
    {s s' : Fin 1024} {o o' : Fin 768} (hX : X = X') (hs : s = s') (ho : o = o') :
    QBlock.attn1 X W B s o = QBlock.attn1 X' W B s' o' := by
  subst hX hs ho; rfl

/-- The three input blocks at a grid point and the three input arrays, at their literal types. -/
abbrev r0_xblk (c : Dev nD) (t : Fin cfg0.N) : Vec Ideal S1x1024x768 .f32 := iblk0 V c 0 t
abbrev r0_wblk (c : Dev nD) (t : Fin cfg0.N) : Vec Ideal S2304x768 .f32 := iblk0 V c 1 t
abbrev r0_bblk (c : Dev nD) (t : Fin cfg0.N) : Vec Ideal S1x2304 .f32 := iblk0 V c 2 t
abbrev r0_xarr (c : Dev nD) : Vec Ideal S4x1024x768 .f32 := V c main_arg0
abbrev r0_warr (c : Dev nD) : Vec Ideal S2304x768 .f32 := V c main_arg1
abbrev r0_barr (c : Dev nD) : Vec Ideal S1x2304 .f32 := V c main_v0

/-- The input block at point `t` is batch element `t` of the input: entry `(0, s, d)` of the block is entry
    `(t, s, d)` of the array (a block's coordinate is block index × block size + the coordinate inside the block). -/
theorem r0_xblk_apply (c : Dev nD) (t : Fin cfg0.N) (y : S1x1024x768.Idx) (k : S4x1024x768.Idx)
    (h0 : (k 0).val = t.val) (h1 : (k 1).val = (y 1).val) (h2 : (k 2).val = (y 2).val) :
    r0_xblk V c t y = r0_xarr V c k := by
  obtain ⟨e0, e1, e2, -⟩ := r0_idx_facts t
  unfold r0_xblk r0_xarr iblk0
  rw [View.read_apply]
  show V c main_arg0 _ = V c main_arg0 _
  congr 1
  funext a
  apply Fin.ext
  match a with
  | ⟨0, _⟩ => show win0_0.index t (0 : Fin 3) * 1 + 1 * (y 0).val = (k 0).val; have hy : (y 0).val < 1 := (y 0).isLt; rw [e0, h0]; omega
  | ⟨1, _⟩ => show win0_0.index t (1 : Fin 3) * 1024 + 1 * (y 1).val = (k 1).val; rw [e1, h1]; omega
  | ⟨2, _⟩ => show win0_0.index t (2 : Fin 3) * 768 + 1 * (y 2).val = (k 2).val; rw [e2, h2]; omega

/-- The weight's block is the whole fused weight at every point. -/
theorem r0_wblk_eq (c : Dev nD) (t : Fin cfg0.N) : r0_wblk V c t = r0_warr V c := by
  obtain ⟨-, -, -, e0, e1, -⟩ := r0_idx_facts t
  funext y
  unfold r0_wblk r0_warr iblk0
  rw [View.read_apply]
  show V c main_arg1 _ = V c main_arg1 _
  congr 1
  funext a
  apply Fin.ext
  match a with
  | ⟨0, _⟩ => show win0_1.index t (0 : Fin 2) * 2304 + 1 * (y 0).val = (y 0).val; rw [e0]; omega
  | ⟨1, _⟩ => show win0_1.index t (1 : Fin 2) * 768 + 1 * (y 1).val = (y 1).val; rw [e1]; omega

/-- The bias's block is the whole bias row at every point. -/
theorem r0_bblk_eq (c : Dev nD) (t : Fin cfg0.N) : r0_bblk V c t = r0_barr V c := by
  obtain ⟨-, -, -, -, -, e0, e1, -⟩ := r0_idx_facts t
  funext y
  unfold r0_bblk r0_barr iblk0
  rw [View.read_apply]
  show V c main_v0 _ = V c main_v0 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 2304 + 1 * (y 1).val = (y 1).val; rw [e1]; omega

/-- What point `t` writes back is block `t` of the attention of the whole input: entry `(0, s, o)` of the body's
    result is the attention of the point's input block at `(s, o)`, that block is batch element `t`, and entry
    `(0, s, o)` of the output block sits at `(t, s, o)` of the result array. -/
theorem r0_flushed_eq (c : Dev nD) (t : Fin cfg0.N) :
    (dat0 (F := Ideal) V c).flushed 3 t = ((cfg0.win 3).blk t).view.read (Elt Ideal) (attnArr V c) := by
  show (cfg0.win 3).cut (grid0.coords t) ((dat0 V c).after 3 t) = _
  rw [after0_3]
  unfold outsAt0
  funext j
  obtain ⟨-, -, -, -, -, -, -, e0, e1, e2⟩ := r0_idx_facts t
  have hj0 : (j 0).val < 1 := (j 0).isLt
  have hj1 : (j 1).val < 1024 := (j 1).isLt
  have hj2 : (j 2).val < 768 := (j 2).isLt
  show out0_A_3 (F := Ideal) c (grid0.coords t) (ms0_0 t) (hs0_0 t) (ms0_1 t) (hs0_1 t) (ms0_2 t) (hs0_2 t) (ms0_3 t) (hs0_3 t)
      scM0_0 (Memref.isWhole_whole _) (r0_xblk V c t) (r0_wblk V c t) (r0_bblk V c t) ((cfg0.win 3).xinj (grid0.coords t) j)
    = attnArr V c (((cfg0.win 3).blk t).view.emb j)
  have hx : (cfg0.win 3).xinj (grid0.coords t) j
      = ValueIdx.ix3 (0 : Fin 1) (⟨(j 1).val, hj1⟩ : Fin 1024) (⟨(j 2).val, hj2⟩ : Fin 768) := by
    funext a
    apply Fin.ext
    match a with
    | ⟨0, _⟩ => show (j 0).val = 0; omega
    | ⟨1, _⟩ => rfl
    | ⟨2, _⟩ => rfl
  refine (congrArg (out0_A_3 (F := Ideal) c (grid0.coords t) (ms0_0 t) (hs0_0 t) (ms0_1 t) (hs0_1 t) (ms0_2 t) (hs0_2 t)
    (ms0_3 t) (hs0_3 t) scM0_0 (Memref.isWhole_whole _) (r0_xblk V c t) (r0_wblk V c t) (r0_bblk V c t)) hx).trans ?_
  refine (out0_point c (grid0.coords t) (ms0_0 t) (hs0_0 t) (ms0_1 t) (hs0_1 t) (ms0_2 t) (hs0_2 t)
    (ms0_3 t) (hs0_3 t) scM0_0 (Memref.isWhole_whole _) (r0_xblk V c t) (r0_wblk V c t) (r0_bblk V c t)
    ⟨(j 1).val, hj1⟩ ⟨(j 2).val, hj2⟩).trans ?_
  rw [r0_wblk_eq, r0_bblk_eq]
  have hX : blk0 (r0_xblk V c t) = c3 (r0_xarr V c) ((((cfg0.win 3).blk t).view.emb j) 0) := by
    funext s d
    refine r0_xblk_apply V c t (ValueIdx.ix3 0 s d) (ValueIdx.ix3 ((((cfg0.win 3).blk t).view.emb j) 0) s d) ?_ rfl rfl
    show win0_3.index t (0 : Fin 3) * 1 + 1 * (j 0).val = t.val
    omega
  have hs : (⟨(j 1).val, hj1⟩ : Fin 1024) = (((cfg0.win 3).blk t).view.emb j) 1 := by
    apply Fin.ext
    show (j 1).val = win0_3.index t (1 : Fin 3) * 1024 + 1 * (j 1).val
    omega
  have ho : (⟨(j 2).val, hj2⟩ : Fin 768) = (((cfg0.win 3).blk t).view.emb j) 2 := by
    apply Fin.ext
    show (j 2).val = win0_3.index t (2 : Fin 3) * 768 + 1 * (j 2).val
    omega
  unfold attnArr QBlock.attn
  exact r0_attn1_congr (c2 (r0_warr V c)) (row0 (r0_barr V c)) hX hs ho

/-- An index of the result array lies in point `t`'s block exactly when each coordinate lies in the block's range. -/
theorem r0_mem_blk (t : Fin cfg0.N) (i : S4x1024x768.Idx) :
    i ∈ ((cfg0.win 3).blk t).view.set ↔ ∀ a : Fin 3, win0_3.index t a * S1x1024x768.size a ≤ (i a).val
      ∧ (i a).val < win0_3.index t a * S1x1024x768.size a + S1x1024x768.size a := by
  show i ∈ ((View.whole main_v1).slice (win0_3.rect t)).set ↔ _
  rw [View.set_slice_whole, Rect.mem_set_unit]
  exact Iff.rfl

/-- Batch element `i 0` is written back by grid point `i 0`: the four blocks cover the array. -/
theorem r0_cover (i : S4x1024x768.Idx) :
    ∃ t : Fin cfg0.N, (cfg0.win 3).flush t = true ∧ i ∈ ((cfg0.win 3).blk t).view.set := by
  have hi0 : (i 0).val < 4 := (i 0).isLt
  have hi1 : (i 1).val < 1024 := (i 1).isLt
  have hi2 : (i 2).val < 768 := (i 2).isLt
  obtain ⟨t, ht⟩ : ∃ t : Fin cfg0.N, t.val = (i 0).val := ⟨⟨(i 0).val, by rw [r0_N_eq]; exact hi0⟩, rfl⟩
  obtain ⟨-, -, -, -, -, -, -, e0, e1, e2⟩ := r0_idx_facts t
  refine ⟨t, flush0_3 t, ?_⟩
  rw [r0_mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 768 ≤ (i 2).val ∧ (i 2).val < win0_3.index t (2 : Fin 3) * 768 + 768; omega

/-- The four write-backs are the four batch blocks of one array, and they cover it. -/
theorem region0_value (c : Dev nD) : (dat0 (F := Ideal) V c).arrAt 3 cfg0.N = attnArr V c :=
  (dat0 V c).arrAt_eq_of_cover 3 (attnArr V c) (fun t _ => r0_flushed_eq V c t) r0_cover

end Cert.KernelIdeal.KVal

end
-- ==== Proof.K1.lean ====
/-
  Region 1's result array: each grid point writes the projection stage of its 1024 token rows, and the four blocks
  cover the array.
-/
import proofs.«126809_j86406152061476_1_alg».proof.Proof.KDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open QBlock (c1 c2 c3 IsReal)

namespace Cert.KernelIdeal.KVal

open Cert.KernelIdeal Cert.KernelIdeal.Gen

/-! ## The matrix product's operand indices, axis by axis -/

theorem projDot_lhs_0 (i : S1024x768.Idx) (q : dot_S1024x768_S768x768_S1024x768_1_1_0_0_n_n.contr.Idx) :
    (dot_S1024x768_S768x768_S1024x768_1_1_0_0_n_n.lhsIdx i q 0).val = (i 0).val := by
  unfold DotDims.lhsIdx
  rw [dif_neg (show ¬(0 : Fin S1024x768.rank) ∈ dot_S1024x768_S768x768_S1024x768_1_1_0_0_n_n.lhsBatch by decide), dif_pos (show (0 : Fin S1024x768.rank) ∈ dot_S1024x768_S768x768_S1024x768_1_1_0_0_n_n.lhsNonContracting by decide)]
  rfl
theorem projDot_lhs_1 (i : S1024x768.Idx) (q : dot_S1024x768_S768x768_S1024x768_1_1_0_0_n_n.contr.Idx) :
    (dot_S1024x768_S768x768_S1024x768_1_1_0_0_n_n.lhsIdx i q 1).val = (q ⟨0, by decide⟩).val :=
  dot_S1024x768_S768x768_S1024x768_1_1_0_0_n_n.lhsIdx_val_of_single rfl i q
theorem projDot_rhs_0 (i : S1024x768.Idx) (q : dot_S1024x768_S768x768_S1024x768_1_1_0_0_n_n.contr.Idx) :
    (dot_S1024x768_S768x768_S1024x768_1_1_0_0_n_n.rhsIdx i q 0).val = (i 1).val := by
  unfold DotDims.rhsIdx
  rw [dif_neg (show ¬(0 : Fin S768x768.rank) ∈ dot_S1024x768_S768x768_S1024x768_1_1_0_0_n_n.rhsBatch by decide), dif_pos (show (0 : Fin S768x768.rank) ∈ dot_S1024x768_S768x768_S1024x768_1_1_0_0_n_n.rhsNonContracting by decide)]
  rfl
theorem projDot_rhs_1 (i : S1024x768.Idx) (q : dot_S1024x768_S768x768_S1024x768_1_1_0_0_n_n.contr.Idx) :
    (dot_S1024x768_S768x768_S1024x768_1_1_0_0_n_n.rhsIdx i q 1).val = (q ⟨0, by decide⟩).val :=
  dot_S1024x768_S768x768_S1024x768_1_1_0_0_n_n.rhsIdx_val_of_single rfl i q

/-! ## The body's arithmetic at one row and column -/

/-- The matrix product into a zero accumulator, at row r and column o: the sum over the shared axis. -/
theorem projMatmul_apply (x : FVec Ideal S1024x768 .f32) (w : FVec Ideal S768x768 .f32) (r : Fin 1024) (o : Fin 768) :
    matmul dot_S1024x768_S768x768_S1024x768_1_1_0_0_n_n none x w (constant (F := Ideal) S1024x768 .f32 0x00000000#32) (ValueIdx.ix2 r o)
      = ∑ d : Fin 768, x (ValueIdx.ix2 r d) * w (ValueIdx.ix2 o d) := by
  refine (Ideal.matmul_constant_zero_apply _ _ _ _ _).trans ?_
  rw [← Equiv.sum_comp (ValueIdx.contrEquiv1 dot_S1024x768_S768x768_S1024x768_1_1_0_0_n_n 768 rfl rfl).symm]
  refine Finset.sum_congr rfl fun k _ => ?_
  have hk := ValueIdx.contrEquiv1_symm_val dot_S1024x768_S768x768_S1024x768_1_1_0_0_n_n 768 rfl rfl k
  have el : dot_S1024x768_S768x768_S1024x768_1_1_0_0_n_n.lhsIdx (ValueIdx.ix2 r o) ((ValueIdx.contrEquiv1 dot_S1024x768_S768x768_S1024x768_1_1_0_0_n_n 768 rfl rfl).symm k) = ValueIdx.ix2 r k := funext fun a => Fin.ext (by
    match a with
    | ⟨0, _⟩ => exact projDot_lhs_0 _ _
    | ⟨1, _⟩ => exact (projDot_lhs_1 _ _).trans hk)
  have er : dot_S1024x768_S768x768_S1024x768_1_1_0_0_n_n.rhsIdx (ValueIdx.ix2 r o) ((ValueIdx.contrEquiv1 dot_S1024x768_S768x768_S1024x768_1_1_0_0_n_n 768 rfl rfl).symm k) = ValueIdx.ix2 o k := funext fun a => Fin.ext (by
    match a with
    | ⟨0, _⟩ => exact projDot_rhs_0 _ _
    | ⟨1, _⟩ => exact (projDot_rhs_1 _ _).trans hk)
  rw [el, er]

/-- The offset of a store or load that starts at the buffer's origin. -/
theorem projOrigin2 : (![0, 0] : Fin 2 → Nat) = fun _ => 0 := funext fun a => by fin_cases a <;> rfl

/-- The body's payload at row r, column o, is the projection stage of the loaded blocks there. -/
theorem projPay_point (x0 x1 : Vec Ideal S1024x768 .f32) (x2 : Vec Ideal S768x768 .f32) (x3 : Vec Ideal S1x768 .f32)
    (r : Fin 1024) (o : Fin 768) :
    k1_pay1 (F := Ideal) x0 x1 x2 x3 (ValueIdx.ix2 r o) = QBlock.projRow (c2 x0) (c2 x1) (c2 x2) (row0 x3) r o := by
  unfold k1_pay1
  simp only [shapeCast_self]
  rw [ValueIdx.addf_apply, ValueIdx.minimumf_apply, ValueIdx.maximumf_apply, ValueIdx.minimumf_apply, ValueIdx.maximumf_apply]
  simp only [ValueIdx.broadcast_apply, Ideal.ofBits_def]
  have hfl : ∀ (v : FVec Ideal S1024x768 .f32) (i : S1024x768.Idx), floor v i = Ideal.liftRound Int.floor (v i) := fun _ _ => rfl
  rw [hfl, hfl, ValueIdx.divf_apply, ValueIdx.divf_apply, ValueIdx.addf_apply, projMatmul_apply,
    ValueIdx.broadcastTo_1b_ab_apply, ValueIdx.mulf_apply, ValueIdx.shapeCast_a_1a_apply, ValueIdx.shapeCast_1a_a_apply]
  simp only [ValueIdx.broadcast_apply, Ideal.ofBits_def]
  rfl

/-! ## From blocks to the array -/

/-- The projection stage at a row and column depends only on that row of the two token arrays, that row of the
    weight and that entry of the bias. -/
theorem projRow_congr {M N : Nat} (Z X : Fin M → Fin 768 → EReal) (Z' X' : Fin N → Fin 768 → EReal)
    (Wp Wp' : Fin 768 → Fin 768 → EReal) (Bp Bp' : Fin 768 → EReal) (r : Fin M) (n : Fin N) (o o' : Fin 768)
    (hZ : ∀ d, Z r d = Z' n d) (hX : X r o = X' n o') (hW : ∀ d, Wp o d = Wp' o' d) (hB : Bp o = Bp' o') :
    QBlock.projRow Z X Wp Bp r o = QBlock.projRow Z' X' Wp' Bp' n o' := by
  unfold QBlock.projRow
  rw [hX, hB]
  simp only [hZ, hW]

/-- The printed index maps over the grid: the two token windows and the output move down the rows with the point, the
    weight and the bias stay whole. -/
theorem projIdx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What point t writes back is block t of the projection stage of the arrays the region is entered with. -/
theorem projFlushed_eq (c : Dev nD) (t : Fin cfg1.N) :
    (dat1 (F := Ideal) V c).flushed 4 t = ((cfg1.win 4).blk t).view.read (Elt Ideal) (projArr V c) := by
  show (cfg1.win 4).cut (grid1.coords t) ((dat1 (F := Ideal) V c).after 4 t) = _
  rw [after1_4]
  unfold out1_4
  rw [View.canon_unit_zero projOrigin2]
  simp only [View.ld_unit_zero (S := S1024x768) projOrigin2, View.ld_unit_zero (S := S768x768) projOrigin2, View.ld_unit_zero (S := S1x768) projOrigin2]
  obtain ⟨e0, e1, e2, e3, e4, e5, e6, e7, e8, e9⟩ := projIdx_facts t
  funext j
  obtain ⟨r, o, rfl⟩ : ∃ (r : Fin 1024) (o : Fin 768), j = ValueIdx.ix2 r o := ⟨j 0, j 1, ValueIdx.eq_ix2 j⟩
  show k1_pay1 (F := Ideal) (iblk1 V c 0 t) (iblk1 V c 1 t) (iblk1 V c 2 t) (iblk1 V c 3 t) (ValueIdx.ix2 r o)
    = projArr V c (((cfg1.win 4).blk t).view.emb (ValueIdx.ix2 r o))
  refine (projPay_point _ _ _ _ r o).trans ?_
  show _ = QBlock.projRow (c2 (V c main_v2)) (c2 (V c main_v3)) (c2 (V c main_arg3)) (row0 (V c main_v4))
    (((cfg1.win 4).blk t).view.emb (ValueIdx.ix2 r o) 0) (((cfg1.win 4).blk t).view.emb (ValueIdx.ix2 r o) 1)
  refine projRow_congr _ _ _ _ _ _ _ _ r _ o _ (fun d => ?_) ?_ (fun d => ?_) ?_
  · show V c main_v2 (((cfg1.win 0).blk t).view.emb (ValueIdx.ix2 r d))
      = V c main_v2 (ValueIdx.ix2 (((cfg1.win 4).blk t).view.emb (ValueIdx.ix2 r o) 0) d)
    refine congrArg _ (funext fun a => Fin.ext ?_)
    match a with
    | ⟨0, _⟩ =>
      show win1_0.index t (0 : Fin 2) * 1024 + 1 * r.val = win1_4.index t (0 : Fin 2) * 1024 + 1 * r.val
      rw [e0, e8]
    | ⟨1, _⟩ =>
      show win1_0.index t (1 : Fin 2) * 768 + 1 * d.val = d.val
      rw [e1]; omega
  · show V c main_v3 (((cfg1.win 1).blk t).view.emb (ValueIdx.ix2 r o))
      = V c main_v3 (ValueIdx.ix2 (((cfg1.win 4).blk t).view.emb (ValueIdx.ix2 r o) 0) (((cfg1.win 4).blk t).view.emb (ValueIdx.ix2 r o) 1))
    refine congrArg _ (funext fun a => Fin.ext ?_)
    match a with
    | ⟨0, _⟩ =>
      show win1_1.index t (0 : Fin 2) * 1024 + 1 * r.val = win1_4.index t (0 : Fin 2) * 1024 + 1 * r.val
      rw [e2, e8]
    | ⟨1, _⟩ =>
      show win1_1.index t (1 : Fin 2) * 768 + 1 * o.val = win1_4.index t (1 : Fin 2) * 768 + 1 * o.val
      rw [e3, e9]
  · show V c main_arg3 (((cfg1.win 2).blk t).view.emb (ValueIdx.ix2 o d))
      = V c main_arg3 (ValueIdx.ix2 (((cfg1.win 4).blk t).view.emb (ValueIdx.ix2 r o) 1) d)
    refine congrArg _ (funext fun a => Fin.ext ?_)
    match a with
    | ⟨0, _⟩ =>
      show win1_2.index t (0 : Fin 2) * 768 + 1 * o.val = win1_4.index t (1 : Fin 2) * 768 + 1 * o.val
      rw [e4, e9]
    | ⟨1, _⟩ =>
      show win1_2.index t (1 : Fin 2) * 768 + 1 * d.val = d.val
      rw [e5]; omega
  · show V c main_v4 (((cfg1.win 3).blk t).view.emb (ValueIdx.ix2 0 o))
      = V c main_v4 (ValueIdx.ix2 0 (((cfg1.win 4).blk t).view.emb (ValueIdx.ix2 r o) 1))
    refine congrArg _ (funext fun a => Fin.ext ?_)
    match a with
    | ⟨0, _⟩ =>
      show win1_3.index t (0 : Fin 2) * 1 + 1 * 0 = 0
      rw [e6]
    | ⟨1, _⟩ =>
      show win1_3.index t (1 : Fin 2) * 768 + 1 * o.val = win1_4.index t (1 : Fin 2) * 768 + 1 * o.val
      rw [e7, e9]

/-- An index of the result array is in point t's block iff each coordinate is in the block's range on its axis. -/
theorem projMem_blk (t : Fin cfg1.N) (i : S4096x768.Idx) :
    i ∈ ((cfg1.win 4).blk t).view.set ↔ ∀ a : Fin 2, win1_4.index t a * S1024x768.size a ≤ (i a).val ∧ (i a).val < win1_4.index t a * S1024x768.size a + S1024x768.size a := by
  show i ∈ ((View.whole main_v5).slice (win1_4.rect t)).set ↔ _
  rw [View.set_slice_whole, Rect.mem_set_unit]
  exact Iff.rfl

/-- Row n of the result array is written at point n / 1024. -/
theorem projCover (i : S4096x768.Idx) :
    ∃ t : Fin cfg1.N, (cfg1.win 4).flush t = true ∧ i ∈ ((cfg1.win 4).blk t).view.set := by
  have hi0 : (i 0).val < 4096 := ValueIdx.idx2_lt0 i
  have hi1 : (i 1).val < 768 := ValueIdx.idx2_lt1 i
  have ht : (i 0).val / 1024 < cfg1.N := by show _ < grid1.N; rw [N_1]; omega
  refine ⟨⟨(i 0).val / 1024, ht⟩, flush1_4 _, ?_⟩
  rw [projMem_blk]
  obtain ⟨_, _, _, _, _, _, _, _, e8, e9⟩ := projIdx_facts ⟨(i 0).val / 1024, ht⟩
  intro a
  match a with
  | ⟨0, _⟩ =>
    show win1_4.index ⟨(i 0).val / 1024, ht⟩ (0 : Fin 2) * 1024 ≤ (i 0).val ∧ (i 0).val < win1_4.index ⟨(i 0).val / 1024, ht⟩ (0 : Fin 2) * 1024 + 1024
    rw [e8]
    show (i 0).val / 1024 * 1024 ≤ (i 0).val ∧ (i 0).val < (i 0).val / 1024 * 1024 + 1024
    omega
  | ⟨1, _⟩ =>
    show win1_4.index ⟨(i 0).val / 1024, ht⟩ (1 : Fin 2) * 768 ≤ (i 1).val ∧ (i 1).val < win1_4.index ⟨(i 0).val / 1024, ht⟩ (1 : Fin 2) * 768 + 768
    rw [e9]
    omega

theorem region1_value (c : Dev nD) : (dat1 (F := Ideal) V c).arrAt 4 cfg1.N = projArr V c :=
  (dat1 (F := Ideal) V c).arrAt_eq_of_cover 4 (projArr V c) (fun t _ => projFlushed_eq V c t) projCover

end Cert.KernelIdeal.KVal

end
-- ==== Proof.K2.lean ====
/-
  Region 2's result array: each grid point writes the MLP stage of its 512 token rows (the hidden layer through a
  scratch buffer written whole and read back), and the eight blocks cover the array.
-/
import proofs.«126809_j86406152061476_1_alg».proof.Proof.KDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open QBlock (c1 c2 c3 IsReal)

namespace Cert.KernelIdeal.KVal

open Cert.KernelIdeal Cert.KernelIdeal.Gen

variable (V : (c : Dev nD) → (b : Ref sig .tc) → Buf (Elt Ideal) ((c : Thread nD τ).loc b))

/-! ## The body's store, as one payload of the loaded blocks -/

theorem hz2 : (![0, 0] : Fin 2 → Nat) = fun _ => 0 := funext fun a => by fin_cases a <;> rfl

/-- The body's one store to the output block, whole: its payload over the loaded blocks, the hidden block read
    back from the scratch buffer it was stored to whole. -/
theorem out2_eq {F : FTy → Type} [FloatOps F] (c : Dev nD) (i : grid2.Coords) (a1 : Memref sig .tc .vmem S512x768 .f32) (h1 : a1.IsWhole) (a2 : Memref sig .tc .vmem S3072x768 .f32) (h2 : a2.IsWhole) (a3 : Memref sig .tc .vmem S1x3072 .f32) (h3 : a3.IsWhole) (a4 : Memref sig .tc .vmem S768x3072 .f32) (h4 : a4.IsWhole) (a5 : Memref sig .tc .vmem S1x768 .f32) (h5 : a5.IsWhole) (a6 : Memref sig .tc .vmem S512x768 .f32) (h6 : a6.IsWhole) (a7 : Memref sig .tc .vmem S512x3072 .f32) (h7 : a7.IsWhole)
    (x0 : Vec F S512x768 .f32) (x1 : Vec F S3072x768 .f32) (x2 : Vec F S1x3072 .f32) (x3 : Vec F S768x3072 .f32) (x4 : Vec F S1x768 .f32) :
    out2_A_5 c i a1 h1 a2 h2 a3 h3 a4 h4 a5 h5 a6 h6 a7 h7 x0 x1 x2 x3 x4
      = k2_pay1 (k2_pay2 x0) (k2_pay4 (k2_pay3 x0 x1 x2) x3 x4) (Scalar.ofBits .f32 0xCE800000#32) (Scalar.ofBits .f32 0x4E800000#32) := by
  unfold out2_A_5
  rw [View.read_writes_eq_canon _ _ _ (cover2_A_5 c i a1 h1 a2 h2 a3 h3 a4 h4 a5 h5 a6 h6 a7 h7 x0 x1 x2 x3 x4)]
  unfold kernelRun2_A
  dsimp only
  sl_unfold_words
  rw [View.canon_unit_zero hz2]
  simp only [View.readAt_eq_ld, h1.read_unread, h2.read_unread, h3.read_unread, h4.read_unread, h5.read_unread,
    View.readCov_unit_zero (S := S512x3072) _ hz2,
    View.ld_unit_zero (S := S512x768) hz2, View.ld_unit_zero (S := S3072x768) hz2, View.ld_unit_zero (S := S1x3072) hz2,
    View.ld_unit_zero (S := S768x3072) hz2, View.ld_unit_zero (S := S1x768) hz2]

/-! ## The two block products at an index -/

theorem mmHid_lhs_0 (i : S512x3072.Idx) (q : dot_S512x768_S3072x768_S512x3072_1_1_0_0_n_n.contr.Idx) :
    (dot_S512x768_S3072x768_S512x3072_1_1_0_0_n_n.lhsIdx i q 0).val = (i 0).val := by
  unfold DotDims.lhsIdx
  rw [dif_neg (show ¬(0 : Fin S512x768.rank) ∈ dot_S512x768_S3072x768_S512x3072_1_1_0_0_n_n.lhsBatch by decide), dif_pos (show (0 : Fin S512x768.rank) ∈ dot_S512x768_S3072x768_S512x3072_1_1_0_0_n_n.lhsNonContracting by decide)]
  rfl
theorem mmHid_lhs_1 (i : S512x3072.Idx) (q : dot_S512x768_S3072x768_S512x3072_1_1_0_0_n_n.contr.Idx) :
    (dot_S512x768_S3072x768_S512x3072_1_1_0_0_n_n.lhsIdx i q 1).val = (q ⟨0, by decide⟩).val :=
  dot_S512x768_S3072x768_S512x3072_1_1_0_0_n_n.lhsIdx_val_of_single rfl i q
theorem mmHid_rhs_0 (i : S512x3072.Idx) (q : dot_S512x768_S3072x768_S512x3072_1_1_0_0_n_n.contr.Idx) :
    (dot_S512x768_S3072x768_S512x3072_1_1_0_0_n_n.rhsIdx i q 0).val = (i 1).val := by
  unfold DotDims.rhsIdx
  rw [dif_neg (show ¬(0 : Fin S3072x768.rank) ∈ dot_S512x768_S3072x768_S512x3072_1_1_0_0_n_n.rhsBatch by decide), dif_pos (show (0 : Fin S3072x768.rank) ∈ dot_S512x768_S3072x768_S512x3072_1_1_0_0_n_n.rhsNonContracting by decide)]
  rfl
theorem mmHid_rhs_1 (i : S512x3072.Idx) (q : dot_S512x768_S3072x768_S512x3072_1_1_0_0_n_n.contr.Idx) :
    (dot_S512x768_S3072x768_S512x3072_1_1_0_0_n_n.rhsIdx i q 1).val = (q ⟨0, by decide⟩).val :=
  dot_S512x768_S3072x768_S512x3072_1_1_0_0_n_n.rhsIdx_val_of_single rfl i q

/-- The hidden layer's block product at `(r, j)`: row `r` of the token block against row `j` of the first weight. -/
theorem mmHid_apply (y : FVec Ideal S512x768 .f32) (w : FVec Ideal S3072x768 .f32) (r : Fin 512) (j : Fin 3072) :
    matmul dot_S512x768_S3072x768_S512x3072_1_1_0_0_n_n none y w (constant S512x3072 .f32 0x00000000#32) (ix2 r j)
      = ∑ d : Fin 768, y (ix2 r d) * w (ix2 j d) := by
  simp only [matmul]
  rw [Ideal.matmul_constant_zero_apply, ← Equiv.sum_comp (contrEquiv1 dot_S512x768_S3072x768_S512x3072_1_1_0_0_n_n 768 rfl rfl).symm]
  refine Finset.sum_congr rfl fun k _ => ?_
  have hk := contrEquiv1_symm_val dot_S512x768_S3072x768_S512x3072_1_1_0_0_n_n 768 rfl rfl k
  have el : dot_S512x768_S3072x768_S512x3072_1_1_0_0_n_n.lhsIdx (ix2 r j) ((contrEquiv1 dot_S512x768_S3072x768_S512x3072_1_1_0_0_n_n 768 rfl rfl).symm k) = ix2 r k := funext fun a => Fin.ext (by
    match a with
    | ⟨0, _⟩ => exact mmHid_lhs_0 _ _
    | ⟨1, _⟩ => exact (mmHid_lhs_1 _ _).trans hk)
  have er : dot_S512x768_S3072x768_S512x3072_1_1_0_0_n_n.rhsIdx (ix2 r j) ((contrEquiv1 dot_S512x768_S3072x768_S512x3072_1_1_0_0_n_n 768 rfl rfl).symm k) = ix2 j k := funext fun a => Fin.ext (by
    match a with
    | ⟨0, _⟩ => exact mmHid_rhs_0 _ _
    | ⟨1, _⟩ => exact (mmHid_rhs_1 _ _).trans hk)
  rw [el, er]

theorem mmOut_lhs_0 (i : S512x768.Idx) (q : dot_S512x3072_S768x3072_S512x768_1_1_0_0_n_n.contr.Idx) :
    (dot_S512x3072_S768x3072_S512x768_1_1_0_0_n_n.lhsIdx i q 0).val = (i 0).val := by
  unfold DotDims.lhsIdx
  rw [dif_neg (show ¬(0 : Fin S512x3072.rank) ∈ dot_S512x3072_S768x3072_S512x768_1_1_0_0_n_n.lhsBatch by decide), dif_pos (show (0 : Fin S512x3072.rank) ∈ dot_S512x3072_S768x3072_S512x768_1_1_0_0_n_n.lhsNonContracting by decide)]
  rfl
theorem mmOut_lhs_1 (i : S512x768.Idx) (q : dot_S512x3072_S768x3072_S512x768_1_1_0_0_n_n.contr.Idx) :
    (dot_S512x3072_S768x3072_S512x768_1_1_0_0_n_n.lhsIdx i q 1).val = (q ⟨0, by decide⟩).val :=
  dot_S512x3072_S768x3072_S512x768_1_1_0_0_n_n.lhsIdx_val_of_single rfl i q
theorem mmOut_rhs_0 (i : S512x768.Idx) (q : dot_S512x3072_S768x3072_S512x768_1_1_0_0_n_n.contr.Idx) :
    (dot_S512x3072_S768x3072_S512x768_1_1_0_0_n_n.rhsIdx i q 0).val = (i 1).val := by
  unfold DotDims.rhsIdx
  rw [dif_neg (show ¬(0 : Fin S768x3072.rank) ∈ dot_S512x3072_S768x3072_S512x768_1_1_0_0_n_n.rhsBatch by decide), dif_pos (show (0 : Fin S768x3072.rank) ∈ dot_S512x3072_S768x3072_S512x768_1_1_0_0_n_n.rhsNonContracting by decide)]
  rfl
theorem mmOut_rhs_1 (i : S512x768.Idx) (q : dot_S512x3072_S768x3072_S512x768_1_1_0_0_n_n.contr.Idx) :
    (dot_S512x3072_S768x3072_S512x768_1_1_0_0_n_n.rhsIdx i q 1).val = (q ⟨0, by decide⟩).val :=
  dot_S512x3072_S768x3072_S512x768_1_1_0_0_n_n.rhsIdx_val_of_single rfl i q

/-- The second layer's block product at `(r, o)`: row `r` of the hidden block against row `o` of the second weight. -/
theorem mmOut_apply (y : FVec Ideal S512x3072 .f32) (w : FVec Ideal S768x3072 .f32) (r : Fin 512) (j : Fin 768) :
    matmul dot_S512x3072_S768x3072_S512x768_1_1_0_0_n_n none y w (constant S512x768 .f32 0x00000000#32) (ix2 r j)
      = ∑ d : Fin 3072, y (ix2 r d) * w (ix2 j d) := by
  simp only [matmul]
  rw [Ideal.matmul_constant_zero_apply, ← Equiv.sum_comp (contrEquiv1 dot_S512x3072_S768x3072_S512x768_1_1_0_0_n_n 3072 rfl rfl).symm]
  refine Finset.sum_congr rfl fun k _ => ?_
  have hk := contrEquiv1_symm_val dot_S512x3072_S768x3072_S512x768_1_1_0_0_n_n 3072 rfl rfl k
  have el : dot_S512x3072_S768x3072_S512x768_1_1_0_0_n_n.lhsIdx (ix2 r j) ((contrEquiv1 dot_S512x3072_S768x3072_S512x768_1_1_0_0_n_n 3072 rfl rfl).symm k) = ix2 r k := funext fun a => Fin.ext (by
    match a with
    | ⟨0, _⟩ => exact mmOut_lhs_0 _ _
    | ⟨1, _⟩ => exact (mmOut_lhs_1 _ _).trans hk)
  have er : dot_S512x3072_S768x3072_S512x768_1_1_0_0_n_n.rhsIdx (ix2 r j) ((contrEquiv1 dot_S512x3072_S768x3072_S512x768_1_1_0_0_n_n 3072 rfl rfl).symm k) = ix2 j k := funext fun a => Fin.ext (by
    match a with
    | ⟨0, _⟩ => exact mmOut_rhs_0 _ _
    | ⟨1, _⟩ => exact (mmOut_rhs_1 _ _).trans hk)
  rw [el, er]

/-! ## The payload at an index -/

/-- Rounding down, entry by entry. -/
theorem floor_apply {s : Shape} {φ : FTy} (a : FVec Ideal s φ) (i : s.Idx) : floor a i = Ideal.liftRound Int.floor (a i) := rfl

/-- The hidden block at (r, j) is the hidden layer of the block's row r. -/
theorem hid_apply (x0 : Vec Ideal S512x768 .f32) (x1 : Vec Ideal S3072x768 .f32) (x2 : Vec Ideal S1x3072 .f32)
    (r : Fin 512) (j : Fin 3072) :
    k2_pay3 (F := Ideal) x0 x1 x2 (ix2 r j) = QBlock.hidRow (c2 x0) (c2 x1) (row0 x2) r j := by
  unfold k2_pay3 k2_pay2
  simp only [shapeCast_self, minimumf_apply, maximumf_apply, broadcast_apply, floor_apply, divf_apply, addf_apply,
    mmHid_apply, broadcastTo_1b_ab_apply, mulf_apply, shapeCast_a_1a_apply, shapeCast_1a_a_apply, Ideal.ofBits_def]
  rfl

/-- The stored block at (r, o) is the MLP stage of the block's row r: the second layer over the hidden row,
    re-quantized and clamped, plus the re-quantized input row. -/
theorem pay_apply (x0 : Vec Ideal S512x768 .f32) (x1 : Vec Ideal S3072x768 .f32) (x2 : Vec Ideal S1x3072 .f32)
    (x3 : Vec Ideal S768x3072 .f32) (x4 : Vec Ideal S1x768 .f32) (r : Fin 512) (o : Fin 768) :
    k2_pay1 (F := Ideal) (k2_pay2 x0) (k2_pay4 (k2_pay3 x0 x1 x2) x3 x4) (Scalar.ofBits .f32 0xCE800000#32)
        (Scalar.ofBits .f32 0x4E800000#32) (ix2 r o)
      = QBlock.mlpRow (c2 x0) (c2 x1) (row0 x2) (c2 x3) (row0 x4) r o := by
  unfold k2_pay1 k2_pay4 k2_pay2
  simp only [shapeCast_self, minimumf_apply, maximumf_apply, broadcast_apply, floor_apply, divf_apply, addf_apply,
    mmOut_apply, broadcastTo_1b_ab_apply, mulf_apply, shapeCast_a_1a_apply, shapeCast_1a_a_apply, Ideal.ofBits_def,
    hid_apply]
  rfl

/-- The same over a block that is rows k·512 … k·512 + 511 of a whole array of token rows and over the whole
    weights and bias rows: the stage is row-local, so the block's row r is the array's row k·512 + r. -/
theorem blockVal (Y : Vec Ideal S4096x768 .f32) (W1 : Vec Ideal S3072x768 .f32) (B1 : Vec Ideal S1x3072 .f32)
    (W2 : Vec Ideal S768x3072 .f32) (B2 : Vec Ideal S1x768 .f32)
    (x0 : Vec Ideal S512x768 .f32) (x1 : Vec Ideal S3072x768 .f32) (x2 : Vec Ideal S1x3072 .f32)
    (x3 : Vec Ideal S768x3072 .f32) (x4 : Vec Ideal S1x768 .f32)
    (k : Nat) (hk : ∀ r : Fin 512, k * 512 + r.val < 4096)
    (e0 : ∀ (r : Fin 512) (o : Fin 768), x0 (ix2 r o) = Y (ix2 ⟨k * 512 + r.val, hk r⟩ o))
    (e1 : x1 = W1) (e2 : x2 = B1) (e3 : x3 = W2) (e4 : x4 = B2)
    (j : S512x768.Idx) (n : S4096x768.Idx) (hn0 : (n 0).val = k * 512 + (j 0).val) (hn1 : (n 1).val = (j 1).val) :
    k2_pay1 (F := Ideal) (k2_pay2 x0) (k2_pay4 (k2_pay3 x0 x1 x2) x3 x4) (Scalar.ofBits .f32 0xCE800000#32)
        (Scalar.ofBits .f32 0x4E800000#32) j
      = QBlock.mlpRow (c2 Y) (c2 W1) (row0 B1) (c2 W2) (row0 B2) (n 0) (n 1) := by
  subst e1 e2 e3 e4
  obtain ⟨r, o, rfl⟩ : ∃ (r : Fin 512) (o : Fin 768), j = ix2 r o := ⟨j 0, j 1, eq_ix2 j⟩
  rw [pay_apply]
  have eY : c2 x0 = QBlock.rowsAt 512 (c2 Y) k hk := funext fun r => funext fun o => e0 r o
  rw [eY, QBlock.mlpRow_rowsAt]
  have en0 : (⟨k * 512 + r.val, hk r⟩ : Fin 4096) = n 0 := Fin.ext hn0.symm
  have en1 : o = n 1 := Fin.ext hn1.symm
  rw [en0, en1]

/-! ## The blocks a point reads and writes -/

/-- The index maps, decided over the eight points: the token block and the output block move down the rows with
    the point, the weights and bias rows stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem lt_rows (t : Fin cfg2.N) (r : Fin 512) : t.val * 512 + r.val < 4096 := by
  have h8 : cfg2.N = 8 := N_2
  have := t.isLt; have := r.isLt; omega

/-- The token block at point t is rows t·512 … t·512 + 511 of the token array. -/
theorem blk0_apply (c : Dev nD) (t : Fin cfg2.N) (r : Fin 512) (o : Fin 768) :
    (iblk2 (F := Ideal) V c 0 t : Vec Ideal S512x768 .f32) (ix2 r o)
      = (V c main_v5 : Vec Ideal S4096x768 .f32) (ix2 ⟨t.val * 512 + r.val, lt_rows t r⟩ o) := by
  obtain ⟨e0, e1, -⟩ := idx_facts t
  unfold iblk2
  rw [View.read_apply]
  show V c main_v5 _ = V c main_v5 _
  congr 1
  funext a
  apply Fin.ext
  match a with
  | ⟨0, _⟩ => show win2_0.index t (0 : Fin 2) * 512 + 1 * r.val = t.val * 512 + r.val; rw [e0]; omega
  | ⟨1, _⟩ => show win2_0.index t (1 : Fin 2) * 768 + 1 * o.val = o.val; rw [e1]; omega

/-- The first weight's block is the whole weight at every point. -/
theorem blk1_eq (c : Dev nD) (t : Fin cfg2.N) :
    (iblk2 (F := Ideal) V c 1 t : Vec Ideal S3072x768 .f32) = (V c main_arg5 : Vec Ideal S3072x768 .f32) := by
  have e := idx_facts t
  funext y
  unfold iblk2
  rw [View.read_apply]
  show V c main_arg5 _ = V c main_arg5 _
  congr 1
  funext a
  apply Fin.ext
  match a with
  | ⟨0, _⟩ => show win2_1.index t (0 : Fin 2) * 3072 + 1 * (y 0).val = (y 0).val; rw [e.2.2.1]; omega
  | ⟨1, _⟩ => show win2_1.index t (1 : Fin 2) * 768 + 1 * (y 1).val = (y 1).val; rw [e.2.2.2.1]; omega

/-- The first bias row's block is the whole row at every point. -/
theorem blk2_eq (c : Dev nD) (t : Fin cfg2.N) :
    (iblk2 (F := Ideal) V c 2 t : Vec Ideal S1x3072 .f32) = (V c main_v6 : Vec Ideal S1x3072 .f32) := by
  have e := idx_facts t
  funext y
  unfold iblk2
  rw [View.read_apply]
  show V c main_v6 _ = V c main_v6 _
  congr 1
  funext a
  apply Fin.ext
  match a with
  | ⟨0, _⟩ => show win2_2.index t (0 : Fin 2) * 1 + 1 * (y 0).val = (y 0).val; rw [e.2.2.2.2.1]; omega
  | ⟨1, _⟩ => show win2_2.index t (1 : Fin 2) * 3072 + 1 * (y 1).val = (y 1).val; rw [e.2.2.2.2.2.1]; omega

/-- The second weight's block is the whole weight at every point. -/
theorem blk3_eq (c : Dev nD) (t : Fin cfg2.N) :
    (iblk2 (F := Ideal) V c 3 t : Vec Ideal S768x3072 .f32) = (V c main_arg7 : Vec Ideal S768x3072 .f32) := by
  have e := idx_facts t
  funext y
  unfold iblk2
  rw [View.read_apply]
  show V c main_arg7 _ = V c main_arg7 _
  congr 1
  funext a
  apply Fin.ext
  match a with
  | ⟨0, _⟩ => show win2_3.index t (0 : Fin 2) * 768 + 1 * (y 0).val = (y 0).val; rw [e.2.2.2.2.2.2.1]; omega
  | ⟨1, _⟩ => show win2_3.index t (1 : Fin 2) * 3072 + 1 * (y 1).val = (y 1).val; rw [e.2.2.2.2.2.2.2.1]; omega

/-- The second bias row's block is the whole row at every point. -/
theorem blk4_eq (c : Dev nD) (t : Fin cfg2.N) :
    (iblk2 (F := Ideal) V c 4 t : Vec Ideal S1x768 .f32) = (V c main_v7 : Vec Ideal S1x768 .f32) := by
  have e := idx_facts t
  funext y
  unfold iblk2
  rw [View.read_apply]
  show V c main_v7 _ = V c main_v7 _
  congr 1
  funext a
  apply Fin.ext
  match a with
  | ⟨0, _⟩ => show win2_4.index t (0 : Fin 2) * 1 + 1 * (y 0).val = (y 0).val; rw [e.2.2.2.2.2.2.2.2.1]; omega
  | ⟨1, _⟩ => show win2_4.index t (1 : Fin 2) * 768 + 1 * (y 1).val = (y 1).val; rw [e.2.2.2.2.2.2.2.2.2.1]; omega

/-! ## What a point writes back, and the array -/

/-- What point t writes back is block t of the MLP stage of the whole token array. -/
theorem flushed_eq (c : Dev nD) (t : Fin cfg2.N) :
    (dat2 (F := Ideal) V c).flushed 5 t = ((cfg2.win 5).blk t).view.read (Elt Ideal) (mlpArr V c) := by
  show (cfg2.win 5).cut (grid2.coords t) ((dat2 (F := Ideal) V c).after 5 t) = _
  rw [after2_5]
  unfold outsAt2
  rw [out2_eq (F := Ideal) c (grid2.coords t) (ms2_0 t) (hs2_0 t) (ms2_1 t) (hs2_1 t) (ms2_2 t) (hs2_2 t) (ms2_3 t) (hs2_3 t)
    (ms2_4 t) (hs2_4 t) (ms2_5 t) (hs2_5 t) scM2_0 (Memref.isWhole_whole _)
    (iblk2 V c 0 t) (iblk2 V c 1 t) (iblk2 V c 2 t) (iblk2 V c 3 t) (iblk2 V c 4 t)]
  obtain ⟨-, -, -, -, -, -, -, -, -, -, e0, e1⟩ := idx_facts t
  funext j
  refine blockVal (V c main_v5) (V c main_arg5) (V c main_v6) (V c main_arg7) (V c main_v7)
    (iblk2 V c 0 t) (iblk2 V c 1 t) (iblk2 V c 2 t) (iblk2 V c 3 t) (iblk2 V c 4 t) t.val (lt_rows t)
    (blk0_apply V c t) (blk1_eq V c t) (blk2_eq V c t) (blk3_eq V c t) (blk4_eq V c t)
    ((cfg2.win 5).xinj (grid2.coords t) j) (((cfg2.win 5).blk t).view.emb j) ?_ ?_
  · show win2_5.index t (0 : Fin 2) * 512 + 1 * (j 0).val = t.val * 512 + (j 0).val
    rw [e0]; omega
  · show win2_5.index t (1 : Fin 2) * 768 + 1 * (j 1).val = (j 1).val
    rw [e1]; omega

/-- Row n of the array is in the block of point n / 512, so the eight blocks cover the array and it ends holding
    the MLP stage of the token array it was entered with. -/
theorem region2_value (c : Dev nD) : (dat2 (F := Ideal) V c).arrAt 5 cfg2.N = mlpArr V c := by
  refine (dat2 (F := Ideal) V c).arrAt_eq_of_cover 5 (mlpArr V c) (fun t _ => flushed_eq V c t) fun i => ?_
  have h0 : (i 0 : Nat) < 4096 := (i 0).isLt
  have h1 : (i 1 : Nat) < 768 := (i 1).isLt
  obtain ⟨t, ht⟩ : ∃ t : Fin cfg2.N, t.val = (i 0 : Nat) / 512 :=
    ⟨⟨(i 0 : Nat) / 512, by rw [show cfg2.N = 8 from N_2]; omega⟩, rfl⟩
  obtain ⟨-, -, -, -, -, -, -, -, -, -, e0, e1⟩ := idx_facts t
  refine ⟨t, flush2_5 t, ?_⟩
  show i ∈ ((View.whole main_v8).slice (win2_5.rect t)).set
  rw [View.set_slice_whole, Rect.mem_set_unit]
  intro a
  match a with
  | ⟨0, _⟩ =>
    show win2_5.index t (0 : Fin 2) * 512 ≤ (i 0 : Nat) ∧ (i 0 : Nat) < win2_5.index t (0 : Fin 2) * 512 + 512
    rw [e0, ht]; omega
  | ⟨1, _⟩ =>
    show win2_5.index t (1 : Fin 2) * 768 ≤ (i 1 : Nat) ∧ (i 1 : Nat) < win2_5.index t (1 : Fin 2) * 768 + 768
    rw [e1]; omega

end Cert.KernelIdeal.KVal

end
-- ==== Proof.KChain.lean ====
/-
  The kernel program's result, read back to the launch arrays. Between the regions the host only reshapes: the bias
  vectors to one-row arrays, the `[4, 1024, 768]` arrays to `[4096, 768]` token rows and back. So what region 0 finds is
  the input, the fused weight and the bias row; what region 1 finds is region 0's attention flattened, the input
  flattened, the projection weight and its bias row; what region 2 finds is region 1's rows and the two MLP weights with
  their bias rows; and the result is region 2's rows unflattened. Each region's array is the specification's stage of
  what the region found (Proof/K0Array.lean, Proof/K1.lean, Proof/K2.lean), and a stage of flattened rows is the
  flattened stage, because every token row of the later stages depends on the same row of its inputs only.
-/
import proofs.«126809_j86406152061476_1_alg».proof.Proof.K0Array
import proofs.«126809_j86406152061476_1_alg».proof.Proof.K1
import proofs.«126809_j86406152061476_1_alg».proof.Proof.K2
import proofs.«126809_j86406152061476_1_alg».proof.Proof.KernelRun
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.StableHlo
open Idealize.ShloMosaic.Pipeline (Dat)
open QBlock (c1 c2 c3 IsReal)

/-! ## Flattened token rows -/

namespace QBlock

/-- The token at row `n` of the flattened axis is token `n % 1024` of batch element `n / 1024`. -/
theorem tok_div_mod (n : Fin 4096) :
    tok ⟨n.val / 1024, by have := n.isLt; omega⟩ ⟨n.val % 1024, Nat.mod_lt _ (by norm_num)⟩ = n :=
  Fin.ext (by show n.val / 1024 * 1024 + n.val % 1024 = n.val; omega)

/-- The projection stage of the flattened rows is the flattened projection stage. -/
theorem flat_res1 (X : Fin 4 → Fin 1024 → Fin 768 → EReal) (Wqkv : Fin 2304 → Fin 768 → EReal) (Bqkv : Fin 2304 → EReal)
    (Wp : Fin 768 → Fin 768 → EReal) (Bp : Fin 768 → EReal) (n : Fin 4096) (o : Fin 768) :
    flat (res1 X Wqkv Bqkv Wp Bp) n o = projRow (flat (attn X Wqkv Bqkv)) (flat X) Wp Bp n o := by
  show res1 X Wqkv Bqkv Wp Bp _ _ o = _
  unfold res1
  rw [tok_div_mod]

end QBlock

namespace Cert.KernelIdeal.KVal

open Cert.KernelIdeal Cert.KernelIdeal.Gen

/-! ## The host's reshapes read at an index -/

/-- A vector as a one-row array: entry `(0, j)` is entry `j`. -/
theorem row_read {n : Nat} (v : (⟨1, ![n]⟩ : Shape).Idx → EReal) (h : (⟨1, ![n]⟩ : Shape).ShapeCasts ⟨2, ![1, n]⟩) :
    row0 (shapeCast ⟨2, ![1, n]⟩ v h) = c1 v := by
  funext j
  exact shapeCast_apply v h (ValueIdx.ix2 0 j) (ValueIdx.ix1 j)
    (by rewrite [Shape.rowMajor_val_one, Shape.rowMajor_val_two]; show j.val = 0 * n + j.val; omega)

/-- A `[4, 1024, 768]` array flattened to token rows: row `t` is token `t % 1024` of batch element `t / 1024`. -/
theorem flat_read (x : S4x1024x768.Idx → EReal) (h : S4x1024x768.ShapeCasts S4096x768) :
    c2 (shapeCast S4096x768 x h) = QBlock.flat (c3 x) := by
  funext t o
  have ht := t.isLt
  have ho := o.isLt
  exact shapeCast_apply x h (ValueIdx.ix2 t o) (ValueIdx.ix3 ⟨t.val / 1024, by omega⟩ ⟨t.val % 1024, Nat.mod_lt _ (by norm_num)⟩ o)
    (by rewrite [Shape.rowMajor_val_three, Shape.rowMajor_val_two]
        show (t.val / 1024 * 1024 + t.val % 1024) * 768 + o.val = t.val * 768 + o.val; omega)

/-- Token rows unflattened: entry `(b, s, o)` is row `b·1024 + s`, column `o`. -/
theorem unflat_read (y : S4096x768.Idx → EReal) (h : S4096x768.ShapeCasts S4x1024x768) (b : Fin 4) (s : Fin 1024) (o : Fin 768) :
    shapeCast S4x1024x768 y h (ValueIdx.ix3 b s o) = y (ValueIdx.ix2 (QBlock.tok b s) o) :=
  shapeCast_apply y h (ValueIdx.ix3 b s o) (ValueIdx.ix2 (QBlock.tok b s) o)
    (by rewrite [Shape.rowMajor_val_two, Shape.rowMajor_val_three]
        show (b.val * 1024 + s.val) * 768 + o.val = (b.val * 1024 + s.val) * 768 + o.val; rfl)

variable (m : (ℓ : Loc nD τ sig) → Buf (Elt Ideal) ℓ) (ρ : Dev nD → PrngReg)

/-! ## What region 0 finds -/

theorem V1_arg0 (c : Dev nD) : V1 m ρ c main_arg0 = (m ((c : Thread nD τ).loc main_arg0)) := by
  show StableHlo.after hostOps0 (W0 m ρ c) (Proc.devRef .tc main_arg0) = _
  after_results
theorem V1_arg1 (c : Dev nD) : V1 m ρ c main_arg1 = (m ((c : Thread nD τ).loc main_arg1)) := by
  show StableHlo.after hostOps0 (W0 m ρ c) (Proc.devRef .tc main_arg1) = _
  after_results
theorem V1_v0 (c : Dev nD) : V1 m ρ c main_v0 = shapeCast S1x2304 (m ((c : Thread nD τ).loc main_arg2)) shapeCasts_S2304_S1x2304 := by
  show StableHlo.after hostOps0 (W0 m ρ c) (Proc.devRef .tc main_v0) = _
  after_results
  rfl

/-- An argument no window of region 0 stages is, when region 0 is left, as launched. -/
theorem W2_arg (c : Dev nD) (b : Ref sig .tc) (hb : ∀ w, Pipeline.arrRef spec0 w ≠ b) (hb0 : b ≠ main_v0) :
    W2 m ρ c (Proc.devRef .tc b) = W0 m ρ c (Proc.devRef .tc b) := by
  rw [W2_of_ne m ρ c b hb]
  show StableHlo.after hostOps0 (W0 m ρ c) (Proc.devRef .tc b) = _
  simp only [after_cons, after_nil]
  rw [reshape_result_ne]
  exact hb0

/-- Region 0 leaves the attention stage of the launch arrays. -/
theorem W2_v1 (c : Dev nD) : W2 m ρ c (Proc.devRef .tc main_v1)
    = fun i => QBlock.attn (c3 (m ((c : Thread nD τ).loc main_arg0))) (c2 (m ((c : Thread nD τ).loc main_arg1))) (c1 (m ((c : Thread nD τ).loc main_arg2))) (i 0) (i 1) (i 2) := by
  rw [show W2 m ρ c (Proc.devRef .tc main_v1) = attnArr (V1 m ρ) c from (W2_arr m ρ c 3).trans (region0_value (V1 m ρ) c)]
  unfold attnArr
  rw [V1_arg0, V1_arg1, V1_v0, row_read]
  rfl

/-- Region 0 leaves the input as launched. -/
theorem W2_arg0 (c : Dev nD) : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (V1_arg0 m ρ c)

/-! ## What region 1 finds -/

theorem V3_v2 (c : Dev nD) : V3 m ρ c main_v2 = shapeCast S4096x768 (W2 m ρ c (Proc.devRef .tc main_v1)) shapeCasts_S4x1024x768_S4096x768 := by
  show StableHlo.after hostOps1 (W2 m ρ c) (Proc.devRef .tc main_v2) = _
  after_results
  rfl
theorem V3_v3 (c : Dev nD) : V3 m ρ c main_v3 = shapeCast S4096x768 (m ((c : Thread nD τ).loc main_arg0)) shapeCasts_S4x1024x768_S4096x768 := by
  show StableHlo.after hostOps1 (W2 m ρ c) (Proc.devRef .tc main_v3) = _
  after_results
  rw [W2_arg0]
  rfl
theorem V3_arg3 (c : Dev nD) : V3 m ρ c main_arg3 = (m ((c : Thread nD τ).loc main_arg3)) := by
  show StableHlo.after hostOps1 (W2 m ρ c) (Proc.devRef .tc main_arg3) = _
  after_results
  exact W2_arg m ρ c main_arg3 (by decide) (by decide)
theorem V3_v4 (c : Dev nD) : V3 m ρ c main_v4 = shapeCast S1x768 (m ((c : Thread nD τ).loc main_arg4)) shapeCasts_S768_S1x768 := by
  show StableHlo.after hostOps1 (W2 m ρ c) (Proc.devRef .tc main_v4) = _
  after_results
  rw [W2_arg m ρ c main_arg4 (by decide) (by decide)]
  rfl

/-- An argument no window of region 1 stages is, when region 1 is left, as launched. -/
theorem W4_arg (c : Dev nD) (b : Ref sig .tc) (hb1 : ∀ w, Pipeline.arrRef spec1 w ≠ b) (hb : ∀ w, Pipeline.arrRef spec0 w ≠ b)
    (hb0 : b ≠ main_v0) (h2 : b ≠ main_v2) (h3 : b ≠ main_v3) (h4 : b ≠ main_v4) :
    W4 m ρ c (Proc.devRef .tc b) = W0 m ρ c (Proc.devRef .tc b) := by
  rw [W4_of_ne m ρ c b hb1]
  show StableHlo.after hostOps1 (W2 m ρ c) (Proc.devRef .tc b) = _
  simp only [after_cons, after_nil]
  rw [reshape_result_ne (h := h4), reshape_result_ne (h := h3), reshape_result_ne (h := h2)]
  exact W2_arg m ρ c b hb hb0

/-- Region 1 leaves the projection stage of the launch arrays, as token rows. -/
theorem W4_v5 (c : Dev nD) : c2 (W4 m ρ c (Proc.devRef .tc main_v5))
    = QBlock.flat (QBlock.res1 (c3 (m ((c : Thread nD τ).loc main_arg0))) (c2 (m ((c : Thread nD τ).loc main_arg1))) (c1 (m ((c : Thread nD τ).loc main_arg2))) (c2 (m ((c : Thread nD τ).loc main_arg3))) (c1 (m ((c : Thread nD τ).loc main_arg4)))) := by
  rw [show W4 m ρ c (Proc.devRef .tc main_v5) = projArr (V3 m ρ) c from (W4_arr m ρ c 4).trans (region1_value (V3 m ρ) c)]
  funext n o
  rw [QBlock.flat_res1]
  show QBlock.projRow (c2 (V3 m ρ c main_v2)) (c2 (V3 m ρ c main_v3)) (c2 (V3 m ρ c main_arg3)) (row0 (V3 m ρ c main_v4)) n o = _
  rw [V3_v2, V3_v3, V3_arg3, V3_v4, row_read, flat_read, flat_read, W2_v1]
  rfl

/-! ## What region 2 finds -/

theorem V5_v5 (c : Dev nD) : V5 m ρ c main_v5 = W4 m ρ c (Proc.devRef .tc main_v5) := by
  show StableHlo.after hostOps2 (W4 m ρ c) (Proc.devRef .tc main_v5) = _
  after_results
theorem V5_arg5 (c : Dev nD) : V5 m ρ c main_arg5 = (m ((c : Thread nD τ).loc main_arg5)) := by
  show StableHlo.after hostOps2 (W4 m ρ c) (Proc.devRef .tc main_arg5) = _
  after_results
  exact W4_arg m ρ c main_arg5 (by decide) (by decide) (by decide) (by decide) (by decide) (by decide)
theorem V5_arg7 (c : Dev nD) : V5 m ρ c main_arg7 = (m ((c : Thread nD τ).loc main_arg7)) := by
  show StableHlo.after hostOps2 (W4 m ρ c) (Proc.devRef .tc main_arg7) = _
  after_results
  exact W4_arg m ρ c main_arg7 (by decide) (by decide) (by decide) (by decide) (by decide) (by decide)
theorem V5_v6 (c : Dev nD) : V5 m ρ c main_v6 = shapeCast S1x3072 (m ((c : Thread nD τ).loc main_arg6)) shapeCasts_S3072_S1x3072 := by
  show StableHlo.after hostOps2 (W4 m ρ c) (Proc.devRef .tc main_v6) = _
  after_results
  rw [W4_arg m ρ c main_arg6 (by decide) (by decide) (by decide) (by decide) (by decide) (by decide)]
  rfl
theorem V5_v7 (c : Dev nD) : V5 m ρ c main_v7 = shapeCast S1x768 (m ((c : Thread nD τ).loc main_arg8)) shapeCasts_S768_S1x768 := by
  show StableHlo.after hostOps2 (W4 m ρ c) (Proc.devRef .tc main_v7) = _
  after_results
  rw [W4_arg m ρ c main_arg8 (by decide) (by decide) (by decide) (by decide) (by decide) (by decide)]
  rfl

/-! ## The result -/

/-- The block's specification over the launch arrays, as contents of the result buffer. -/
def outArr (c : Dev nD) : Buf (Elt Ideal) ((c : Thread nD τ).loc main_v9) := fun i =>
  QBlock.out (c3 (m ((c : Thread nD τ).loc main_arg0))) (c2 (m ((c : Thread nD τ).loc main_arg1))) (c1 (m ((c : Thread nD τ).loc main_arg2))) (c2 (m ((c : Thread nD τ).loc main_arg3))) (c1 (m ((c : Thread nD τ).loc main_arg4)))
    (c2 (m ((c : Thread nD τ).loc main_arg5))) (c1 (m ((c : Thread nD τ).loc main_arg6))) (c2 (m ((c : Thread nD τ).loc main_arg7))) (c1 (m ((c : Thread nD τ).loc main_arg8))) (i 0) (i 1) (i 2)

/-- The last boundary's contents at the result buffer: region 2's rows unflattened, which are the MLP stage of region
    1's rows, which are the projection stage of region 0's attention. -/
theorem kernel_value (c : Dev nD) : W7 m ρ c (Proc.devRef .tc main_v9) = outArr m c := by
  have e9 : W7 m ρ c (Proc.devRef .tc main_v9)
      = shapeCast S4x1024x768 (W6 m ρ c (Proc.devRef .tc main_v8)) shapeCasts_S4096x768_S4x1024x768 := by
    show StableHlo.after hostOps3 (W6 m ρ c) (Proc.devRef .tc main_v9) = _
    after_results
    rfl
  have e8 : W6 m ρ c (Proc.devRef .tc main_v8) = mlpArr (V5 m ρ) c := (W6_arr m ρ c 5).trans (region2_value (V5 m ρ) c)
  funext i
  obtain ⟨b, s, o, rfl⟩ : ∃ (b : Fin 4) (s : Fin 1024) (o : Fin 768), i = ValueIdx.ix3 b s o := ⟨i 0, i 1, i 2, ValueIdx.eq_ix3 i⟩
  rw [e9, unflat_read, e8]
  show QBlock.mlpRow (c2 (V5 m ρ c main_v5)) (c2 (V5 m ρ c main_arg5)) (row0 (V5 m ρ c main_v6)) (c2 (V5 m ρ c main_arg7)) (row0 (V5 m ρ c main_v7)) (QBlock.tok b s) o = _
  rw [V5_v5, V5_arg5, V5_v6, V5_arg7, V5_v7, row_read, row_read, W4_v5]
  rfl

/-- The kernel program's run with its result at the specification of the launch arrays. -/
theorem run : θ_run defs (onTc (τ := τ) (main (F := Ideal))) ⟨m, fun _ => 0, ρ⟩ (fun r => ∀ c : Dev nD,
      r.2.mem ((c.tc : Thread nD τ).loc main_v9) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (kernel_value m ρ c), (h c).2⟩) (Cert.KernelIdeal.KRun.run_value (F := Ideal) m ρ)

end Cert.KernelIdeal.KVal

end
-- ==== Proof.RefA.lean ====
/-
  The reference's three per-head projections (query, key, value), read at an index: each is the quantized
  projection of the token onto the matching row of the fused weight, the straight-through rounding being the
  rounding because a finite sum of products of real entries is real.

  The three parts differ only in the slice of the fused weight and bias they read: part `p` of head `h` reads
  rows `h·192 + p·64 + e`. Each part is reduced, by reading its operations at an index and identifying the
  composed index maps with the coordinates `(b, s, k)` of the input and `(row h p e, k)` of the weight, to one
  shared statement `core` about a clamp of `q + (⌊q⌋ - q)` with `q = (∑ₖ W r k · X b s k + B r · 2) / 2`.
-/
import proofs.«126809_j86406152061476_1_alg».proof.Proof.RefRead
import proofs.«126809_j86406152061476_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open QBlock (c1 c2 c3 IsReal)

namespace Cert.ReferenceIdeal.RefValue

open Cert.ReferenceIdeal Cert.ReferenceIdeal.Gen Cert.ReferenceIdeal.ReadP

variable (x0 : (⟨S4x1024x768, .f32⟩ : BufTy).Contents (Elt Ideal)) (x1 : (⟨S2304x768, .f32⟩ : BufTy).Contents (Elt Ideal)) (x2 : (⟨S2304, .f32⟩ : BufTy).Contents (Elt Ideal))

/-- The shared statement: with `q = (∑ₖ W r k · X b s k + B r · 2) / 2`, a real number because the entries are,
    the clamp of `q + (⌊q⌋ - q)` is the clamp of `⌊q⌋`, which is the quantized projection onto row `r`
    (the factors of each product in the other order). -/
theorem core (h0 : ∀ i, IsReal (x0 i)) (h1 : ∀ i, IsReal (x1 i)) (h2 : ∀ i, IsReal (x2 i)) (b : Fin 4) (s : Fin 1024) (r : Fin 2304) :
    min QBlock.hi16 (max QBlock.lo16
      (Ideal.div ((∑ k : Fin 768, x1 (ValueIdx.ix2 r k) * x0 (ValueIdx.ix3 b s k)) + x2 (ValueIdx.ix1 r) * QBlock.w2) QBlock.w2
        + (Ideal.liftRound Int.floor (Ideal.div ((∑ k : Fin 768, x1 (ValueIdx.ix2 r k) * x0 (ValueIdx.ix3 b s k)) + x2 (ValueIdx.ix1 r) * QBlock.w2) QBlock.w2)
            - Ideal.div ((∑ k : Fin 768, x1 (ValueIdx.ix2 r k) * x0 (ValueIdx.ix3 b s k)) + x2 (ValueIdx.ix1 r) * QBlock.w2) QBlock.w2)))
      = QBlock.qkv1 (c3 x0 b) (c2 x1) (c1 x2) s r := by
  have hsum : (∑ k : Fin 768, x1 (ValueIdx.ix2 r k) * x0 (ValueIdx.ix3 b s k)) = ∑ d : Fin 768, c3 x0 b s d * c2 x1 r d :=
    Finset.sum_congr rfl fun _ _ => mul_comm _ _
  rw [hsum]
  unfold QBlock.qkv1
  exact QBlock.rqS_eq_rq _ _ _ _ (QBlock.isReal_div_w2
    ((IsReal.sum _ _ fun d _ => (h0 _).mul (h1 _)).add ((h2 _).mul QBlock.isReal_w2)))

/-! ### Part 0 (query): rows `h·192 + 0·64 + e` -/

/-- The weight entry the contraction reads at step `k`: row `h·192 + 0·64 + e`, column `k`. -/
theorem widx20 (b : Fin 4) (h : Fin 12) (s : Fin 1024) (e : Fin 64) (k : Fin 768) :
    idx_main_v0 (idx_main_v2 (lidx_main_v8 (idx_main_v9 (ValueIdx.ix4 b h s e)) k)) = ValueIdx.ix2 (QBlock.row h 0 e) k :=
  funext fun a => Fin.ext (by
    have hh := h.isLt; have he := e.isLt; have hk := k.isLt
    match a with
    | ⟨0, _⟩ =>
      show ((h.val * 192 + (e.val)) * 768 + k.val) / 768 = h.val * 192 + (0 : Fin 3).val * 64 + e.val
      have hp : (0 : Fin 3).val = 0 := rfl
      rw [hp]; omega
    | ⟨1, _⟩ =>
      show ((h.val * 192 + (e.val)) * 768 + k.val) % 768 = k.val
      omega)

/-- The input entry the contraction reads at step `k`: batch `b`, token `s`, feature `k`. -/
theorem xidx20 (b : Fin 4) (h : Fin 12) (s : Fin 1024) (e : Fin 64) (k : Fin 768) :
    ridx_main_v8 (idx_main_v9 (ValueIdx.ix4 b h s e)) k = ValueIdx.ix3 b s k :=
  funext fun a => Fin.ext (by
    match a with
    | ⟨0, _⟩ => rfl
    | ⟨1, _⟩ => rfl
    | ⟨2, _⟩ => rfl)

/-- The bias entry the broadcasts read: row `h·192 + 0·64 + e`. -/
theorem bidx20 (b : Fin 4) (h : Fin 12) (s : Fin 1024) (e : Fin 64) :
    idx_main_v1 (idx_main_v5 (idx_main_v10 (idx_main_v13 (ValueIdx.ix4 b h s e)))) = ValueIdx.ix1 (QBlock.row h 0 e) :=
  funext fun a => Fin.ext (by
    match a with
    | ⟨0, _⟩ =>
      show h.val * 192 + (e.val) = h.val * 192 + (0 : Fin 3).val * 64 + e.val
      have hp : (0 : Fin 3).val = 0 := rfl
      rw [hp]; omega)

theorem v20_eq (h0 : ∀ i, IsReal (x0 i)) (h1 : ∀ i, IsReal (x1 i)) (h2 : ∀ i, IsReal (x2 i)) (b : Fin 4) (h : Fin 12) (s : Fin 1024) (e : Fin 64) :
    val_main_v20 (F := Ideal) x0 x1 x2 (ValueIdx.ix4 b h s e) = QBlock.qkv1 (c3 x0 b) (c2 x1) (c1 x2) s (QBlock.row h 0 e) := by
  simp only [val_main_v20_apply, val_main_call0_v4_apply, val_main_call0_v3_apply, val_main_cst_2_apply,
    val_main_call0_v2_apply, val_main_call0_v1_apply, val_main_call0_v0_apply, val_main_cst_1_apply,
    val_main_v19_apply, val_main_v18_apply, val_main_v17_apply, val_main_v16_apply, val_main_v15_apply, val_main_cst_0_apply,
    val_main_v14_apply, val_main_v13_apply, val_main_v12_apply, val_main_v11_apply, val_main_cst_apply,
    val_main_v10_apply, val_main_v5_apply, val_main_v1_apply, val_main_v9_apply, val_main_v8_apply, val_main_v2_apply, val_main_v0_apply,
    widx20, xidx20, bidx20,
    Ideal.ofBits_def, Ideal.addf_def, Ideal.subf_def, Ideal.mulf_def, Ideal.hostDivf_def, Ideal.maximumf_def, Ideal.minimumf_def, Ideal.hostUnary_floor_def]
  exact core x0 x1 x2 h0 h1 h2 b s (QBlock.row h 0 e)

/-! ### Part 1 (key): rows `h·192 + 1·64 + e` -/

/-- The weight entry the contraction reads at step `k`: row `h·192 + 1·64 + e`, column `k`. -/
theorem widx33 (b : Fin 4) (h : Fin 12) (s : Fin 1024) (e : Fin 64) (k : Fin 768) :
    idx_main_v0 (idx_main_v3 (lidx_main_v21 (idx_main_v22 (ValueIdx.ix4 b h s e)) k)) = ValueIdx.ix2 (QBlock.row h 1 e) k :=
  funext fun a => Fin.ext (by
    have hh := h.isLt; have he := e.isLt; have hk := k.isLt
    match a with
    | ⟨0, _⟩ =>
      show ((h.val * 192 + (64 + e.val)) * 768 + k.val) / 768 = h.val * 192 + (1 : Fin 3).val * 64 + e.val
      have hp : (1 : Fin 3).val = 1 := rfl
      rw [hp]; omega
    | ⟨1, _⟩ =>
      show ((h.val * 192 + (64 + e.val)) * 768 + k.val) % 768 = k.val
      omega)

/-- The input entry the contraction reads at step `k`: batch `b`, token `s`, feature `k`. -/
theorem xidx33 (b : Fin 4) (h : Fin 12) (s : Fin 1024) (e : Fin 64) (k : Fin 768) :
    ridx_main_v21 (idx_main_v22 (ValueIdx.ix4 b h s e)) k = ValueIdx.ix3 b s k :=
  funext fun a => Fin.ext (by
    match a with
    | ⟨0, _⟩ => rfl
    | ⟨1, _⟩ => rfl
    | ⟨2, _⟩ => rfl)

/-- The bias entry the broadcasts read: row `h·192 + 1·64 + e`. -/
theorem bidx33 (b : Fin 4) (h : Fin 12) (s : Fin 1024) (e : Fin 64) :
    idx_main_v1 (idx_main_v6 (idx_main_v23 (idx_main_v26 (ValueIdx.ix4 b h s e)))) = ValueIdx.ix1 (QBlock.row h 1 e) :=
  funext fun a => Fin.ext (by
    match a with
    | ⟨0, _⟩ =>
      show h.val * 192 + (64 + e.val) = h.val * 192 + (1 : Fin 3).val * 64 + e.val
      have hp : (1 : Fin 3).val = 1 := rfl
      rw [hp]; omega)

theorem v33_eq (h0 : ∀ i, IsReal (x0 i)) (h1 : ∀ i, IsReal (x1 i)) (h2 : ∀ i, IsReal (x2 i)) (b : Fin 4) (h : Fin 12) (s : Fin 1024) (e : Fin 64) :
    val_main_v33 (F := Ideal) x0 x1 x2 (ValueIdx.ix4 b h s e) = QBlock.qkv1 (c3 x0 b) (c2 x1) (c1 x2) s (QBlock.row h 1 e) := by
  simp only [val_main_v33_apply, val_main_call1_v4_apply, val_main_call1_v3_apply, val_main_cst_6_apply,
    val_main_call1_v2_apply, val_main_call1_v1_apply, val_main_call1_v0_apply, val_main_cst_5_apply,
    val_main_v32_apply, val_main_v31_apply, val_main_v30_apply, val_main_v29_apply, val_main_v28_apply, val_main_cst_4_apply,
    val_main_v27_apply, val_main_v26_apply, val_main_v25_apply, val_main_v24_apply, val_main_cst_3_apply,
    val_main_v23_apply, val_main_v6_apply, val_main_v1_apply, val_main_v22_apply, val_main_v21_apply, val_main_v3_apply, val_main_v0_apply,
    widx33, xidx33, bidx33,
    Ideal.ofBits_def, Ideal.addf_def, Ideal.subf_def, Ideal.mulf_def, Ideal.hostDivf_def, Ideal.maximumf_def, Ideal.minimumf_def, Ideal.hostUnary_floor_def]
  exact core x0 x1 x2 h0 h1 h2 b s (QBlock.row h 1 e)

/-! ### Part 2 (value): rows `h·192 + 2·64 + e` -/

/-- The weight entry the contraction reads at step `k`: row `h·192 + 2·64 + e`, column `k`. -/
theorem widx46 (b : Fin 4) (h : Fin 12) (s : Fin 1024) (e : Fin 64) (k : Fin 768) :
    idx_main_v0 (idx_main_v4 (lidx_main_v34 (idx_main_v35 (ValueIdx.ix4 b h s e)) k)) = ValueIdx.ix2 (QBlock.row h 2 e) k :=
  funext fun a => Fin.ext (by
    have hh := h.isLt; have he := e.isLt; have hk := k.isLt
    match a with
    | ⟨0, _⟩ =>
      show ((h.val * 192 + (128 + e.val)) * 768 + k.val) / 768 = h.val * 192 + (2 : Fin 3).val * 64 + e.val
      have hp : (2 : Fin 3).val = 2 := rfl
      rw [hp]; omega
    | ⟨1, _⟩ =>
      show ((h.val * 192 + (128 + e.val)) * 768 + k.val) % 768 = k.val
      omega)

/-- The input entry the contraction reads at step `k`: batch `b`, token `s`, feature `k`. -/
theorem xidx46 (b : Fin 4) (h : Fin 12) (s : Fin 1024) (e : Fin 64) (k : Fin 768) :
    ridx_main_v34 (idx_main_v35 (ValueIdx.ix4 b h s e)) k = ValueIdx.ix3 b s k :=
  funext fun a => Fin.ext (by
    match a with
    | ⟨0, _⟩ => rfl
    | ⟨1, _⟩ => rfl
    | ⟨2, _⟩ => rfl)

/-- The bias entry the broadcasts read: row `h·192 + 2·64 + e`. -/
theorem bidx46 (b : Fin 4) (h : Fin 12) (s : Fin 1024) (e : Fin 64) :
    idx_main_v1 (idx_main_v7 (idx_main_v36 (idx_main_v39 (ValueIdx.ix4 b h s e)))) = ValueIdx.ix1 (QBlock.row h 2 e) :=
  funext fun a => Fin.ext (by
    match a with
    | ⟨0, _⟩ =>
      show h.val * 192 + (128 + e.val) = h.val * 192 + (2 : Fin 3).val * 64 + e.val
      have hp : (2 : Fin 3).val = 2 := rfl
      rw [hp]; omega)

theorem v46_eq (h0 : ∀ i, IsReal (x0 i)) (h1 : ∀ i, IsReal (x1 i)) (h2 : ∀ i, IsReal (x2 i)) (b : Fin 4) (h : Fin 12) (s : Fin 1024) (e : Fin 64) :
    val_main_v46 (F := Ideal) x0 x1 x2 (ValueIdx.ix4 b h s e) = QBlock.qkv1 (c3 x0 b) (c2 x1) (c1 x2) s (QBlock.row h 2 e) := by
  simp only [val_main_v46_apply, val_main_call2_v4_apply, val_main_call2_v3_apply, val_main_cst_10_apply,
    val_main_call2_v2_apply, val_main_call2_v1_apply, val_main_call2_v0_apply, val_main_cst_9_apply,
    val_main_v45_apply, val_main_v44_apply, val_main_v43_apply, val_main_v42_apply, val_main_v41_apply, val_main_cst_8_apply,
    val_main_v40_apply, val_main_v39_apply, val_main_v38_apply, val_main_v37_apply, val_main_cst_7_apply,
    val_main_v36_apply, val_main_v7_apply, val_main_v1_apply, val_main_v35_apply, val_main_v34_apply, val_main_v4_apply, val_main_v0_apply,
    widx46, xidx46, bidx46,
    Ideal.ofBits_def, Ideal.addf_def, Ideal.subf_def, Ideal.mulf_def, Ideal.hostDivf_def, Ideal.maximumf_def, Ideal.minimumf_def, Ideal.hostUnary_floor_def]
  exact core x0 x1 x2 h0 h1 h2 b s (QBlock.row h 2 e)

end Cert.ReferenceIdeal.RefValue

end
-- ==== Proof.RefB.lean ====
/-
  The reference's attention after the projections, read at an index: the quantized scores, the quantized mix of the
  values per head, and the heads laid side by side by the transpose and reshape.
-/
import proofs.«126809_j86406152061476_1_alg».proof.Proof.RefA
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open QBlock (c1 c2 c3 IsReal)

namespace Cert.ReferenceIdeal.RefValue

open Cert.ReferenceIdeal Cert.ReferenceIdeal.Gen Cert.ReferenceIdeal.ReadP

variable (x0 : (⟨S4x1024x768, .f32⟩ : BufTy).Contents (Elt Ideal)) (x1 : (⟨S2304x768, .f32⟩ : BufTy).Contents (Elt Ideal)) (x2 : (⟨S2304, .f32⟩ : BufTy).Contents (Elt Ideal))

/-- The quantized scores: the contraction of the query and key projections of one head over its 64 features,
    re-quantized. The straight-through rounding is the rounding because a finite sum of products of clamped
    (hence real) entries is real. -/
theorem v53_eq (h0 : ∀ i, IsReal (x0 i)) (h1 : ∀ i, IsReal (x1 i)) (h2 : ∀ i, IsReal (x2 i)) (b : Fin 4) (h : Fin 12) (s t : Fin 1024) :
    val_main_v53 (F := Ideal) x0 x1 x2 (ValueIdx.ix4 b h s t) = QBlock.score1 (c3 x0 b) (c2 x1) (c1 x2) h s t := by
  have el : ∀ k : Fin 64, lidx_main_v47 (ValueIdx.ix4 b h s t) k = ValueIdx.ix4 b h s k := fun k => funext fun a => by
    match a with | ⟨0, _⟩ => rfl | ⟨1, _⟩ => rfl | ⟨2, _⟩ => rfl | ⟨3, _⟩ => rfl
  have er : ∀ k : Fin 64, ridx_main_v47 (ValueIdx.ix4 b h s t) k = ValueIdx.ix4 b h t k := fun k => funext fun a => by
    match a with | ⟨0, _⟩ => rfl | ⟨1, _⟩ => rfl | ⟨2, _⟩ => rfl | ⟨3, _⟩ => rfl
  simp only [val_main_v53_apply, val_main_call3_v4_apply, val_main_call3_v3_apply, val_main_cst_13_apply,
    val_main_call3_v2_apply, val_main_call3_v1_apply, val_main_call3_v0_apply, val_main_cst_12_apply,
    val_main_v52_apply, val_main_v51_apply, val_main_v50_apply, val_main_v49_apply, val_main_v48_apply,
    val_main_cst_11_apply, val_main_v47_apply, el, er, v20_eq x0 x1 x2 h0 h1 h2, v33_eq x0 x1 x2 h0 h1 h2]
  simp only [Ideal.minimumf_def, Ideal.maximumf_def, Ideal.addf_def, Ideal.subf_def, Ideal.hostDivf_def,
    Ideal.hostUnary_floor_def, Ideal.ofBits_def]
  unfold QBlock.score1
  exact QBlock.rqS_eq_rq _ _ _ _ (QBlock.isReal_div_w2 (QBlock.IsReal.sum _ _ fun k _ =>
    (QBlock.isReal_qkv1 _ _ _ _ _).mul (QBlock.isReal_qkv1 _ _ _ _ _)))

/-- Each head's quantized mix of the values: the contraction of the scores with the value projection over the
    1024 key tokens, re-quantized; the sum of products of clamped entries is real. -/
theorem v60_eq (h0 : ∀ i, IsReal (x0 i)) (h1 : ∀ i, IsReal (x1 i)) (h2 : ∀ i, IsReal (x2 i)) (b : Fin 4) (h : Fin 12) (s : Fin 1024) (e : Fin 64) :
    val_main_v60 (F := Ideal) x0 x1 x2 (ValueIdx.ix4 b h s e) = QBlock.headOut1 (c3 x0 b) (c2 x1) (c1 x2) h s e := by
  have el : ∀ k : Fin 1024, lidx_main_v54 (ValueIdx.ix4 b h s e) k = ValueIdx.ix4 b h s k := fun k => funext fun a => by
    match a with | ⟨0, _⟩ => rfl | ⟨1, _⟩ => rfl | ⟨2, _⟩ => rfl | ⟨3, _⟩ => rfl
  have er : ∀ k : Fin 1024, ridx_main_v54 (ValueIdx.ix4 b h s e) k = ValueIdx.ix4 b h k e := fun k => funext fun a => by
    match a with | ⟨0, _⟩ => rfl | ⟨1, _⟩ => rfl | ⟨2, _⟩ => rfl | ⟨3, _⟩ => rfl
  simp only [val_main_v60_apply, val_main_call4_v4_apply, val_main_call4_v3_apply, val_main_cst_16_apply,
    val_main_call4_v2_apply, val_main_call4_v1_apply, val_main_call4_v0_apply, val_main_cst_15_apply,
    val_main_v59_apply, val_main_v58_apply, val_main_v57_apply, val_main_v56_apply, val_main_v55_apply,
    val_main_cst_14_apply, val_main_v54_apply, el, er, v53_eq x0 x1 x2 h0 h1 h2, v46_eq x0 x1 x2 h0 h1 h2]
  simp only [Ideal.minimumf_def, Ideal.maximumf_def, Ideal.addf_def, Ideal.subf_def, Ideal.hostDivf_def,
    Ideal.hostUnary_floor_def, Ideal.ofBits_def]
  unfold QBlock.headOut1
  exact QBlock.rqS_eq_rq _ _ _ _ (QBlock.isReal_div_w2 (QBlock.IsReal.sum _ _ fun k _ =>
    (QBlock.isReal_score1 _ _ _ _ _ _).mul (QBlock.isReal_qkv1 _ _ _ _ _)))

/-- The heads side by side: the transpose exchanges the head and token axes and the reshape merges head and
    feature, so column `o` reads feature `o % 64` of head `o / 64`. -/
theorem v62_eq (h0 : ∀ i, IsReal (x0 i)) (h1 : ∀ i, IsReal (x1 i)) (h2 : ∀ i, IsReal (x2 i)) (b : Fin 4) (s : Fin 1024) (o : Fin 768) :
    val_main_v62 (F := Ideal) x0 x1 x2 (ValueIdx.ix3 b s o) = QBlock.attn (c3 x0) (c2 x1) (c1 x2) b s o := by
  have hb := b.isLt
  have hs := s.isLt
  have ho := o.isLt
  have ei : idx_main_v61 (idx_main_v62 (ValueIdx.ix3 b s o))
      = ValueIdx.ix4 b (⟨o.val / 64, by omega⟩ : Fin 12) s (⟨o.val % 64, Nat.mod_lt _ (by norm_num)⟩ : Fin 64) :=
    funext fun a => Fin.ext (by
      match a with
      | ⟨0, _⟩ => show ((b.val * 1024 + s.val) * 768 + o.val) / 786432 = b.val; omega
      | ⟨1, _⟩ => show ((b.val * 1024 + s.val) * 768 + o.val) / 64 % 12 = o.val / 64; omega
      | ⟨2, _⟩ => show ((b.val * 1024 + s.val) * 768 + o.val) / 768 % 1024 = s.val; omega
      | ⟨3, _⟩ => show ((b.val * 1024 + s.val) * 768 + o.val) % 64 = o.val % 64; omega)
  rw [val_main_v62_apply, val_main_v61_apply, ei, v60_eq x0 x1 x2 h0 h1 h2]
  rfl

end Cert.ReferenceIdeal.RefValue

end
-- ==== Proof.RefC.lean ====
/-
  The reference's projection and MLP stages, read at an index, down to its result.
-/
import proofs.«126809_j86406152061476_1_alg».proof.Proof.RefB
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open QBlock (c1 c2 c3 IsReal)

namespace Cert.ReferenceIdeal.RefValue

open Cert.ReferenceIdeal Cert.ReferenceIdeal.Gen Cert.ReferenceIdeal.ReadP

variable (x0 : (⟨S4x1024x768, .f32⟩ : BufTy).Contents (Elt Ideal)) (x1 : (⟨S2304x768, .f32⟩ : BufTy).Contents (Elt Ideal)) (x2 : (⟨S2304, .f32⟩ : BufTy).Contents (Elt Ideal))
  (x3 : (⟨S768x768, .f32⟩ : BufTy).Contents (Elt Ideal)) (x4 : (⟨S768, .f32⟩ : BufTy).Contents (Elt Ideal))
  (x5 : (⟨S3072x768, .f32⟩ : BufTy).Contents (Elt Ideal)) (x6 : (⟨S3072, .f32⟩ : BufTy).Contents (Elt Ideal)) (x7 : (⟨S768x3072, .f32⟩ : BufTy).Contents (Elt Ideal)) (x8 : (⟨S768, .f32⟩ : BufTy).Contents (Elt Ideal))

/-- The reference's clamp of a straight-through rounded quotient is the re-quantization wherever the quotient is real. -/
theorem clampSte_eq (lo hi d v : EReal) (hq : IsReal (Ideal.div v d)) :
    min hi (max lo (Ideal.div v d + (Ideal.liftRound Int.floor (Ideal.div v d) - Ideal.div v d))) = QBlock.rq lo hi d v :=
  QBlock.rqS_eq_rq lo hi d v hq

/-! ### Index equations: where each contraction and each broadcast reads its operands -/

theorem lidx63 (b : Fin 4) (s : Fin 1024) (o : Fin 768) (k : Fin 768) :
    lidx_main_v63 (ValueIdx.ix3 b s o) k = ValueIdx.ix3 b s k :=
  funext fun a => Fin.ext (by match a with | ⟨0, _⟩ => rfl | ⟨1, _⟩ => rfl | ⟨2, _⟩ => rfl)

theorem ridx63 (b : Fin 4) (s : Fin 1024) (o : Fin 768) (k : Fin 768) :
    ridx_main_v63 (ValueIdx.ix3 b s o) k = ValueIdx.ix2 o k :=
  funext fun a => Fin.ext (by match a with | ⟨0, _⟩ => rfl | ⟨1, _⟩ => rfl)

theorem bidx67 (b : Fin 4) (s : Fin 1024) (o : Fin 768) :
    idx_main_v66 (idx_main_v67 (ValueIdx.ix3 b s o)) = ValueIdx.ix1 o :=
  funext fun a => Fin.ext (by match a with | ⟨0, _⟩ => rfl)

theorem lidx82 (b : Fin 4) (s : Fin 1024) (j : Fin 3072) (k : Fin 768) :
    lidx_main_v82 (ValueIdx.ix3 b s j) k = ValueIdx.ix3 b s k :=
  funext fun a => Fin.ext (by match a with | ⟨0, _⟩ => rfl | ⟨1, _⟩ => rfl | ⟨2, _⟩ => rfl)

theorem ridx82 (b : Fin 4) (s : Fin 1024) (j : Fin 3072) (k : Fin 768) :
    ridx_main_v82 (ValueIdx.ix3 b s j) k = ValueIdx.ix2 j k :=
  funext fun a => Fin.ext (by match a with | ⟨0, _⟩ => rfl | ⟨1, _⟩ => rfl)

theorem bidx86 (b : Fin 4) (s : Fin 1024) (j : Fin 3072) :
    idx_main_v85 (idx_main_v86 (ValueIdx.ix3 b s j)) = ValueIdx.ix1 j :=
  funext fun a => Fin.ext (by match a with | ⟨0, _⟩ => rfl)

theorem lidx94 (b : Fin 4) (s : Fin 1024) (o : Fin 768) (k : Fin 3072) :
    lidx_main_v94 (ValueIdx.ix3 b s o) k = ValueIdx.ix3 b s k :=
  funext fun a => Fin.ext (by match a with | ⟨0, _⟩ => rfl | ⟨1, _⟩ => rfl | ⟨2, _⟩ => rfl)

theorem ridx94 (b : Fin 4) (s : Fin 1024) (o : Fin 768) (k : Fin 3072) :
    ridx_main_v94 (ValueIdx.ix3 b s o) k = ValueIdx.ix2 o k :=
  funext fun a => Fin.ext (by match a with | ⟨0, _⟩ => rfl | ⟨1, _⟩ => rfl)

theorem bidx98 (b : Fin 4) (s : Fin 1024) (o : Fin 768) :
    idx_main_v97 (idx_main_v98 (ValueIdx.ix3 b s o)) = ValueIdx.ix1 o :=
  funext fun a => Fin.ext (by match a with | ⟨0, _⟩ => rfl)

/-! ### The three stages -/

/-- The output projection of the attention rows plus the bias, halved, rounded and clamped to sixteen bits, plus the
    input rounded and clamped: the projection stage of the block. -/
theorem v81_eq (h0 : ∀ i, IsReal (x0 i)) (h1 : ∀ i, IsReal (x1 i)) (h2 : ∀ i, IsReal (x2 i)) (h3 : ∀ i, IsReal (x3 i)) (h4 : ∀ i, IsReal (x4 i))
    (b : Fin 4) (s : Fin 1024) (o : Fin 768) :
    val_main_v81 (F := Ideal) x0 x1 x2 x3 x4 (ValueIdx.ix3 b s o) = QBlock.res1 (c3 x0) (c2 x1) (c1 x2) (c2 x3) (c1 x4) b s o := by
  rw [QBlock.res1_eq]
  simp only [val_main_v81_apply, val_main_v74_apply, val_main_call5_v4_apply, val_main_call5_v3_apply, val_main_cst_20_apply,
    val_main_call5_v2_apply, val_main_call5_v1_apply, val_main_call5_v0_apply, val_main_cst_19_apply,
    val_main_v73_apply, val_main_v72_apply, val_main_v71_apply, val_main_v70_apply, val_main_v69_apply, val_main_cst_18_apply,
    val_main_v68_apply, val_main_v67_apply, val_main_v66_apply, val_main_v65_apply, val_main_v64_apply, val_main_cst_17_apply,
    val_main_v63_apply,
    val_main_v80_apply, val_main_call6_v4_apply, val_main_call6_v3_apply, val_main_cst_23_apply,
    val_main_call6_v2_apply, val_main_call6_v1_apply, val_main_call6_v0_apply, val_main_cst_22_apply,
    val_main_v79_apply, val_main_v78_apply, val_main_v77_apply, val_main_v76_apply, val_main_v75_apply, val_main_cst_21_apply,
    lidx63, ridx63, bidx67, v62_eq x0 x1 x2 h0 h1 h2,
    Ideal.addf_def, Ideal.subf_def, Ideal.mulf_def, Ideal.hostDivf_def, Ideal.maximumf_def, Ideal.minimumf_def,
    Ideal.hostUnary_floor_def, Ideal.ofBits_def]
  have hv : IsReal (∑ d, QBlock.attn (c3 x0) (c2 x1) (c1 x2) b s d * x3 (ValueIdx.ix2 o d) + x4 (ValueIdx.ix1 o) * QBlock.w2) :=
    (QBlock.IsReal.sum _ _ fun d _ => (QBlock.isReal_attn _ _ _ b s d).mul (h3 _)).add ((h4 _).mul QBlock.isReal_w2)
  rw [clampSte_eq _ _ _ _ (QBlock.isReal_div_w2 hv), clampSte_eq _ _ _ _ (QBlock.isReal_div_w1 (h0 _))]

/-- The first layer over the projection stage's rows plus the bias, divided by 128, rounded and clamped to thirty-two
    bits: the hidden layer. -/
theorem v93_eq (h0 : ∀ i, IsReal (x0 i)) (h1 : ∀ i, IsReal (x1 i)) (h2 : ∀ i, IsReal (x2 i)) (h3 : ∀ i, IsReal (x3 i)) (h4 : ∀ i, IsReal (x4 i))
    (h5 : ∀ i, IsReal (x5 i)) (h6 : ∀ i, IsReal (x6 i)) (b : Fin 4) (s : Fin 1024) (j : Fin 3072) :
    val_main_v93 (F := Ideal) x0 x1 x2 x3 x4 x5 x6 (ValueIdx.ix3 b s j) = QBlock.hid (c3 x0) (c2 x1) (c1 x2) (c2 x3) (c1 x4) (c2 x5) (c1 x6) b s j := by
  rw [QBlock.hid_eq]
  simp only [val_main_v93_apply, val_main_call7_v4_apply, val_main_call7_v3_apply, val_main_cst_27_apply,
    val_main_call7_v2_apply, val_main_call7_v1_apply, val_main_call7_v0_apply, val_main_cst_26_apply,
    val_main_v92_apply, val_main_v91_apply, val_main_v90_apply, val_main_v89_apply, val_main_v88_apply, val_main_cst_25_apply,
    val_main_v87_apply, val_main_v86_apply, val_main_v85_apply, val_main_v84_apply, val_main_v83_apply, val_main_cst_24_apply,
    val_main_v82_apply,
    lidx82, ridx82, bidx86, v81_eq x0 x1 x2 x3 x4 h0 h1 h2 h3 h4,
    Ideal.addf_def, Ideal.subf_def, Ideal.mulf_def, Ideal.hostDivf_def, Ideal.maximumf_def, Ideal.minimumf_def,
    Ideal.hostUnary_floor_def, Ideal.ofBits_def]
  have hv : IsReal (∑ d, QBlock.res1 (c3 x0) (c2 x1) (c1 x2) (c2 x3) (c1 x4) b s d * x5 (ValueIdx.ix2 j d)
      + x6 (ValueIdx.ix1 j) * QBlock.w2) :=
    (QBlock.IsReal.sum _ _ fun d _ => (QBlock.isReal_res1 _ _ _ _ _ b s d).mul (h5 _)).add ((h6 _).mul QBlock.isReal_w2)
  rw [clampSte_eq _ _ _ _ (QBlock.isReal_div_w128 hv)]

/-- The second layer over the hidden rows plus the bias, divided by 512, rounded and clamped to thirty-one bits, plus
    the projection stage rounded and clamped: the block's result. -/
theorem v112_eq (h0 : ∀ i, IsReal (x0 i)) (h1 : ∀ i, IsReal (x1 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) (h8 : ∀ i, IsReal (x8 i)) (b : Fin 4) (s : Fin 1024) (o : Fin 768) :
    val_main_v112 (F := Ideal) x0 x1 x2 x3 x4 x5 x6 x7 x8 (ValueIdx.ix3 b s o)
      = QBlock.out (c3 x0) (c2 x1) (c1 x2) (c2 x3) (c1 x4) (c2 x5) (c1 x6) (c2 x7) (c1 x8) b s o := by
  rw [QBlock.out_eq]
  simp only [val_main_v112_apply, val_main_v105_apply, val_main_call8_v4_apply, val_main_call8_v3_apply, val_main_cst_31_apply,
    val_main_call8_v2_apply, val_main_call8_v1_apply, val_main_call8_v0_apply, val_main_cst_30_apply,
    val_main_v104_apply, val_main_v103_apply, val_main_v102_apply, val_main_v101_apply, val_main_v100_apply, val_main_cst_29_apply,
    val_main_v99_apply, val_main_v98_apply, val_main_v97_apply, val_main_v96_apply, val_main_v95_apply, val_main_cst_28_apply,
    val_main_v94_apply,
    val_main_v111_apply, val_main_call9_v4_apply, val_main_call9_v3_apply, val_main_cst_34_apply,
    val_main_call9_v2_apply, val_main_call9_v1_apply, val_main_call9_v0_apply, val_main_cst_33_apply,
    val_main_v110_apply, val_main_v109_apply, val_main_v108_apply, val_main_v107_apply, val_main_v106_apply, val_main_cst_32_apply,
    lidx94, ridx94, bidx98, v93_eq x0 x1 x2 x3 x4 x5 x6 h0 h1 h2 h3 h4 h5 h6, v81_eq x0 x1 x2 x3 x4 h0 h1 h2 h3 h4,
    Ideal.addf_def, Ideal.subf_def, Ideal.mulf_def, Ideal.hostDivf_def, Ideal.maximumf_def, Ideal.minimumf_def,
    Ideal.hostUnary_floor_def, Ideal.ofBits_def]
  have hv : IsReal (∑ k, QBlock.hid (c3 x0) (c2 x1) (c1 x2) (c2 x3) (c1 x4) (c2 x5) (c1 x6) b s k * x7 (ValueIdx.ix2 o k)
      + x8 (ValueIdx.ix1 o) * QBlock.w4) :=
    (QBlock.IsReal.sum _ _ fun k _ => (QBlock.isReal_hid _ _ _ _ _ _ _ b s k).mul (h7 _)).add ((h8 _).mul QBlock.isReal_w4)
  rw [clampSte_eq _ _ _ _ (QBlock.isReal_div_w512 hv),
    clampSte_eq _ _ _ _ (QBlock.isReal_div_w1 (QBlock.isReal_res1 _ _ _ _ _ b s o))]

end Cert.ReferenceIdeal.RefValue

end
-- ==== Proof.RefFold.lean ====
/-
  The reference's run read stage by stage: the fold of its 199 operations over the launch contents leaves, in the
  result buffer, the last stage function of the arguments; the arguments are written by no operation.
-/
import proofs.«126809_j86406152061476_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

open Idealize.ShloMosaic Idealize.ShloMosaic.TcCoe Idealize.SL.Sem

namespace Cert.ReferenceIdeal.RefValue

open Cert.ReferenceIdeal Cert.ReferenceIdeal.Gen Cert.ReferenceIdeal.ReadP Cert.ReferenceIdeal.ValueP Idealize.ShloMosaic.StableHlo

namespace Fold

variable {F : FTy → Type} [FloatOps F]

/-! ## The fold of a concatenation -/

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The operations, cut where a clamp ends a stage

Between two clamps every intermediate value has few consumers, so the composed term of one stretch stays small;
across a cut only the clamped values (and the arguments) are read again. -/

/-- %0 … %20: the fused weight and bias cut into their query, key and value parts, and the quantized query projection. -/
abbrev toQ : List (HloOp τ sig (Elt F)) :=
  [ reshape main_arg1 main_v0 rfl shapeCasts_S2304x768_S12x192x768,
    reshape main_arg2 main_v1 rfl shapeCasts_S2304_S12x192,
    unary main_v0 main_v2 ((extractStridedSlice S12x64x768 ![0, 0, 0] · slices_S12x192x768_S12x64x768_0_0_0) : (⟨S12x192x768, .f32⟩ : BufTy).Contents (Elt F) → (⟨S12x64x768, .f32⟩ : BufTy).Contents (Elt F)),
    unary main_v0 main_v3 ((extractStridedSlice S12x64x768 ![0, 64, 0] · slices_S12x192x768_S12x64x768_0_64_0) : (⟨S12x192x768, .f32⟩ : BufTy).Contents (Elt F) → (⟨S12x64x768, .f32⟩ : BufTy).Contents (Elt F)),
    unary main_v0 main_v4 ((extractStridedSlice S12x64x768 ![0, 128, 0] · slices_S12x192x768_S12x64x768_0_128_0) : (⟨S12x192x768, .f32⟩ : BufTy).Contents (Elt F) → (⟨S12x64x768, .f32⟩ : BufTy).Contents (Elt F)),
    unary main_v1 main_v5 ((extractStridedSlice S12x64 ![0, 0] · slices_S12x192_S12x64_0_0) : (⟨S12x192, .f32⟩ : BufTy).Contents (Elt F) → (⟨S12x64, .f32⟩ : BufTy).Contents (Elt F)),
    unary main_v1 main_v6 ((extractStridedSlice S12x64 ![0, 64] · slices_S12x192_S12x64_0_64) : (⟨S12x192, .f32⟩ : BufTy).Contents (Elt F) → (⟨S12x64, .f32⟩ : BufTy).Contents (Elt F)),
    unary main_v1 main_v7 ((extractStridedSlice S12x64 ![0, 128] · slices_S12x192_S12x64_0_128) : (⟨S12x192, .f32⟩ : BufTy).Contents (Elt F) → (⟨S12x64, .f32⟩ : BufTy).Contents (Elt F)),
    binary main_v2 main_arg0 main_v8 ((fun l r => Host.dotGeneral dot_S12x64x768_S4x1024x768_S12x64x4x1024_2_2_01_01_n_n none l r) : (⟨S12x64x768, .f32⟩ : BufTy).Contents (Elt F) → (⟨S4x1024x768, .f32⟩ : BufTy).Contents (Elt F) → (⟨S12x64x4x1024, .f32⟩ : BufTy).Contents (Elt F)),
    unary main_v8 main_v9 ((transpose S4x12x1024x64 [2, 0, 3, 1] · transposes_S12x64x4x1024_S4x12x1024x64_2_0_3_1) : (⟨S12x64x4x1024, .f32⟩ : BufTy).Contents (Elt F) → (⟨S4x12x1024x64, .f32⟩ : BufTy).Contents (Elt F)),
    unary main_v5 main_v10 (broadcastInDim S1x12x1x64 ![1, 3] bcast_S12x64_S1x12x1x64_1_3 : (⟨S12x64, .f32⟩ : BufTy).Contents (Elt F) → (⟨S1x12x1x64, .f32⟩ : BufTy).Contents (Elt F)),
    nullary main_cst (constant S_ .f32 0x40000000#32),
    unary main_cst main_v11 (broadcastInDim S1x12x1x64 ![] bcast_S_S1x12x1x64 : (⟨S_, .f32⟩ : BufTy).Contents (Elt F) → (⟨S1x12x1x64, .f32⟩ : BufTy).Contents (Elt F)),
    binary main_v10 main_v11 main_v12 (mulf : (⟨S1x12x1x64, .f32⟩ : BufTy).Contents (Elt F) → (⟨S1x12x1x64, .f32⟩ : BufTy).Contents (Elt F) → (⟨S1x12x1x64, .f32⟩ : BufTy).Contents (Elt F)),
    unary main_v12 main_v13 (broadcastInDim S4x12x1024x64 ![0, 1, 2, 3] bcast_S1x12x1x64_S4x12x1024x64_0_1_2_3 : (⟨S1x12x1x64, .f32⟩ : BufTy).Contents (Elt F) → (⟨S4x12x1024x64, .f32⟩ : BufTy).Contents (Elt F)),
    binary main_v9 main_v13 main_v14 (addf : (⟨S4x12x1024x64, .f32⟩ : BufTy).Contents (Elt F) → (⟨S4x12x1024x64, .f32⟩ : BufTy).Contents (Elt F) → (⟨S4x12x1024x64, .f32⟩ : BufTy).Contents (Elt F)),
    nullary main_cst_0 (constant S_ .f32 0x40000000#32),
    unary main_cst_0 main_v15 (broadcastInDim S4x12x1024x64 ![] bcast_S_S4x12x1024x64 : (⟨S_, .f32⟩ : BufTy).Contents (Elt F) → (⟨S4x12x1024x64, .f32⟩ : BufTy).Contents (Elt F)),
    binary main_v14 main_v15 main_v16 (Host.divf : (⟨S4x12x1024x64, .f32⟩ : BufTy).Contents (Elt F) → (⟨S4x12x1024x64, .f32⟩ : BufTy).Contents (Elt F) → (⟨S4x12x1024x64, .f32⟩ : BufTy).Contents (Elt F)),
    unary main_v16 main_v17 (Host.floor : (⟨S4x12x1024x64, .f32⟩ : BufTy).Contents (Elt F) → (⟨S4x12x1024x64, .f32⟩ : BufTy).Contents (Elt F)),
    binary main_v17 main_v16 main_v18 (subf : (⟨S4x12x1024x64, .f32⟩ : BufTy).Contents (Elt F) → (⟨S4x12x1024x64, .f32⟩ : BufTy).Contents (Elt F) → (⟨S4x12x1024x64, .f32⟩ : BufTy).Contents (Elt F)),
    binary main_v16 main_v18 main_v19 (addf : (⟨S4x12x1024x64, .f32⟩ : BufTy).Contents (Elt F) → (⟨S4x12x1024x64, .f32⟩ : BufTy).Contents (Elt F) → (⟨S4x12x1024x64, .f32⟩ : BufTy).Contents (Elt F)),
    nullary main_cst_1 (constant S_ .f32 0xC7000000#32),
    nullary main_cst_2 (constant S_ .f32 0x46FFFE00#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S4x12x1024x64, .f32⟩) main_call0_v1) (broadcastInDim S4x12x1024x64 ![] bcast_S_S4x12x1024x64),
    TRef.binary (TRef.of (T := ⟨S4x12x1024x64, .f32⟩) main_call0_v1) (TRef.of (T := ⟨S4x12x1024x64, .f32⟩) main_v19) (TRef.of (T := ⟨S4x12x1024x64, .f32⟩) main_call0_v2) maximumf,
    TRef.unary (TRef.of (T := ⟨S_, .f32⟩) main_cst_2) (TRef.of (T := ⟨S_, .f32⟩) main_call0_v3) id,
    TRef.unary (TRef.of (T := ⟨S_, .f32⟩) main_call0_v3) (TRef.of (T := ⟨S4x12x1024x64, .f32⟩) main_call0_v4) (broadcastInDim S4x12x1024x64 ![] bcast_S_S4x12x1024x64),
    TRef.binary (TRef.of (T := ⟨S4x12x1024x64, .f32⟩) main_call0_v4) (TRef.of (T := ⟨S4x12x1024x64, .f32⟩) main_call0_v2) (TRef.of (T := ⟨S4x12x1024x64, .f32⟩) main_v20) minimumf ]

/-- %21 … %33: the quantized key projection. -/
abbrev toK : List (HloOp τ sig (Elt F)) :=
  [ binary main_v3 main_arg0 main_v21 ((fun l r => Host.dotGeneral dot_S12x64x768_S4x1024x768_S12x64x4x1024_2_2_01_01_n_n none l r) : (⟨S12x64x768, .f32⟩ : BufTy).Contents (Elt F) → (⟨S4x1024x768, .f32⟩ : BufTy).Contents (Elt F) → (⟨S12x64x4x1024, .f32⟩ : BufTy).Contents (Elt F)),
    unary main_v21 main_v22 ((transpose S4x12x1024x64 [2, 0, 3, 1] · transposes_S12x64x4x1024_S4x12x1024x64_2_0_3_1) : (⟨S12x64x4x1024, .f32⟩ : BufTy).Contents (Elt F) → (⟨S4x12x1024x64, .f32⟩ : BufTy).Contents (Elt F)),
    unary main_v6 main_v23 (broadcastInDim S1x12x1x64 ![1, 3] bcast_S12x64_S1x12x1x64_1_3 : (⟨S12x64, .f32⟩ : BufTy).Contents (Elt F) → (⟨S1x12x1x64, .f32⟩ : BufTy).Contents (Elt F)),
    nullary main_cst_3 (constant S_ .f32 0x40000000#32),
    unary main_cst_3 main_v24 (broadcastInDim S1x12x1x64 ![] bcast_S_S1x12x1x64 : (⟨S_, .f32⟩ : BufTy).Contents (Elt F) → (⟨S1x12x1x64, .f32⟩ : BufTy).Contents (Elt F)),
    binary main_v23 main_v24 main_v25 (mulf : (⟨S1x12x1x64, .f32⟩ : BufTy).Contents (Elt F) → (⟨S1x12x1x64, .f32⟩ : BufTy).Contents (Elt F) → (⟨S1x12x1x64, .f32⟩ : BufTy).Contents (Elt F)),
    unary main_v25 main_v26 (broadcastInDim S4x12x1024x64 ![0, 1, 2, 3] bcast_S1x12x1x64_S4x12x1024x64_0_1_2_3 : (⟨S1x12x1x64, .f32⟩ : BufTy).Contents (Elt F) → (⟨S4x12x1024x64, .f32⟩ : BufTy).Contents (Elt F)),
    binary main_v22 main_v26 main_v27 (addf : (⟨S4x12x1024x64, .f32⟩ : BufTy).Contents (Elt F) → (⟨S4x12x1024x64, .f32⟩ : BufTy).Contents (Elt F) → (⟨S4x12x1024x64, .f32⟩ : BufTy).Contents (Elt F)),
    nullary main_cst_4 (constant S_ .f32 0x40000000#32),
    unary main_cst_4 main_v28 (broadcastInDim S4x12x1024x64 ![] bcast_S_S4x12x1024x64 : (⟨S_, .f32⟩ : BufTy).Contents (Elt F) → (⟨S4x12x1024x64, .f32⟩ : BufTy).Contents (Elt F)),
    binary main_v27 main_v28 main_v29 (Host.divf : (⟨S4x12x1024x64, .f32⟩ : BufTy).Contents (Elt F) → (⟨S4x12x1024x64, .f32⟩ : BufTy).Contents (Elt F) → (⟨S4x12x1024x64, .f32⟩ : BufTy).Contents (Elt F)),
    unary main_v29 main_v30 (Host.floor : (⟨S4x12x1024x64, .f32⟩ : BufTy).Contents (Elt F) → (⟨S4x12x1024x64, .f32⟩ : BufTy).Contents (Elt F)),
    binary main_v30 main_v29 main_v31 (subf : (⟨S4x12x1024x64, .f32⟩ : BufTy).Contents (Elt F) → (⟨S4x12x1024x64, .f32⟩ : BufTy).Contents (Elt F) → (⟨S4x12x1024x64, .f32⟩ : BufTy).Contents (Elt F)),
    binary main_v29 main_v31 main_v32 (addf : (⟨S4x12x1024x64, .f32⟩ : BufTy).Contents (Elt F) → (⟨S4x12x1024x64, .f32⟩ : BufTy).Contents (Elt F) → (⟨S4x12x1024x64, .f32⟩ : BufTy).Contents (Elt F)),
    nullary main_cst_5 (constant S_ .f32 0xC7000000#32),
    nullary main_cst_6 (constant S_ .f32 0x46FFFE00#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S4x12x1024x64, .f32⟩) main_call1_v1) (broadcastInDim S4x12x1024x64 ![] bcast_S_S4x12x1024x64),
    TRef.binary (TRef.of (T := ⟨S4x12x1024x64, .f32⟩) main_call1_v1) (TRef.of (T := ⟨S4x12x1024x64, .f32⟩) main_v32) (TRef.of (T := ⟨S4x12x1024x64, .f32⟩) main_call1_v2) maximumf,
    TRef.unary (TRef.of (T := ⟨S_, .f32⟩) main_cst_6) (TRef.of (T := ⟨S_, .f32⟩) main_call1_v3) id,
    TRef.unary (TRef.of (T := ⟨S_, .f32⟩) main_call1_v3) (TRef.of (T := ⟨S4x12x1024x64, .f32⟩) main_call1_v4) (broadcastInDim S4x12x1024x64 ![] bcast_S_S4x12x1024x64),
    TRef.binary (TRef.of (T := ⟨S4x12x1024x64, .f32⟩) main_call1_v4) (TRef.of (T := ⟨S4x12x1024x64, .f32⟩) main_call1_v2) (TRef.of (T := ⟨S4x12x1024x64, .f32⟩) main_v33) minimumf ]

/-- %34 … %46: the quantized value projection. -/
abbrev toV : List (HloOp τ sig (Elt F)) :=
  [ binary main_v4 main_arg0 main_v34 ((fun l r => Host.dotGeneral dot_S12x64x768_S4x1024x768_S12x64x4x1024_2_2_01_01_n_n none l r) : (⟨S12x64x768, .f32⟩ : BufTy).Contents (Elt F) → (⟨S4x1024x768, .f32⟩ : BufTy).Contents (Elt F) → (⟨S12x64x4x1024, .f32⟩ : BufTy).Contents (Elt F)),
    unary main_v34 main_v35 ((transpose S4x12x1024x64 [2, 0, 3, 1] · transposes_S12x64x4x1024_S4x12x1024x64_2_0_3_1) : (⟨S12x64x4x1024, .f32⟩ : BufTy).Contents (Elt F) → (⟨S4x12x1024x64, .f32⟩ : BufTy).Contents (Elt F)),
    unary main_v7 main_v36 (broadcastInDim S1x12x1x64 ![1, 3] bcast_S12x64_S1x12x1x64_1_3 : (⟨S12x64, .f32⟩ : BufTy).Contents (Elt F) → (⟨S1x12x1x64, .f32⟩ : BufTy).Contents (Elt F)),
    nullary main_cst_7 (constant S_ .f32 0x40000000#32),
    unary main_cst_7 main_v37 (broadcastInDim S1x12x1x64 ![] bcast_S_S1x12x1x64 : (⟨S_, .f32⟩ : BufTy).Contents (Elt F) → (⟨S1x12x1x64, .f32⟩ : BufTy).Contents (Elt F)),
    binary main_v36 main_v37 main_v38 (mulf : (⟨S1x12x1x64, .f32⟩ : BufTy).Contents (Elt F) → (⟨S1x12x1x64, .f32⟩ : BufTy).Contents (Elt F) → (⟨S1x12x1x64, .f32⟩ : BufTy).Contents (Elt F)),
    unary main_v38 main_v39 (broadcastInDim S4x12x1024x64 ![0, 1, 2, 3] bcast_S1x12x1x64_S4x12x1024x64_0_1_2_3 : (⟨S1x12x1x64, .f32⟩ : BufTy).Contents (Elt F) → (⟨S4x12x1024x64, .f32⟩ : BufTy).Contents (Elt F)),
    binary main_v35 main_v39 main_v40 (addf : (⟨S4x12x1024x64, .f32⟩ : BufTy).Contents (Elt F) → (⟨S4x12x1024x64, .f32⟩ : BufTy).Contents (Elt F) → (⟨S4x12x1024x64, .f32⟩ : BufTy).Contents (Elt F)),
    nullary main_cst_8 (constant S_ .f32 0x40000000#32),
    unary main_cst_8 main_v41 (broadcastInDim S4x12x1024x64 ![] bcast_S_S4x12x1024x64 : (⟨S_, .f32⟩ : BufTy).Contents (Elt F) → (⟨S4x12x1024x64, .f32⟩ : BufTy).Contents (Elt F)),
    binary main_v40 main_v41 main_v42 (Host.divf : (⟨S4x12x1024x64, .f32⟩ : BufTy).Contents (Elt F) → (⟨S4x12x1024x64, .f32⟩ : BufTy).Contents (Elt F) → (⟨S4x12x1024x64, .f32⟩ : BufTy).Contents (Elt F)),
    unary main_v42 main_v43 (Host.floor : (⟨S4x12x1024x64, .f32⟩ : BufTy).Contents (Elt F) → (⟨S4x12x1024x64, .f32⟩ : BufTy).Contents (Elt F)),
    binary main_v43 main_v42 main_v44 (subf : (⟨S4x12x1024x64, .f32⟩ : BufTy).Contents (Elt F) → (⟨S4x12x1024x64, .f32⟩ : BufTy).Contents (Elt F) → (⟨S4x12x1024x64, .f32⟩ : BufTy).Contents (Elt F)),
    binary main_v42 main_v44 main_v45 (addf : (⟨S4x12x1024x64, .f32⟩ : BufTy).Contents (Elt F) → (⟨S4x12x1024x64, .f32⟩ : BufTy).Contents (Elt F) → (⟨S4x12x1024x64, .f32⟩ : BufTy).Contents (Elt F)),
    nullary main_cst_9 (constant S_ .f32 0xC7000000#32),
    nullary main_cst_10 (constant S_ .f32 0x46FFFE00#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S4x12x1024x64, .f32⟩) main_call2_v1) (broadcastInDim S4x12x1024x64 ![] bcast_S_S4x12x1024x64),
    TRef.binary (TRef.of (T := ⟨S4x12x1024x64, .f32⟩) main_call2_v1) (TRef.of (T := ⟨S4x12x1024x64, .f32⟩) main_v45) (TRef.of (T := ⟨S4x12x1024x64, .f32⟩) main_call2_v2) maximumf,
    TRef.unary (TRef.of (T := ⟨S_, .f32⟩) main_cst_10) (TRef.of (T := ⟨S_, .f32⟩) main_call2_v3) id,
    TRef.unary (TRef.of (T := ⟨S_, .f32⟩) main_call2_v3) (TRef.of (T := ⟨S4x12x1024x64, .f32⟩) main_call2_v4) (broadcastInDim S4x12x1024x64 ![] bcast_S_S4x12x1024x64),
    TRef.binary (TRef.of (T := ⟨S4x12x1024x64, .f32⟩) main_call2_v4) (TRef.of (T := ⟨S4x12x1024x64, .f32⟩) main_call2_v2) (TRef.of (T := ⟨S4x12x1024x64, .f32⟩) main_v46) minimumf ]

/-- %47 … %53: the quantized scores, query against key. -/
abbrev toScores : List (HloOp τ sig (Elt F)) :=
  [ binary main_v20 main_v33 main_v47 ((fun l r => Host.dotGeneral dot_S4x12x1024x64_S4x12x1024x64_S4x12x1024x1024_3_3_2_2_01_01 none l r) : (⟨S4x12x1024x64, .f32⟩ : BufTy).Contents (Elt F) → (⟨S4x12x1024x64, .f32⟩ : BufTy).Contents (Elt F) → (⟨S4x12x1024x1024, .f32⟩ : BufTy).Contents (Elt F)),
    nullary main_cst_11 (constant S_ .f32 0x40000000#32),
    unary main_cst_11 main_v48 (broadcastInDim S4x12x1024x1024 ![] bcast_S_S4x12x1024x1024 : (⟨S_, .f32⟩ : BufTy).Contents (Elt F) → (⟨S4x12x1024x1024, .f32⟩ : BufTy).Contents (Elt F)),
    binary main_v47 main_v48 main_v49 (Host.divf : (⟨S4x12x1024x1024, .f32⟩ : BufTy).Contents (Elt F) → (⟨S4x12x1024x1024, .f32⟩ : BufTy).Contents (Elt F) → (⟨S4x12x1024x1024, .f32⟩ : BufTy).Contents (Elt F)),
    unary main_v49 main_v50 (Host.floor : (⟨S4x12x1024x1024, .f32⟩ : BufTy).Contents (Elt F) → (⟨S4x12x1024x1024, .f32⟩ : BufTy).Contents (Elt F)),
    binary main_v50 main_v49 main_v51 (subf : (⟨S4x12x1024x1024, .f32⟩ : BufTy).Contents (Elt F) → (⟨S4x12x1024x1024, .f32⟩ : BufTy).Contents (Elt F) → (⟨S4x12x1024x1024, .f32⟩ : BufTy).Contents (Elt F)),
    binary main_v49 main_v51 main_v52 (addf : (⟨S4x12x1024x1024, .f32⟩ : BufTy).Contents (Elt F) → (⟨S4x12x1024x1024, .f32⟩ : BufTy).Contents (Elt F) → (⟨S4x12x1024x1024, .f32⟩ : BufTy).Contents (Elt F)),
    nullary main_cst_12 (constant S_ .f32 0xC7000000#32),
    nullary main_cst_13 (constant S_ .f32 0x46FFFE00#32),
    TRef.unary (TRef.of (T := ⟨S_, .f32⟩) main_cst_12) (TRef.of (T := ⟨S_, .f32⟩) main_call3_v0) id,
    TRef.unary (TRef.of (T := ⟨S_, .f32⟩) main_call3_v0) (TRef.of (T := ⟨S4x12x1024x1024, .f32⟩) main_call3_v1) (broadcastInDim S4x12x1024x1024 ![] bcast_S_S4x12x1024x1024),
    TRef.binary (TRef.of (T := ⟨S4x12x1024x1024, .f32⟩) main_call3_v1) (TRef.of (T := ⟨S4x12x1024x1024, .f32⟩) main_v52) (TRef.of (T := ⟨S4x12x1024x1024, .f32⟩) main_call3_v2) maximumf,
    TRef.unary (TRef.of (T := ⟨S_, .f32⟩) main_cst_13) (TRef.of (T := ⟨S_, .f32⟩) main_call3_v3) id,
    TRef.unary (TRef.of (T := ⟨S_, .f32⟩) main_call3_v3) (TRef.of (T := ⟨S4x12x1024x1024, .f32⟩) main_call3_v4) (broadcastInDim S4x12x1024x1024 ![] bcast_S_S4x12x1024x1024),
    TRef.binary (TRef.of (T := ⟨S4x12x1024x1024, .f32⟩) main_call3_v4) (TRef.of (T := ⟨S4x12x1024x1024, .f32⟩) main_call3_v2) (TRef.of (T := ⟨S4x12x1024x1024, .f32⟩) main_v53) minimumf ]

/-- %54 … %60: the quantized mix of the values by the scores. -/
abbrev toHeads : List (HloOp τ sig (Elt F)) :=
  [ binary main_v53 main_v46 main_v54 ((fun l r => Host.dotGeneral dot_S4x12x1024x1024_S4x12x1024x64_S4x12x1024x64_3_2_2_3_01_01 none l r) : (⟨S4x12x1024x1024, .f32⟩ : BufTy).Contents (Elt F) → (⟨S4x12x1024x64, .f32⟩ : BufTy).Contents (Elt F) → (⟨S4x12x1024x64, .f32⟩ : BufTy).Contents (Elt F)),
    nullary main_cst_14 (constant S_ .f32 0x40000000#32),
    unary main_cst_14 main_v55 (broadcastInDim S4x12x1024x64 ![] bcast_S_S4x12x1024x64 : (⟨S_, .f32⟩ : BufTy).Contents (Elt F) → (⟨S4x12x1024x64, .f32⟩ : BufTy).Contents (Elt F)),
    binary main_v54 main_v55 main_v56 (Host.divf : (⟨S4x12x1024x64, .f32⟩ : BufTy).Contents (Elt F) → (⟨S4x12x1024x64, .f32⟩ : BufTy).Contents (Elt F) → (⟨S4x12x1024x64, .f32⟩ : BufTy).Contents (Elt F)),
    unary main_v56 main_v57 (Host.floor : (⟨S4x12x1024x64, .f32⟩ : BufTy).Contents (Elt F) → (⟨S4x12x1024x64, .f32⟩ : BufTy).Contents (Elt F)),
    binary main_v57 main_v56 main_v58 (subf : (⟨S4x12x1024x64, .f32⟩ : BufTy).Contents (Elt F) → (⟨S4x12x1024x64, .f32⟩ : BufTy).Contents (Elt F) → (⟨S4x12x1024x64, .f32⟩ : BufTy).Contents (Elt F)),
    binary main_v56 main_v58 main_v59 (addf : (⟨S4x12x1024x64, .f32⟩ : BufTy).Contents (Elt F) → (⟨S4x12x1024x64, .f32⟩ : BufTy).Contents (Elt F) → (⟨S4x12x1024x64, .f32⟩ : BufTy).Contents (Elt F)),
    nullary main_cst_15 (constant S_ .f32 0xC7000000#32),
    nullary main_cst_16 (constant S_ .f32 0x46FFFE00#32),
    TRef.unary (TRef.of (T := ⟨S_, .f32⟩) main_cst_15) (TRef.of (T := ⟨S_, .f32⟩) main_call4_v0) id,
    TRef.unary (TRef.of (T := ⟨S_, .f32⟩) main_call4_v0) (TRef.of (T := ⟨S4x12x1024x64, .f32⟩) main_call4_v1) (broadcastInDim S4x12x1024x64 ![] bcast_S_S4x12x1024x64),
    TRef.binary (TRef.of (T := ⟨S4x12x1024x64, .f32⟩) main_call4_v1) (TRef.of (T := ⟨S4x12x1024x64, .f32⟩) main_v59) (TRef.of (T := ⟨S4x12x1024x64, .f32⟩) main_call4_v2) maximumf,
    TRef.unary (TRef.of (T := ⟨S_, .f32⟩) main_cst_16) (TRef.of (T := ⟨S_, .f32⟩) main_call4_v3) id,
    TRef.unary (TRef.of (T := ⟨S_, .f32⟩) main_call4_v3) (TRef.of (T := ⟨S4x12x1024x64, .f32⟩) main_call4_v4) (broadcastInDim S4x12x1024x64 ![] bcast_S_S4x12x1024x64),
    TRef.binary (TRef.of (T := ⟨S4x12x1024x64, .f32⟩) main_call4_v4) (TRef.of (T := ⟨S4x12x1024x64, .f32⟩) main_call4_v2) (TRef.of (T := ⟨S4x12x1024x64, .f32⟩) main_v60) minimumf ]

/-- %61 … %74: the heads side by side, and the quantized output projection. -/
abbrev toProj : List (HloOp τ sig (Elt F)) :=
  [ unary main_v60 main_v61 ((transpose S4x1024x12x64 [0, 2, 1, 3] · transposes_S4x12x1024x64_S4x1024x12x64_0_2_1_3) : (⟨S4x12x1024x64, .f32⟩ : BufTy).Contents (Elt F) → (⟨S4x1024x12x64, .f32⟩ : BufTy).Contents (Elt F)),
    reshape main_v61 main_v62 rfl shapeCasts_S4x1024x12x64_S4x1024x768,
    binary main_v62 main_arg3 main_v63 ((fun l r => Host.dotGeneral dot_S4x1024x768_S768x768_S4x1024x768_2_1_01_0_n_n none l r) : (⟨S4x1024x768, .f32⟩ : BufTy).Contents (Elt F) → (⟨S768x768, .f32⟩ : BufTy).Contents (Elt F) → (⟨S4x1024x768, .f32⟩ : BufTy).Contents (Elt F)),
    nullary main_cst_17 (constant S_ .f32 0x40000000#32),
    unary main_cst_17 main_v64 (broadcastInDim S768 ![] bcast_S_S768 : (⟨S_, .f32⟩ : BufTy).Contents (Elt F) → (⟨S768, .f32⟩ : BufTy).Contents (Elt F)),
    binary main_arg4 main_v64 main_v65 (mulf : (⟨S768, .f32⟩ : BufTy).Contents (Elt F) → (⟨S768, .f32⟩ : BufTy).Contents (Elt F) → (⟨S768, .f32⟩ : BufTy).Contents (Elt F)),
    unary main_v65 main_v66 (broadcastInDim S1x1x768 ![2] bcast_S768_S1x1x768_2 : (⟨S768, .f32⟩ : BufTy).Contents (Elt F) → (⟨S1x1x768, .f32⟩ : BufTy).Contents (Elt F)),
    unary main_v66 main_v67 (broadcastInDim S4x1024x768 ![0, 1, 2] bcast_S1x1x768_S4x1024x768_0_1_2 : (⟨S1x1x768, .f32⟩ : BufTy).Contents (Elt F) → (⟨S4x1024x768, .f32⟩ : BufTy).Contents (Elt F)),
    binary main_v63 main_v67 main_v68 (addf : (⟨S4x1024x768, .f32⟩ : BufTy).Contents (Elt F) → (⟨S4x1024x768, .f32⟩ : BufTy).Contents (Elt F) → (⟨S4x1024x768, .f32⟩ : BufTy).Contents (Elt F)),
    nullary main_cst_18 (constant S_ .f32 0x40000000#32),
    unary main_cst_18 main_v69 (broadcastInDim S4x1024x768 ![] bcast_S_S4x1024x768 : (⟨S_, .f32⟩ : BufTy).Contents (Elt F) → (⟨S4x1024x768, .f32⟩ : BufTy).Contents (Elt F)),
    binary main_v68 main_v69 main_v70 (Host.divf : (⟨S4x1024x768, .f32⟩ : BufTy).Contents (Elt F) → (⟨S4x1024x768, .f32⟩ : BufTy).Contents (Elt F) → (⟨S4x1024x768, .f32⟩ : BufTy).Contents (Elt F)),
    unary main_v70 main_v71 (Host.floor : (⟨S4x1024x768, .f32⟩ : BufTy).Contents (Elt F) → (⟨S4x1024x768, .f32⟩ : BufTy).Contents (Elt F)),
    binary main_v71 main_v70 main_v72 (subf : (⟨S4x1024x768, .f32⟩ : BufTy).Contents (Elt F) → (⟨S4x1024x768, .f32⟩ : BufTy).Contents (Elt F) → (⟨S4x1024x768, .f32⟩ : BufTy).Contents (Elt F)),
    binary main_v70 main_v72 main_v73 (addf : (⟨S4x1024x768, .f32⟩ : BufTy).Contents (Elt F) → (⟨S4x1024x768, .f32⟩ : BufTy).Contents (Elt F) → (⟨S4x1024x768, .f32⟩ : BufTy).Contents (Elt F)),
    nullary main_cst_19 (constant S_ .f32 0xC7000000#32),
    nullary main_cst_20 (constant S_ .f32 0x46FFFE00#32),
    TRef.unary (TRef.of (T := ⟨S_, .f32⟩) main_cst_19) (TRef.of (T := ⟨S_, .f32⟩) main_call5_v0) id,
    TRef.unary (TRef.of (T := ⟨S_, .f32⟩) main_call5_v0) (TRef.of (T := ⟨S4x1024x768, .f32⟩) main_call5_v1) (broadcastInDim S4x1024x768 ![] bcast_S_S4x1024x768),
    TRef.binary (TRef.of (T := ⟨S4x1024x768, .f32⟩) main_call5_v1) (TRef.of (T := ⟨S4x1024x768, .f32⟩) main_v73) (TRef.of (T := ⟨S4x1024x768, .f32⟩) main_call5_v2) maximumf,
    TRef.unary (TRef.of (T := ⟨S_, .f32⟩) main_cst_20) (TRef.of (T := ⟨S_, .f32⟩) main_call5_v3) id,
    TRef.unary (TRef.of (T := ⟨S_, .f32⟩) main_call5_v3) (TRef.of (T := ⟨S4x1024x768, .f32⟩) main_call5_v4) (broadcastInDim S4x1024x768 ![] bcast_S_S4x1024x768),
    TRef.binary (TRef.of (T := ⟨S4x1024x768, .f32⟩) main_call5_v4) (TRef.of (T := ⟨S4x1024x768, .f32⟩) main_call5_v2) (TRef.of (T := ⟨S4x1024x768, .f32⟩) main_v74) minimumf ]

/-- %75 … %80: the re-quantized input. -/
abbrev toResid : List (HloOp τ sig (Elt F)) :=
  [ nullary main_cst_21 (constant S_ .f32 0x3F800000#32),
    unary main_cst_21 main_v75 (broadcastInDim S4x1024x768 ![] bcast_S_S4x1024x768 : (⟨S_, .f32⟩ : BufTy).Contents (Elt F) → (⟨S4x1024x768, .f32⟩ : BufTy).Contents (Elt F)),
    binary main_arg0 main_v75 main_v76 (Host.divf : (⟨S4x1024x768, .f32⟩ : BufTy).Contents (Elt F) → (⟨S4x1024x768, .f32⟩ : BufTy).Contents (Elt F) → (⟨S4x1024x768, .f32⟩ : BufTy).Contents (Elt F)),
    unary main_v76 main_v77 (Host.floor : (⟨S4x1024x768, .f32⟩ : BufTy).Contents (Elt F) → (⟨S4x1024x768, .f32⟩ : BufTy).Contents (Elt F)),
    binary main_v77 main_v76 main_v78 (subf : (⟨S4x1024x768, .f32⟩ : BufTy).Contents (Elt F) → (⟨S4x1024x768, .f32⟩ : BufTy).Contents (Elt F) → (⟨S4x1024x768, .f32⟩ : BufTy).Contents (Elt F)),
    binary main_v76 main_v78 main_v79 (addf : (⟨S4x1024x768, .f32⟩ : BufTy).Contents (Elt F) → (⟨S4x1024x768, .f32⟩ : BufTy).Contents (Elt F) → (⟨S4x1024x768, .f32⟩ : BufTy).Contents (Elt F)),
    nullary main_cst_22 (constant S_ .f32 0xC7000000#32),
    nullary main_cst_23 (constant S_ .f32 0x46FFFE00#32),
    TRef.unary (TRef.of (T := ⟨S_, .f32⟩) main_cst_22) (TRef.of (T := ⟨S_, .f32⟩) main_call6_v0) id,
    TRef.unary (TRef.of (T := ⟨S_, .f32⟩) main_call6_v0) (TRef.of (T := ⟨S4x1024x768, .f32⟩) main_call6_v1) (broadcastInDim S4x1024x768 ![] bcast_S_S4x1024x768),
    TRef.binary (TRef.of (T := ⟨S4x1024x768, .f32⟩) main_call6_v1) (TRef.of (T := ⟨S4x1024x768, .f32⟩) main_v79) (TRef.of (T := ⟨S4x1024x768, .f32⟩) main_call6_v2) maximumf,
    TRef.unary (TRef.of (T := ⟨S_, .f32⟩) main_cst_23) (TRef.of (T := ⟨S_, .f32⟩) main_call6_v3) id,
    TRef.unary (TRef.of (T := ⟨S_, .f32⟩) main_call6_v3) (TRef.of (T := ⟨S4x1024x768, .f32⟩) main_call6_v4) (broadcastInDim S4x1024x768 ![] bcast_S_S4x1024x768),
    TRef.binary (TRef.of (T := ⟨S4x1024x768, .f32⟩) main_call6_v4) (TRef.of (T := ⟨S4x1024x768, .f32⟩) main_call6_v2) (TRef.of (T := ⟨S4x1024x768, .f32⟩) main_v80) minimumf ]

/-- %81 … %93: the first residual sum and the quantized hidden layer. -/
abbrev toHidden : List (HloOp τ sig (Elt F)) :=
  [ binary main_v74 main_v80 main_v81 (addf : (⟨S4x1024x768, .f32⟩ : BufTy).Contents (Elt F) → (⟨S4x1024x768, .f32⟩ : BufTy).Contents (Elt F) → (⟨S4x1024x768, .f32⟩ : BufTy).Contents (Elt F)),
    binary main_v81 main_arg5 main_v82 ((fun l r => Host.dotGeneral dot_S4x1024x768_S3072x768_S4x1024x3072_2_1_01_0_n_n none l r) : (⟨S4x1024x768, .f32⟩ : BufTy).Contents (Elt F) → (⟨S3072x768, .f32⟩ : BufTy).Contents (Elt F) → (⟨S4x1024x3072, .f32⟩ : BufTy).Contents (Elt F)),
    nullary main_cst_24 (constant S_ .f32 0x40000000#32),
    unary main_cst_24 main_v83 (broadcastInDim S3072 ![] bcast_S_S3072 : (⟨S_, .f32⟩ : BufTy).Contents (Elt F) → (⟨S3072, .f32⟩ : BufTy).Contents (Elt F)),
    binary main_arg6 main_v83 main_v84 (mulf : (⟨S3072, .f32⟩ : BufTy).Contents (Elt F) → (⟨S3072, .f32⟩ : BufTy).Contents (Elt F) → (⟨S3072, .f32⟩ : BufTy).Contents (Elt F)),
    unary main_v84 main_v85 (broadcastInDim S1x1x3072 ![2] bcast_S3072_S1x1x3072_2 : (⟨S3072, .f32⟩ : BufTy).Contents (Elt F) → (⟨S1x1x3072, .f32⟩ : BufTy).Contents (Elt F)),
    unary main_v85 main_v86 (broadcastInDim S4x1024x3072 ![0, 1, 2] bcast_S1x1x3072_S4x1024x3072_0_1_2 : (⟨S1x1x3072, .f32⟩ : BufTy).Contents (Elt F) → (⟨S4x1024x3072, .f32⟩ : BufTy).Contents (Elt F)),
    binary main_v82 main_v86 main_v87 (addf : (⟨S4x1024x3072, .f32⟩ : BufTy).Contents (Elt F) → (⟨S4x1024x3072, .f32⟩ : BufTy).Contents (Elt F) → (⟨S4x1024x3072, .f32⟩ : BufTy).Contents (Elt F)),
    nullary main_cst_25 (constant S_ .f32 0x43000000#32),
    unary main_cst_25 main_v88 (broadcastInDim S4x1024x3072 ![] bcast_S_S4x1024x3072 : (⟨S_, .f32⟩ : BufTy).Contents (Elt F) → (⟨S4x1024x3072, .f32⟩ : BufTy).Contents (Elt F)),
    binary main_v87 main_v88 main_v89 (Host.divf : (⟨S4x1024x3072, .f32⟩ : BufTy).Contents (Elt F) → (⟨S4x1024x3072, .f32⟩ : BufTy).Contents (Elt F) → (⟨S4x1024x3072, .f32⟩ : BufTy).Contents (Elt F)),
    unary main_v89 main_v90 (Host.floor : (⟨S4x1024x3072, .f32⟩ : BufTy).Contents (Elt F) → (⟨S4x1024x3072, .f32⟩ : BufTy).Contents (Elt F)),
    binary main_v90 main_v89 main_v91 (subf : (⟨S4x1024x3072, .f32⟩ : BufTy).Contents (Elt F) → (⟨S4x1024x3072, .f32⟩ : BufTy).Contents (Elt F) → (⟨S4x1024x3072, .f32⟩ : BufTy).Contents (Elt F)),
    binary main_v89 main_v91 main_v92 (addf : (⟨S4x1024x3072, .f32⟩ : BufTy).Contents (Elt F) → (⟨S4x1024x3072, .f32⟩ : BufTy).Contents (Elt F) → (⟨S4x1024x3072, .f32⟩ : BufTy).Contents (Elt F)),
    nullary main_cst_26 (constant S_ .f32 0xCF000000#32),
    nullary main_cst_27 (constant S_ .f32 0x4F000000#32),
    TRef.unary (TRef.of (T := ⟨S_, .f32⟩) main_cst_26) (TRef.of (T := ⟨S_, .f32⟩) main_call7_v0) id,
    TRef.unary (TRef.of (T := ⟨S_, .f32⟩) main_call7_v0) (TRef.of (T := ⟨S4x1024x3072, .f32⟩) main_call7_v1) (broadcastInDim S4x1024x3072 ![] bcast_S_S4x1024x3072),
    TRef.binary (TRef.of (T := ⟨S4x1024x3072, .f32⟩) main_call7_v1) (TRef.of (T := ⟨S4x1024x3072, .f32⟩) main_v92) (TRef.of (T := ⟨S4x1024x3072, .f32⟩) main_call7_v2) maximumf,
    TRef.unary (TRef.of (T := ⟨S_, .f32⟩) main_cst_27) (TRef.of (T := ⟨S_, .f32⟩) main_call7_v3) id,
    TRef.unary (TRef.of (T := ⟨S_, .f32⟩) main_call7_v3) (TRef.of (T := ⟨S4x1024x3072, .f32⟩) main_call7_v4) (broadcastInDim S4x1024x3072 ![] bcast_S_S4x1024x3072),
    TRef.binary (TRef.of (T := ⟨S4x1024x3072, .f32⟩) main_call7_v4) (TRef.of (T := ⟨S4x1024x3072, .f32⟩) main_call7_v2) (TRef.of (T := ⟨S4x1024x3072, .f32⟩) main_v93) minimumf ]

/-- %94 … %105: the quantized second layer. -/
abbrev toMlp : List (HloOp τ sig (Elt F)) :=
  [ binary main_v93 main_arg7 main_v94 ((fun l r => Host.dotGeneral dot_S4x1024x3072_S768x3072_S4x1024x768_2_1_01_0_n_n none l r) : (⟨S4x1024x3072, .f32⟩ : BufTy).Contents (Elt F) → (⟨S768x3072, .f32⟩ : BufTy).Contents (Elt F) → (⟨S4x1024x768, .f32⟩ : BufTy).Contents (Elt F)),
    nullary main_cst_28 (constant S_ .f32 0x40800000#32),
    unary main_cst_28 main_v95 (broadcastInDim S768 ![] bcast_S_S768 : (⟨S_, .f32⟩ : BufTy).Contents (Elt F) → (⟨S768, .f32⟩ : BufTy).Contents (Elt F)),
    binary main_arg8 main_v95 main_v96 (mulf : (⟨S768, .f32⟩ : BufTy).Contents (Elt F) → (⟨S768, .f32⟩ : BufTy).Contents (Elt F) → (⟨S768, .f32⟩ : BufTy).Contents (Elt F)),
    unary main_v96 main_v97 (broadcastInDim S1x1x768 ![2] bcast_S768_S1x1x768_2 : (⟨S768, .f32⟩ : BufTy).Contents (Elt F) → (⟨S1x1x768, .f32⟩ : BufTy).Contents (Elt F)),
    unary main_v97 main_v98 (broadcastInDim S4x1024x768 ![0, 1, 2] bcast_S1x1x768_S4x1024x768_0_1_2 : (⟨S1x1x768, .f32⟩ : BufTy).Contents (Elt F) → (⟨S4x1024x768, .f32⟩ : BufTy).Contents (Elt F)),
    binary main_v94 main_v98 main_v99 (addf : (⟨S4x1024x768, .f32⟩ : BufTy).Contents (Elt F) → (⟨S4x1024x768, .f32⟩ : BufTy).Contents (Elt F) → (⟨S4x1024x768, .f32⟩ : BufTy).Contents (Elt F)),
    nullary main_cst_29 (constant S_ .f32 0x44000000#32),
    unary main_cst_29 main_v100 (broadcastInDim S4x1024x768 ![] bcast_S_S4x1024x768 : (⟨S_, .f32⟩ : BufTy).Contents (Elt F) → (⟨S4x1024x768, .f32⟩ : BufTy).Contents (Elt F)),
    binary main_v99 main_v100 main_v101 (Host.divf : (⟨S4x1024x768, .f32⟩ : BufTy).Contents (Elt F) → (⟨S4x1024x768, .f32⟩ : BufTy).Contents (Elt F) → (⟨S4x1024x768, .f32⟩ : BufTy).Contents (Elt F)),
    unary main_v101 main_v102 (Host.floor : (⟨S4x1024x768, .f32⟩ : BufTy).Contents (Elt F) → (⟨S4x1024x768, .f32⟩ : BufTy).Contents (Elt F)),
    binary main_v102 main_v101 main_v103 (subf : (⟨S4x1024x768, .f32⟩ : BufTy).Contents (Elt F) → (⟨S4x1024x768, .f32⟩ : BufTy).Contents (Elt F) → (⟨S4x1024x768, .f32⟩ : BufTy).Contents (Elt F)),
    binary main_v101 main_v103 main_v104 (addf : (⟨S4x1024x768, .f32⟩ : BufTy).Contents (Elt F) → (⟨S4x1024x768, .f32⟩ : BufTy).Contents (Elt F) → (⟨S4x1024x768, .f32⟩ : BufTy).Contents (Elt F)),
    nullary main_cst_30 (constant S_ .f32 0xCE800000#32),
    nullary main_cst_31 (constant S_ .f32 0x4E800000#32),
    TRef.unary (TRef.of (T := ⟨S_, .f32⟩) main_cst_30) (TRef.of (T := ⟨S_, .f32⟩) main_call8_v0) id,
    TRef.unary (TRef.of (T := ⟨S_, .f32⟩) main_call8_v0) (TRef.of (T := ⟨S4x1024x768, .f32⟩) main_call8_v1) (broadcastInDim S4x1024x768 ![] bcast_S_S4x1024x768),
    TRef.binary (TRef.of (T := ⟨S4x1024x768, .f32⟩) main_call8_v1) (TRef.of (T := ⟨S4x1024x768, .f32⟩) main_v104) (TRef.of (T := ⟨S4x1024x768, .f32⟩) main_call8_v2) maximumf,
    TRef.unary (TRef.of (T := ⟨S_, .f32⟩) main_cst_31) (TRef.of (T := ⟨S_, .f32⟩) main_call8_v3) id,
    TRef.unary (TRef.of (T := ⟨S_, .f32⟩) main_call8_v3) (TRef.of (T := ⟨S4x1024x768, .f32⟩) main_call8_v4) (broadcastInDim S4x1024x768 ![] bcast_S_S4x1024x768),
    TRef.binary (TRef.of (T := ⟨S4x1024x768, .f32⟩) main_call8_v4) (TRef.of (T := ⟨S4x1024x768, .f32⟩) main_call8_v2) (TRef.of (T := ⟨S4x1024x768, .f32⟩) main_v105) minimumf ]

/-- %106 … %112: the re-quantized first residual sum, and the result. -/
abbrev toOut : List (HloOp τ sig (Elt F)) :=
  [ nullary main_cst_32 (constant S_ .f32 0x3F800000#32),
    unary main_cst_32 main_v106 (broadcastInDim S4x1024x768 ![] bcast_S_S4x1024x768 : (⟨S_, .f32⟩ : BufTy).Contents (Elt F) → (⟨S4x1024x768, .f32⟩ : BufTy).Contents (Elt F)),
    binary main_v81 main_v106 main_v107 (Host.divf : (⟨S4x1024x768, .f32⟩ : BufTy).Contents (Elt F) → (⟨S4x1024x768, .f32⟩ : BufTy).Contents (Elt F) → (⟨S4x1024x768, .f32⟩ : BufTy).Contents (Elt F)),
    unary main_v107 main_v108 (Host.floor : (⟨S4x1024x768, .f32⟩ : BufTy).Contents (Elt F) → (⟨S4x1024x768, .f32⟩ : BufTy).Contents (Elt F)),
    binary main_v108 main_v107 main_v109 (subf : (⟨S4x1024x768, .f32⟩ : BufTy).Contents (Elt F) → (⟨S4x1024x768, .f32⟩ : BufTy).Contents (Elt F) → (⟨S4x1024x768, .f32⟩ : BufTy).Contents (Elt F)),
    binary main_v107 main_v109 main_v110 (addf : (⟨S4x1024x768, .f32⟩ : BufTy).Contents (Elt F) → (⟨S4x1024x768, .f32⟩ : BufTy).Contents (Elt F) → (⟨S4x1024x768, .f32⟩ : BufTy).Contents (Elt F)),
    nullary main_cst_33 (constant S_ .f32 0xCE800000#32),
    nullary main_cst_34 (constant S_ .f32 0x4E800000#32),
    TRef.unary (TRef.of (T := ⟨S_, .f32⟩) main_cst_33) (TRef.of (T := ⟨S_, .f32⟩) main_call9_v0) id,
    TRef.unary (TRef.of (T := ⟨S_, .f32⟩) main_call9_v0) (TRef.of (T := ⟨S4x1024x768, .f32⟩) main_call9_v1) (broadcastInDim S4x1024x768 ![] bcast_S_S4x1024x768),
    TRef.binary (TRef.of (T := ⟨S4x1024x768, .f32⟩) main_call9_v1) (TRef.of (T := ⟨S4x1024x768, .f32⟩) main_v110) (TRef.of (T := ⟨S4x1024x768, .f32⟩) main_call9_v2) maximumf,
    TRef.unary (TRef.of (T := ⟨S_, .f32⟩) main_cst_34) (TRef.of (T := ⟨S_, .f32⟩) main_call9_v3) id,
    TRef.unary (TRef.of (T := ⟨S_, .f32⟩) main_call9_v3) (TRef.of (T := ⟨S4x1024x768, .f32⟩) main_call9_v4) (broadcastInDim S4x1024x768 ![] bcast_S_S4x1024x768),
    TRef.binary (TRef.of (T := ⟨S4x1024x768, .f32⟩) main_call9_v4) (TRef.of (T := ⟨S4x1024x768, .f32⟩) main_call9_v2) (TRef.of (T := ⟨S4x1024x768, .f32⟩) main_v111) minimumf,
    binary main_v105 main_v111 main_v112 (addf : (⟨S4x1024x768, .f32⟩ : BufTy).Contents (Elt F) → (⟨S4x1024x768, .f32⟩ : BufTy).Contents (Elt F) → (⟨S4x1024x768, .f32⟩ : BufTy).Contents (Elt F)) ]

set_option maxRecDepth 8192 in
/-- The reference's operations are the stretches in order. -/
theorem ops_eq : (ops : List (HloOp τ sig (Elt F)))
    = toQ ++ (toK ++ (toV ++ (toScores ++ (toHeads ++ (toProj ++ (toResid ++ (toHidden ++ (toMlp ++ (toOut))))))))) := rfl

/-! ## The arguments' buffers -/

section Stages

variable (x0 : (⟨S4x1024x768, .f32⟩ : BufTy).Contents (Elt F)) (x1 : (⟨S2304x768, .f32⟩ : BufTy).Contents (Elt F)) (x2 : (⟨S2304, .f32⟩ : BufTy).Contents (Elt F)) (x3 : (⟨S768x768, .f32⟩ : BufTy).Contents (Elt F)) (x4 : (⟨S768, .f32⟩ : BufTy).Contents (Elt F)) (x5 : (⟨S3072x768, .f32⟩ : BufTy).Contents (Elt F)) (x6 : (⟨S3072, .f32⟩ : BufTy).Contents (Elt F)) (x7 : (⟨S768x3072, .f32⟩ : BufTy).Contents (Elt F)) (x8 : (⟨S768, .f32⟩ : BufTy).Contents (Elt F))

/-- The nine argument buffers of `V` hold `x0 … x8`. -/
structure ArgsAt (V : Valuation τ sig (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8

variable {x0} {x1} {x2} {x3} {x4} {x5} {x6} {x7} {x8}

/-- A line that leaves the argument buffers as it found them keeps what they hold. -/
theorem ArgsAt.keep {V : Valuation τ sig (Elt F)} (h : ArgsAt x0 x1 x2 x3 x4 x5 x6 x7 x8 V) (s : List (HloOp τ sig (Elt F)))
    (k0 : after s V (Proc.devRef .tc main_arg0) = V (Proc.devRef .tc main_arg0))
    (k1 : after s V (Proc.devRef .tc main_arg1) = V (Proc.devRef .tc main_arg1))
    (k2 : after s V (Proc.devRef .tc main_arg2) = V (Proc.devRef .tc main_arg2))
    (k3 : after s V (Proc.devRef .tc main_arg3) = V (Proc.devRef .tc main_arg3))
    (k4 : after s V (Proc.devRef .tc main_arg4) = V (Proc.devRef .tc main_arg4))
    (k5 : after s V (Proc.devRef .tc main_arg5) = V (Proc.devRef .tc main_arg5))
    (k6 : after s V (Proc.devRef .tc main_arg6) = V (Proc.devRef .tc main_arg6))
    (k7 : after s V (Proc.devRef .tc main_arg7) = V (Proc.devRef .tc main_arg7))
    (k8 : after s V (Proc.devRef .tc main_arg8) = V (Proc.devRef .tc main_arg8)) :
    ArgsAt x0 x1 x2 x3 x4 x5 x6 x7 x8 (after s V) :=
  ⟨k0.trans h.a0, k1.trans h.a1, k2.trans h.a2, k3.trans h.a3, k4.trans h.a4, k5.trans h.a5, k6.trans h.a6, k7.trans h.a7, k8.trans h.a8⟩

variable {U : Valuation τ sig (Elt F)}

/-! ## No stretch writes an argument -/

theorem toQ_args (h : ArgsAt x0 x1 x2 x3 x4 x5 x6 x7 x8 U) : ArgsAt x0 x1 x2 x3 x4 x5 x6 x7 x8 (after toQ U) :=
  h.keep toQ (by after_results_simp) (by after_results_simp) (by after_results_simp) (by after_results_simp) (by after_results_simp) (by after_results_simp) (by after_results_simp) (by after_results_simp) (by after_results_simp)

theorem toK_args (h : ArgsAt x0 x1 x2 x3 x4 x5 x6 x7 x8 U) : ArgsAt x0 x1 x2 x3 x4 x5 x6 x7 x8 (after toK U) :=
  h.keep toK (by after_results_simp) (by after_results_simp) (by after_results_simp) (by after_results_simp) (by after_results_simp) (by after_results_simp) (by after_results_simp) (by after_results_simp) (by after_results_simp)

theorem toV_args (h : ArgsAt x0 x1 x2 x3 x4 x5 x6 x7 x8 U) : ArgsAt x0 x1 x2 x3 x4 x5 x6 x7 x8 (after toV U) :=
  h.keep toV (by after_results_simp) (by after_results_simp) (by after_results_simp) (by after_results_simp) (by after_results_simp) (by after_results_simp) (by after_results_simp) (by after_results_simp) (by after_results_simp)

theorem toScores_args (h : ArgsAt x0 x1 x2 x3 x4 x5 x6 x7 x8 U) : ArgsAt x0 x1 x2 x3 x4 x5 x6 x7 x8 (after toScores U) :=
  h.keep toScores (by after_results_simp) (by after_results_simp) (by after_results_simp) (by after_results_simp) (by after_results_simp) (by after_results_simp) (by after_results_simp) (by after_results_simp) (by after_results_simp)

theorem toHeads_args (h : ArgsAt x0 x1 x2 x3 x4 x5 x6 x7 x8 U) : ArgsAt x0 x1 x2 x3 x4 x5 x6 x7 x8 (after toHeads U) :=
  h.keep toHeads (by after_results_simp) (by after_results_simp) (by after_results_simp) (by after_results_simp) (by after_results_simp) (by after_results_simp) (by after_results_simp) (by after_results_simp) (by after_results_simp)

theorem toProj_args (h : ArgsAt x0 x1 x2 x3 x4 x5 x6 x7 x8 U) : ArgsAt x0 x1 x2 x3 x4 x5 x6 x7 x8 (after toProj U) :=
  h.keep toProj (by after_results_simp) (by after_results_simp) (by after_results_simp) (by after_results_simp) (by after_results_simp) (by after_results_simp) (by after_results_simp) (by after_results_simp) (by after_results_simp)

theorem toResid_args (h : ArgsAt x0 x1 x2 x3 x4 x5 x6 x7 x8 U) : ArgsAt x0 x1 x2 x3 x4 x5 x6 x7 x8 (after toResid U) :=
  h.keep toResid (by after_results_simp) (by after_results_simp) (by after_results_simp) (by after_results_simp) (by after_results_simp) (by after_results_simp) (by after_results_simp) (by after_results_simp) (by after_results_simp)

theorem toHidden_args (h : ArgsAt x0 x1 x2 x3 x4 x5 x6 x7 x8 U) : ArgsAt x0 x1 x2 x3 x4 x5 x6 x7 x8 (after toHidden U) :=
  h.keep toHidden (by after_results_simp) (by after_results_simp) (by after_results_simp) (by after_results_simp) (by after_results_simp) (by after_results_simp) (by after_results_simp) (by after_results_simp) (by after_results_simp)

theorem toMlp_args (h : ArgsAt x0 x1 x2 x3 x4 x5 x6 x7 x8 U) : ArgsAt x0 x1 x2 x3 x4 x5 x6 x7 x8 (after toMlp U) :=
  h.keep toMlp (by after_results_simp) (by after_results_simp) (by after_results_simp) (by after_results_simp) (by after_results_simp) (by after_results_simp) (by after_results_simp) (by after_results_simp) (by after_results_simp)

theorem toOut_args (h : ArgsAt x0 x1 x2 x3 x4 x5 x6 x7 x8 U) : ArgsAt x0 x1 x2 x3 x4 x5 x6 x7 x8 (after toOut U) :=
  h.keep toOut (by after_results_simp) (by after_results_simp) (by after_results_simp) (by after_results_simp) (by after_results_simp) (by after_results_simp) (by after_results_simp) (by after_results_simp) (by after_results_simp)

/-! ## What each stretch leaves in the buffers read after it

Each is read off the fold for an arbitrary valuation `U` before the stretch: the stretch's operations applied to what
`U` holds at the buffers the stretch reads, which by hypothesis is an earlier stage of the arguments; the stage
functions unfold to the same operations. -/

/-- The quantized query projection. -/
theorem toQ_v20 (h : ArgsAt x0 x1 x2 x3 x4 x5 x6 x7 x8 U) :
    after toQ U (Proc.devRef .tc main_v20) = val_main_v20 x0 x1 x2 := by
  after_results_simp
  rw [h.a0, h.a1, h.a2]
  rfl

/-- The key rows of the fused weight. -/
theorem toQ_v3 (h : ArgsAt x0 x1 x2 x3 x4 x5 x6 x7 x8 U) :
    after toQ U (Proc.devRef .tc main_v3) = val_main_v3 x1 := by
  after_results_simp
  rw [h.a1]
  rfl

/-- The value rows of the fused weight. -/
theorem toQ_v4 (h : ArgsAt x0 x1 x2 x3 x4 x5 x6 x7 x8 U) :
    after toQ U (Proc.devRef .tc main_v4) = val_main_v4 x1 := by
  after_results_simp
  rw [h.a1]
  rfl

/-- The key part of the fused bias. -/
theorem toQ_v6 (h : ArgsAt x0 x1 x2 x3 x4 x5 x6 x7 x8 U) :
    after toQ U (Proc.devRef .tc main_v6) = val_main_v6 x2 := by
  after_results_simp
  rw [h.a2]
  rfl

/-- The value part of the fused bias. -/
theorem toQ_v7 (h : ArgsAt x0 x1 x2 x3 x4 x5 x6 x7 x8 U) :
    after toQ U (Proc.devRef .tc main_v7) = val_main_v7 x2 := by
  after_results_simp
  rw [h.a2]
  rfl

/-- The quantized key projection. -/
theorem toK_v33 (h : ArgsAt x0 x1 x2 x3 x4 x5 x6 x7 x8 U) (h3 : U (Proc.devRef .tc main_v3) = val_main_v3 x1) (h6 : U (Proc.devRef .tc main_v6) = val_main_v6 x2) :
    after toK U (Proc.devRef .tc main_v33) = val_main_v33 x0 x1 x2 := by
  after_results_simp
  rw [h.a0, h3, h6]
  rfl

theorem toK_v20 : after toK U (Proc.devRef .tc main_v20) = U (Proc.devRef .tc main_v20) := by
  after_results_simp

theorem toK_v4 : after toK U (Proc.devRef .tc main_v4) = U (Proc.devRef .tc main_v4) := by
  after_results_simp

theorem toK_v7 : after toK U (Proc.devRef .tc main_v7) = U (Proc.devRef .tc main_v7) := by
  after_results_simp

/-- The quantized value projection. -/
theorem toV_v46 (h : ArgsAt x0 x1 x2 x3 x4 x5 x6 x7 x8 U) (h4 : U (Proc.devRef .tc main_v4) = val_main_v4 x1) (h7 : U (Proc.devRef .tc main_v7) = val_main_v7 x2) :
    after toV U (Proc.devRef .tc main_v46) = val_main_v46 x0 x1 x2 := by
  after_results_simp
  rw [h.a0, h4, h7]
  rfl

theorem toV_v20 : after toV U (Proc.devRef .tc main_v20) = U (Proc.devRef .tc main_v20) := by
  after_results_simp

theorem toV_v33 : after toV U (Proc.devRef .tc main_v33) = U (Proc.devRef .tc main_v33) := by
  after_results_simp

/-- The quantized scores. -/
theorem toScores_v53 (h20 : U (Proc.devRef .tc main_v20) = val_main_v20 x0 x1 x2) (h33 : U (Proc.devRef .tc main_v33) = val_main_v33 x0 x1 x2) :
    after toScores U (Proc.devRef .tc main_v53) = val_main_v53 x0 x1 x2 := by
  after_results_simp
  rw [h20, h33]
  rfl

theorem toScores_v46 : after toScores U (Proc.devRef .tc main_v46) = U (Proc.devRef .tc main_v46) := by
  after_results_simp

/-- The quantized mix of the values. -/
theorem toHeads_v60 (h53 : U (Proc.devRef .tc main_v53) = val_main_v53 x0 x1 x2) (h46 : U (Proc.devRef .tc main_v46) = val_main_v46 x0 x1 x2) :
    after toHeads U (Proc.devRef .tc main_v60) = val_main_v60 x0 x1 x2 := by
  after_results_simp
  rw [h53, h46]
  rfl

/-- The quantized output projection. -/
theorem toProj_v74 (h : ArgsAt x0 x1 x2 x3 x4 x5 x6 x7 x8 U) (h60 : U (Proc.devRef .tc main_v60) = val_main_v60 x0 x1 x2) :
    after toProj U (Proc.devRef .tc main_v74) = val_main_v74 x0 x1 x2 x3 x4 := by
  after_results_simp
  rw [h60, h.a3, h.a4]
  rfl

/-- The re-quantized input. -/
theorem toResid_v80 (h : ArgsAt x0 x1 x2 x3 x4 x5 x6 x7 x8 U) :
    after toResid U (Proc.devRef .tc main_v80) = val_main_v80 x0 := by
  after_results_simp
  rw [h.a0]
  rfl

theorem toResid_v74 : after toResid U (Proc.devRef .tc main_v74) = U (Proc.devRef .tc main_v74) := by
  after_results_simp

/-- The first residual sum. -/
theorem toHidden_v81 (h74 : U (Proc.devRef .tc main_v74) = val_main_v74 x0 x1 x2 x3 x4) (h80 : U (Proc.devRef .tc main_v80) = val_main_v80 x0) :
    after toHidden U (Proc.devRef .tc main_v81) = val_main_v81 x0 x1 x2 x3 x4 := by
  after_results_simp
  rw [h74, h80]
  rfl

/-- The quantized hidden layer. -/
theorem toHidden_v93 (h : ArgsAt x0 x1 x2 x3 x4 x5 x6 x7 x8 U) (h74 : U (Proc.devRef .tc main_v74) = val_main_v74 x0 x1 x2 x3 x4) (h80 : U (Proc.devRef .tc main_v80) = val_main_v80 x0) :
    after toHidden U (Proc.devRef .tc main_v93) = val_main_v93 x0 x1 x2 x3 x4 x5 x6 := by
  after_results_simp
  rw [h74, h80, h.a5, h.a6]
  rfl

/-- The quantized second layer. -/
theorem toMlp_v105 (h : ArgsAt x0 x1 x2 x3 x4 x5 x6 x7 x8 U) (h93 : U (Proc.devRef .tc main_v93) = val_main_v93 x0 x1 x2 x3 x4 x5 x6) :
    after toMlp U (Proc.devRef .tc main_v105) = val_main_v105 x0 x1 x2 x3 x4 x5 x6 x7 x8 := by
  after_results_simp
  rw [h93, h.a7, h.a8]
  rfl

theorem toMlp_v81 : after toMlp U (Proc.devRef .tc main_v81) = U (Proc.devRef .tc main_v81) := by
  after_results_simp

/-- The result. -/
theorem toOut_v112 (h105 : U (Proc.devRef .tc main_v105) = val_main_v105 x0 x1 x2 x3 x4 x5 x6 x7 x8) (h81 : U (Proc.devRef .tc main_v81) = val_main_v81 x0 x1 x2 x3 x4) :
    after toOut U (Proc.devRef .tc main_v112) = val_main_v112 x0 x1 x2 x3 x4 x5 x6 x7 x8 := by
  after_results_simp
  rw [h105, h81]
  rfl

/-! ## The whole fold -/

/-- No operation writes an argument. -/
theorem ops_args {W : Valuation τ sig (Elt F)} (h : ArgsAt x0 x1 x2 x3 x4 x5 x6 x7 x8 W) : ArgsAt x0 x1 x2 x3 x4 x5 x6 x7 x8 (after ops W) := by
  rw [ops_eq]; simp only [after_append]
  exact toOut_args (toMlp_args (toHidden_args (toResid_args (toProj_args (toHeads_args (toScores_args (toV_args (toK_args (toQ_args h)))))))))

/-- The result buffer after all the operations holds the last stage of the arguments: the stretches in order, each
    handing the next the stages it has reached. -/
theorem ops_v112 {W : Valuation τ sig (Elt F)} (h : ArgsAt x0 x1 x2 x3 x4 x5 x6 x7 x8 W) :
    after ops W (Proc.devRef .tc main_v112) = val_main_v112 x0 x1 x2 x3 x4 x5 x6 x7 x8 := by
  rw [ops_eq]; simp only [after_append]
  have a1 := toQ_args h
  have a2 := toK_args a1
  have a3 := toV_args a2
  have a4 := toScores_args a3
  have a5 := toHeads_args a4
  have a6 := toProj_args a5
  have a7 := toResid_args a6
  have a8 := toHidden_args a7
  have a9 := toMlp_args a8
  have q := toQ_v20 h
  have k := toK_v33 a1 (toQ_v3 h) (toQ_v6 h)
  have v := toV_v46 a2 (toK_v4.trans (toQ_v4 h)) (toK_v7.trans (toQ_v7 h))
  have sc := toScores_v53 (toV_v20.trans (toK_v20.trans q)) (toV_v33.trans k)
  have hd := toHeads_v60 sc (toScores_v46.trans v)
  have pr := toProj_v74 a5 hd
  have rs := toResid_v80 a6
  have r1 := toHidden_v81 (toResid_v74.trans pr) rs
  have hi := toHidden_v93 a7 (toResid_v74.trans pr) rs
  have ml := toMlp_v105 a8 hi
  exact toOut_v112 ml (toMlp_v81.trans r1)

end Stages

end Fold

/-- The reference's run, its result at the last stage of the launch contents. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v112) = val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hW : Fold.ArgsAt (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (launchContents m c) :=
      ⟨rfl, rfl, rfl, rfl, rfl, rfl, rfl, rfl, rfl⟩
    have hA := Fold.ops_args hW
    ⟨(h c main_v112).trans (Fold.ops_v112 hW), (h c main_arg0).trans hA.a0, (h c main_arg1).trans hA.a1, (h c main_arg2).trans hA.a2,
      (h c main_arg3).trans hA.a3, (h c main_arg4).trans hA.a4, (h c main_arg5).trans hA.a5, (h c main_arg6).trans hA.a6,
      (h c main_arg7).trans hA.a7, (h c main_arg8).trans hA.a8⟩)
    (ValueP.run_fold m ρ)

end Cert.ReferenceIdeal.RefValue

end
-- ==== Proof.Finite.lean ====
/-
  The precondition read: `finite_inputs` all ones says every entry of every argument array is a real number
  (its absolute value lies below `+∞`, which rules out both infinities).
-/
import proofs.«126809_j86406152061476_1_alg».proof.Proof.Gen.Pre_finite_inputs
import proofs.«126809_j86406152061476_1_alg».proof.Proof.Spec
import Idealize.ShloMosaic.Lib.ReduceAll
import Idealize.ShloMosaic.Lib.ValueIdx

noncomputable section

open Idealize.ShloMosaic
open QBlock (IsReal)

namespace Cert.Pre_finite_inputs.Fin

open Cert.Pre_finite_inputs

/-- The word the predicate compares against denotes `+∞`: exponent all ones, fraction zero, sign clear. -/
theorem inf_word : (FloatOps.ofBits .f32 0x7F800000#32 : Ideal .f32) = (⊤ : EReal) := by
  show Ideal.ofBits .f32 0x7F800000#32 = ⊤
  simp [Ideal.ofBits, Ideal.ieee]

/-- An extended real whose absolute value `max x (-x)` lies strictly below `+∞` is a real number:
    at either infinity the absolute value is `+∞` itself. -/
theorem isReal_of_abs_lt_top (x : EReal) (h : Ideal.cmp .olt (max x (-x)) ⊤ = 1#1) : IsReal x := by
  induction x using EReal.rec with
  | bot => simp [Ideal.cmp] at h
  | top => simp [Ideal.cmp] at h
  | coe r => exact ⟨r, rfl⟩

/-- One array of any shape: if the conjunction over all its entries of `|x i| < +∞` came out 1, every entry is real. -/
theorem all_real {s : Shape} {axes : List (Fin s.rank)} (hb : S_.BroadcastsInDim s (![] : Fin 0 → Fin s.rank))
    (hr : s.ReducesTo axes S_) (hS : 0 < S_.numel) (x : FVec Ideal s .f32)
    (e : Host.reduce IntOp.andi (cmpf .olt (Host.absf x) (broadcastInDim s ![] hb (constant S_ .f32 0x7F800000#32)))
          (constantI S_ 1 1#1) hr hS ValueIdx.ix0 = 1#1) (i : s.Idx) : IsReal (x i) := by
  -- the result of the reduction has a single index, so every entry of the compared array feeds it
  haveI : Subsingleton S_.Idx := ⟨fun a b => funext fun d => d.elim0⟩
  have h1 := Host.reduce_andi_all _ _ hr hS ValueIdx.ix0 e i
  apply isReal_of_abs_lt_top
  rw [← inf_word]
  exact h1

theorem real_of_pre [Cert.Pre_finite_inputs.Facts]
    (x0 : FVec Ideal S4x1024x768 .f32) (x1 : FVec Ideal S2304x768 .f32) (x2 : FVec Ideal S2304 .f32) (x3 : FVec Ideal S768x768 .f32) (x4 : FVec Ideal S768 .f32)
    (x5 : FVec Ideal S3072x768 .f32) (x6 : FVec Ideal S3072 .f32) (x7 : FVec Ideal S768x3072 .f32) (x8 : FVec Ideal S768 .f32)
    (h : Cert.Pre_finite_inputs.fn (F := Ideal) x0 x1 x2 x3 x4 x5 x6 x7 x8 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) := by
  -- the predicate's one word is the conjunction, left to right, of the nine per-array conjunctions
  have h0 := congrFun h ValueIdx.ix0
  dsimp only [fn, fn_part1, fn_part2, andi] at h0
  simp only [IntOp.andi_eq_one] at h0
  obtain ⟨⟨⟨⟨⟨⟨⟨⟨e0, e1⟩, e2⟩, e3⟩, e4⟩, e5⟩, e6⟩, e7⟩, e8⟩ := h0
  exact ⟨all_real _ _ _ x0 e0, all_real _ _ _ x1 e1, all_real _ _ _ x2 e2, all_real _ _ _ x3 e3, all_real _ _ _ x4 e4,
    all_real _ _ _ x5 e5, all_real _ _ _ x6 e6, all_real _ _ _ x7 e7, all_real _ _ _ x8 e8⟩

end Cert.Pre_finite_inputs.Fin

end
-- ==== Proof.lean ====
/-
  The certificate of the quantized transformer block: the Pallas program of three calls (attention per batch element,
  the output projection with its residual, the MLP with its residual) against the jnp reference.

  Both programs apply the same re-quantization, divide by a power of two, round down, clamp to a signed range, after
  every matrix product. The kernel rounds with `floor`; the reference writes the rounding straight-through, as
  `q + (floor q - q)`, which is `floor q` exactly when `q` is a real number. Under the precondition every input entry
  is real, a finite sum of products of real entries is real, and every clamp between two real bounds returns a real
  number whatever it is given, so at each of the ten rounding sites the quotient is real and the two forms agree
  (Proof/Spec.lean). With that one law the two programs are the same function of the nine arrays, stage by stage: the
  kernel's side is read off the three regions' blocks (Proof/K0Point.lean, K0Array.lean, K1.lean, K2.lean) and through
  the host's reshapes between them (Proof/KChain.lean); the reference's side is its operations read at an index
  (Proof/RefA.lean, RefB.lean, RefC.lean) over its run read stage by stage (Proof/RefFold.lean). The only other
  difference is the order of the two factors in the first matrix product, and products commute.

  The frames of the two kernel programs are the generated ones; the reference's frame is its run with the result
  dropped; the idealization rewrote nothing, so `preserves` is trivial.
-/
import proofs.«126809_j86406152061476_1_alg».proof.Defs
import proofs.«126809_j86406152061476_1_alg».proof.Proof.Gen.Kernel
import proofs.«126809_j86406152061476_1_alg».proof.Proof.Gen.Kernel.Skeleton
import proofs.«126809_j86406152061476_1_alg».proof.Proof.Gen.Kernel.Launch
import proofs.«126809_j86406152061476_1_alg».proof.Proof.Gen.Kernel.Points
import proofs.«126809_j86406152061476_1_alg».proof.Proof.Gen.Kernel.Frame
import proofs.«126809_j86406152061476_1_alg».proof.Proof.Gen.KernelIdeal
import proofs.«126809_j86406152061476_1_alg».proof.Proof.Gen.KernelIdeal.Skeleton
import proofs.«126809_j86406152061476_1_alg».proof.Proof.Gen.KernelIdeal.Launch
import proofs.«126809_j86406152061476_1_alg».proof.Proof.Gen.KernelIdeal.Points
import proofs.«126809_j86406152061476_1_alg».proof.Proof.Gen.KernelIdeal.Frame
import proofs.«126809_j86406152061476_1_alg».proof.Proof.Gen.ReferenceIdeal
import proofs.«126809_j86406152061476_1_alg».proof.Proof.Gen.Pre_finite_inputs
import proofs.«126809_j86406152061476_1_alg».proof.Proof.KChain
import proofs.«126809_j86406152061476_1_alg».proof.Proof.RefC
import proofs.«126809_j86406152061476_1_alg».proof.Proof.RefFold
import proofs.«126809_j86406152061476_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.ref_run m ρ)

theorem preserves : Cert.preserves_Kernel_KernelIdeal := trivial

/-- At the ideal instance the kernel program's result array ends at the block's specification of the launch arrays
    (Proof/KChain.lean) and the reference's at its last stage of arrays that agree (Proof/RefFold.lean), which on real
    entries is the same specification, index by index (Proof/RefC.lean). -/
theorem algebraic : Cert.algebraic_KernelIdeal_ReferenceIdeal := by
  intro m ρ m' ρ' hpre hagree
  refine ⟨fun c => Cert.KernelIdeal.KVal.outArr m c, Cert.KernelIdeal.KVal.run m ρ, ?_⟩
  refine (θ_run Cert.ReferenceIdeal.defs _ _).mono (fun _ h c => ⟨(h c).1.trans ?_, (h c).2⟩)
    (Cert.ReferenceIdeal.RefValue.ref_run m' ρ')
  obtain ⟨e0, e1, e2, e3, e4, e5, e6, e7, e8⟩ := hagree c
  rw [e0, e1, e2, e3, e4, e5, e6, e7, e8]
  obtain ⟨r0, r1, r2, r3, r4, r5, r6, r7, r8⟩ := Cert.Pre_finite_inputs.Fin.real_of_pre _ _ _ _ _ _ _ _ _ (hpre c)
  funext i
  obtain ⟨b, s, o, rfl⟩ : ∃ (b : Fin 4) (s : Fin 1024) (o : Fin 768), i = ValueIdx.ix3 b s o :=
    ⟨i 0, i 1, i 2, ValueIdx.eq_ix3 i⟩
  exact Cert.ReferenceIdeal.RefValue.v112_eq _ _ _ _ _ _ _ _ _ r0 r1 r2 r3 r4 r5 r6 r7 r8 b s o

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
